-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S100000x128 : Shape := ⟨2, ![100000, 128]⟩
abbrev S128x256 : Shape := ⟨2, ![128, 256]⟩
abbrev S256 : Shape := ⟨1, ![256]⟩
abbrev S256x256 : Shape := ⟨2, ![256, 256]⟩
abbrev S_ : Shape := ⟨0, ![]⟩
abbrev S1x800000 : Shape := ⟨2, ![1, 800000]⟩
abbrev S800000 : Shape := ⟨1, ![800000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg0 : IVec S2x800000 32) (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_c_19 : IVec S_ 1 := constantI S_ 1 1#1
  let main_v53 : IVec S_ 1 := (fun x v => Host.reduce IntOp.andi x v reducesTo_S800000_S_d0 h_S_) main_v52 main_c_19
  let main_v54 : IVec S_ 1 := andi main_v48 main_v53
  let main_v55 : IVec S1x800000 32 := (extractStridedSlice S1x800000 ![0, 0] · slices_S2x800000_S1x800000_0_0) main_arg0
  let main_v56 : IVec S800000 32 := shapeCast S800000 main_v55 shapeCasts_S1x800000_S800000
  let main_c_20 : IVec S_ 32 := constantI S_ 32 100000#32
  let main_v57 : IVec S800000 32 := broadcastInDim S800000 ![] bcast_S_S800000 main_c_20
  let main_v58 : IVec S800000 1 := cmpi .slt main_v56 main_v57
  let main_c_21 : IVec S_ 1 := constantI S_ 1 1#1
  let main_v59 : IVec S_ 1 := (fun x v => Host.reduce IntOp.andi x v reducesTo_S800000_S_d0 h_S_) main_v58 main_c_21
  let main_v60 : IVec S_ 1 := andi main_v54 main_v59
  main_v60

def fn_part2 {F : FTy → Type} [FloatOps F] (main_arg0 : IVec S2x800000 32) (main_arg8 : FVec F S256 .f32) (main_arg9 : FVec F S256 .f32) (main_arg10 : FVec F S128x256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S128x256 .f32 := Host.absf main_arg10
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : IVec S1x800000 32 := (extractStridedSlice S1x800000 ![0, 0] · slices_S2x800000_S1x800000_0_0) main_arg0
  let main_v50 : IVec S800000 32 := shapeCast S800000 main_v49 shapeCasts_S1x800000_S800000
  let main_c_18 : IVec S_ 32 := constantI S_ 32 0#32
  fn_part3 (F := F) main_arg0 main_v48 main_v50 main_c_18

def fn_part1 {F : FTy → Type} [FloatOps F] (main_arg0 : IVec S2x800000 32) (main_arg5 : FVec F S256 .f32) (main_arg6 : FVec F S256x256 .f32) (main_arg7 : FVec F S256 .f32) (main_arg8 : FVec F S256 .f32) (main_arg9 : FVec F S256 .f32) (main_arg10 : FVec F S128x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg0 main_arg8 main_arg9 main_arg10 main_v33

def fn {F : FTy → Type} [FloatOps F] (main_arg0 : IVec S2x800000 32) (main_arg1 : FVec F S100000x128 .f32) (main_arg2 : FVec F S128x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S128x256 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg5 main_arg6 main_arg7 main_arg8 main_arg9 main_arg10 main_v13 main_v16
-- ==== Kernel.lean ====
abbrev S2x800000 : Shape := ⟨2, ![2, 800000]⟩
abbrev S100000x128 : Shape := ⟨2, ![100000, 128]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S100000x256 : Shape := ⟨2, ![100000, 256]⟩
abbrev S2000x128 : Shape := ⟨2, ![2000, 128]⟩
abbrev S2000x256 : Shape := ⟨2, ![2000, 256]⟩
abbrev S1 : Shape := ⟨1, ![1]⟩
abbrev S1x1 : Shape := ⟨2, ![1, 1]⟩
abbrev S800000x256 : Shape := ⟨2, ![800000, 256]⟩
abbrev S1x256 : Shape := ⟨2, ![1, 256]⟩
abbrev S2000x1 : Shape := ⟨2, ![2000, 1]⟩

abbrev nBuf : Space → Nat
  | .hbm => 141
  | .vmem => 57
  | .smem => 0
  | _ => 0

abbrev hbmTy0_0 (i : Nat) : BufTy := match i % 128 with
  | 0 => ⟨S2x800000, .i32⟩
  | 1 => ⟨S100000x128, .f32⟩
  | 2 => ⟨S128x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S128x256, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S100000, .f32⟩
  | 19 => ⟨S800000x1, .i32⟩
  | 20 => ⟨S100000, .f32⟩
  | 21 => ⟨S_, .f32⟩
  | 22 => ⟨S100000, .f32⟩
  | 23 => ⟨S100000, .f32⟩
  | 24 => ⟨S_, .f32⟩
  | 25 => ⟨S100000, .f32⟩
  | 26 => ⟨S100000, .f32⟩
  | 27 => ⟨S100000, .f32⟩
  | 28 => ⟨S100000x1, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S100000x256, .f32⟩
  | 49 => ⟨S100000x256, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S1, .i32⟩
  | 59 => ⟨S_, .i32⟩
  | 60 => ⟨S800000x1, .i32⟩
  | 61 => ⟨S800000x1, .i1⟩
  | 62 => ⟨S1x1, .i32⟩
  | 63 => ⟨S800000x1, .i32⟩
  | 64 => ⟨S800000x1, .i1⟩
  | 65 => ⟨S800000x1, .i1⟩
  | 66 => ⟨S_, .i1⟩
  | 67 => ⟨S800000, .i1⟩
  | 68 => ⟨S800000x256, .f32⟩
  | 69 => ⟨S800000x256, .i1⟩
  | 70 => ⟨S_, .f32⟩
  | 71 => ⟨S800000x256, .f32⟩
  | 72 => ⟨S800000x256, .f32⟩
  | 73 => ⟨S800000x1, .f32⟩
  | 74 => ⟨S800000x256, .f32⟩
  | 75 => ⟨S800000x256, .f32⟩
  | 76 => ⟨S_, .f32⟩
  | 77 => ⟨S100000x256, .f32⟩
  | 78 => ⟨S800000x1, .i32⟩
  | 79 => ⟨S100000x256, .f32⟩
  | 80 => ⟨S1x256, .f32⟩
  | 81 => ⟨S100000x256, .f32⟩
  | 82 => ⟨S1x256, .f32⟩
  | 83 => ⟨S1x256, .f32⟩
  | 84 => ⟨S_, .f32⟩
  | 85 => ⟨S1x256, .f32⟩
  | 86 => ⟨S1x256, .f32⟩
  | 87 => ⟨S_, .f32⟩
  | 88 => ⟨S1x256, .f32⟩
  | 89 => ⟨S1x256, .f32⟩
  | 90 => ⟨S1x256, .f32⟩
  | 91 => ⟨S1x256, .f32⟩
  | 92 => ⟨S1x256, .f32⟩
  | 93 => ⟨S1x256, .f32⟩
  | 94 => ⟨S100000x256, .f32⟩
  | 95 => ⟨S100000x256, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S1, .i32⟩
  | 105 => ⟨S_, .i32⟩
  | 106 => ⟨S800000x1, .i32⟩
  | 107 => ⟨S800000x1, .i1⟩
  | 108 => ⟨S1x1, .i32⟩
  | 109 => ⟨S800000x1, .i32⟩
  | 110 => ⟨S800000x1, .i1⟩
  | 111 => ⟨S800000x1, .i1⟩
  | 112 => ⟨S_, .i1⟩
  | 113 => ⟨S800000, .i1⟩
  | 114 => ⟨S800000x256, .f32⟩
  | 115 => ⟨S800000x256, .i1⟩
  | 116 => ⟨S_, .f32⟩
  | 117 => ⟨S800000x256, .f32⟩
  | 118 => ⟨S800000x256, .f32⟩
  | 119 => ⟨S800000x1, .f32⟩
  | 120 => ⟨S800000x256, .f32⟩
  | 121 => ⟨S800000x256, .f32⟩
  | 122 => ⟨S_, .f32⟩
  | 123 => ⟨S100000x256, .f32⟩
  | 124 => ⟨S800000x1, .i32⟩
  | 125 => ⟨S100000x256, .f32⟩
  | 126 => ⟨S1x256, .f32⟩
  | 127 => ⟨S100000x256, .f32⟩
  | _ => ⟨S2x800000, .i32⟩

abbrev hbmTy0_1 (i : Nat) : BufTy := match i % 128 with
  | 0 => ⟨S1x256, .f32⟩
  | 1 => ⟨S1x256, .f32⟩
  | 2 => ⟨S_, .f32⟩
  | 3 => ⟨S1x256, .f32⟩
  | 4 => ⟨S1x256, .f32⟩
  | 5 => ⟨S_, .f32⟩
  | 6 => ⟨S1x256, .f32⟩
  | 7 => ⟨S1x256, .f32⟩
  | 8 => ⟨S1x256, .f32⟩
  | 9 => ⟨S1x256, .f32⟩
  | 10 => ⟨S1x256, .f32⟩
  | 11 => ⟨S1x256, .f32⟩
  | 12 => ⟨S100000x256, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x128, .f32⟩
  | .local _ .vmem, ⟨6, _⟩ => ⟨S2000x128, .f32⟩
  | .local _ .vmem, ⟨7, _⟩ => ⟨S128x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x1, .f32⟩
  | .local _ .vmem, ⟨15, _⟩ => ⟨S2000x1, .f32⟩
  | .local _ .vmem, ⟨16, _⟩ => ⟨S1x256, .f32⟩
  | .local _ .vmem, ⟨17, _⟩ => ⟨S2000x256, .f32⟩
  | .local _ .vmem, ⟨18, _⟩ => ⟨S2000x256, .f32⟩
  | .local _ .vmem, ⟨19, _⟩ => ⟨S1x256, .f32⟩
  | .local _ .vmem, ⟨20, _⟩ => ⟨S1x256, .f32⟩
  | .local _ .vmem, ⟨21, _⟩ => ⟨S2000x256, .f32⟩
  | .local _ .vmem, ⟨22, _⟩ => ⟨S2000x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S256x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x1, .f32⟩
  | .local _ .vmem, ⟨41, _⟩ => ⟨S2000x1, .f32⟩
  | .local _ .vmem, ⟨42, _⟩ => ⟨S1x256, .f32⟩
  | .local _ .vmem, ⟨43, _⟩ => ⟨S2000x256, .f32⟩
  | .local _ .vmem, ⟨44, _⟩ => ⟨S2000x256, .f32⟩
  | .local _ .vmem, ⟨45, _⟩ => ⟨S1x256, .f32⟩
  | .local _ .vmem, ⟨46, _⟩ => ⟨S1x256, .f32⟩
  | .local _ .vmem, ⟨47, _⟩ => ⟨S2000x256, .f32⟩
  | .local _ .vmem, ⟨48, _⟩ => ⟨S2000x256, .f32⟩
  | .local _ .vmem, ⟨49, _⟩ => ⟨S1x256, .f32⟩
  | .local _ .vmem, ⟨50, _⟩ => ⟨S1x256, .f32⟩
  | .local _ .vmem, ⟨51, _⟩ => ⟨S1x256, .f32⟩
  | .local _ .vmem, ⟨52, _⟩ => ⟨S1x256, .f32⟩
  | .local _ .vmem, ⟨53, _⟩ => ⟨S2000x256, .f32⟩
  | .local _ .vmem, ⟨54, _⟩ => ⟨S2000x256, .f32⟩
  | .local _ .vmem, ⟨55, _⟩ => ⟨S2000x256, .f32⟩
  | .local _ .vmem, ⟨56, _⟩ => ⟨S2000x256, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_c : Ref sig .tc := ⟨.hbm, 50, rfl⟩
abbrev main_call0_v0 : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_c_1 : Ref sig .tc := ⟨.hbm, 58, rfl⟩
abbrev main_call0_c_2 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_3 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_call0_cst : Ref sig .tc := ⟨.hbm, 70, rfl⟩
abbrev main_call0_v15 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_6 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39_0 : Ref sig .tc := ⟨.hbm, 81, rfl⟩
abbrev main_v39_1 : Ref sig .tc := ⟨.hbm, 82, rfl⟩
abbrev main_v39_2 : Ref sig .tc := ⟨.hbm, 83, rfl⟩
abbrev main_cst_7 : Ref sig .tc := ⟨.hbm, 84, rfl⟩
abbrev main_v40 : Ref sig .tc := ⟨.hbm, 85, rfl⟩
abbrev main_v41 : Ref sig .tc := ⟨.hbm, 86, rfl⟩
abbrev main_cst_8 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_call1_c : Ref sig .tc := ⟨.hbm, 96, rfl⟩
abbrev main_call1_v0 : Ref sig .tc := ⟨.hbm, 97, rfl⟩
abbrev main_call1_v1 : Ref sig .tc := ⟨.hbm, 98, rfl⟩
abbrev main_call1_c_0 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_c_1 : Ref sig .tc := ⟨.hbm, 104, rfl⟩
abbrev main_call1_c_2 : Ref sig .tc := ⟨.hbm, 105, rfl⟩
abbrev main_call1_v6 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_call1_c_3 : Ref sig .tc := ⟨.hbm, 112, rfl⟩
abbrev main_call1_v12 : Ref sig .tc := ⟨.hbm, 113, rfl⟩
abbrev main_call1_v13 : Ref sig .tc := ⟨.hbm, 114, rfl⟩
abbrev main_call1_v14 : Ref sig .tc := ⟨.hbm, 115, rfl⟩
abbrev main_call1_cst : Ref sig .tc := ⟨.hbm, 116, rfl⟩
abbrev main_call1_v15 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_cst_9 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58_0 : Ref sig .tc := ⟨.hbm, 127, rfl⟩
abbrev main_v58_1 : Ref sig .tc := ⟨.hbm, 128, rfl⟩
abbrev main_v58_2 : Ref sig .tc := ⟨.hbm, 129, rfl⟩
abbrev main_cst_10 : Ref sig .tc := ⟨.hbm, 130, rfl⟩
abbrev main_v59 : Ref sig .tc := ⟨.hbm, 131, rfl⟩
abbrev main_v60 : Ref sig .tc := ⟨.hbm, 132, rfl⟩
abbrev main_cst_11 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg6_0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg5_1 : Ref sig .tc := ⟨.vmem, 28, rfl⟩
abbrev cc3_stg6_0 : Ref sig .tc := ⟨.vmem, 29, rfl⟩
abbrev cc3_stg6_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg4_1 : Ref sig .tc := ⟨.vmem, 44, rfl⟩
abbrev cc5_stg5_0 : Ref sig .tc := ⟨.vmem, 45, rfl⟩
abbrev cc5_stg6_0 : Ref sig .tc := ⟨.vmem, 46, rfl⟩
abbrev cc6_stg0_0 : Ref sig .tc := ⟨.vmem, 47, rfl⟩
abbrev cc6_stg0_1 : Ref sig .tc := ⟨.vmem, 48, rfl⟩
abbrev cc6_stg1_0 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc6_stg5_1 : Ref sig .tc := ⟨.vmem, 54, rfl⟩
abbrev cc6_stg6_0 : Ref sig .tc := ⟨.vmem, 55, rfl⟩
abbrev cc6_stg6_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem4_1 : DmaSem sig := 18
abbrev cc2_sem5_0 : DmaSem sig := 19
abbrev cc2_sem6_0 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem5_1 : DmaSem sig := 28
abbrev cc3_sem6_0 : DmaSem sig := 29
abbrev cc3_sem6_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem4_0 : DmaSem sig := 43
abbrev cc5_sem4_1 : DmaSem sig := 44
abbrev cc5_sem5_0 : DmaSem sig := 45
abbrev cc5_sem6_0 : DmaSem sig := 46
abbrev cc6_sem0_0 : DmaSem sig := 47
abbrev cc6_sem0_1 : DmaSem sig := 48
abbrev cc6_sem1_0 : DmaSem sig := 49
abbrev cc6_sem2_0 : DmaSem sig := 50
abbrev cc6_sem3_0 : DmaSem sig := 51
abbrev cc6_sem4_0 : DmaSem sig := 52
abbrev cc6_sem5_0 : DmaSem sig := 53
abbrev cc6_sem5_1 : DmaSem sig := 54
abbrev cc6_sem6_0 : DmaSem sig := 55
abbrev cc6_sem6_1 : DmaSem sig := 56

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S2000x256 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  bcast_S256_S1x256_1 : S256.BroadcastsInDim S1x256 (![1] : Fin 1 → Fin S1x256.rank)
  inb_S1x256_S1x256_0_0 : ∀ a, (![0, 0] : Fin 2 → Nat) a + S1x256.size a ≤ S1x256.size a
  h_S1x256 : 0 < S1x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  shapeCasts_S1x256_S1x256 : S1x256.ShapeCasts S1x256
  broadcasts_S1x256_S2000x256 : S1x256.Broadcasts S2000x256
  reduces_S2000x256_S256 : S2000x256.Reduces [0] S256
  shapeCasts_S256_S1x256 : S256.ShapeCasts S1x256
  bcast_S_S1x256 : S_.BroadcastsInDim S1x256 (![] : Fin 0 → Fin S1x256.rank)
  inb_S256x256_S256x256_0_0 : ∀ a, (![0, 0] : Fin 2 → Nat) a + S256x256.size a ≤ S256x256.size a
  h_S256x256 : 0 < S256x256.numel
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S2000x128_S128x256_S2000x256_1_0_0_1_n_n_wf : DotDims.WF S2000x128 S128x256 S2000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S100000x256.size a
  hwx1_2 : ∀ i : grid1.Coords, EltTy.bits .f32 = 32 ∨ (Rect.block (s := S100000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S100000x256.size a
  hwx2_4 : ∀ i : grid2.Coords, EltTy.bits .f32 = 32 ∨ (Rect.block (s := S100000x256) S2000x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S100000x256.size a
  hwx3_5 : ∀ i : grid3.Coords, EltTy.bits .f32 = 32 ∨ (Rect.block (s := S100000x256) S2000x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S100000x256.size a
  hwx3_6 : ∀ i : grid3.Coords, EltTy.bits .f32 = 32 ∨ (Rect.block (s := S100000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S100000x256.size a
  hwx4_2 : ∀ i : grid4.Coords, EltTy.bits .f32 = 32 ∨ (Rect.block (s := S100000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S100000x256.size a
  hwx5_0 : ∀ i : grid5.Coords, EltTy.bits .f32 = 32 ∨ (Rect.block (s := S100000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S100000x256.size a
  hwx5_1 : ∀ i : grid5.Coords, EltTy.bits .f32 = 32 ∨ (Rect.block (s := S100000x256) S2000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x256.size a ≤ S100000x256.size a
  hwx5_4 : ∀ i : grid5.Coords, EltTy.bits .f32 = 32 ∨ (Rect.block (s := S100000x256) S2000x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S100000x256.size a
  hwx6_0 : ∀ i : grid6.Coords, EltTy.bits .f32 = 32 ∨ (Rect.block (s := S100000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x256.size a ≤ S100000x256.size a
  hwx6_5 : ∀ i : grid6.Coords, EltTy.bits .f32 = 32 ∨ (Rect.block (s := S100000x256) S2000x256.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x256.size a ≤ S100000x256.size a
  hwx6_6 : ∀ i : grid6.Coords, EltTy.bits .f32 = 32 ∨ (Rect.block (s := S100000x256) S2000x256.size (cc6_transform_6 i) (hinb6_6 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v37) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39_0) S2000x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v39_1) S1x256.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39_2) S1x256.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v39_0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v29) S2000x256.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v48) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v48) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v49) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v56) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v49) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v13) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v57) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v58_0) S2000x256.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v58_1) S1x256.size cc5_transform_5 reads5_5 true true 1 stage5_5 sem5_5
    hrank5 hreads5_5 hinb5_5 nbuf5_5 (Memref.isWhole_whole _) hwx5_5 hstage5_5

abbrev win5_6 : Pipeline.Window sig grid5 :=
  Pipeline.Window.ofSpec (Memref.whole main_v58_2) S1x256.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v58_0) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v60) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v64) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v65) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v66) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v48) S2000x256.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v67) S2000x256.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S2x800000 : Shape := ⟨2, ![2, 800000]⟩
abbrev S100000x128 : Shape := ⟨2, ![100000, 128]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x256 : Shape := ⟨2, ![100000, 256]⟩
abbrev S800000x256 : Shape := ⟨2, ![800000, 256]⟩
abbrev S100000x1 : Shape := ⟨2, ![100000, 1]⟩
abbrev S1x256 : Shape := ⟨2, ![1, 256]⟩

abbrev nBuf : Space → Nat
  | .hbm => 183
  | .vmem => 0
  | .smem => 0
  | _ => 0

abbrev hbmTy0_0 (i : Nat) : BufTy := match i % 128 with
  | 0 => ⟨S2x800000, .i32⟩
  | 1 => ⟨S100000x128, .f32⟩
  | 2 => ⟨S128x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S128x256, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S100000, .f32⟩
  | 19 => ⟨S800000x1, .i32⟩
  | 20 => ⟨S100000, .f32⟩
  | 21 => ⟨S_, .f32⟩
  | 22 => ⟨S100000, .f32⟩
  | 23 => ⟨S100000, .f32⟩
  | 24 => ⟨S_, .f32⟩
  | 25 => ⟨S100000, .f32⟩
  | 26 => ⟨S100000, .f32⟩
  | 27 => ⟨S100000, .f32⟩
  | 28 => ⟨S100000x256, .f32⟩
  | 29 => ⟨S100000x256, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x256, .f32⟩
  | 58 => ⟨S800000x1, .f32⟩
  | 59 => ⟨S800000x256, .f32⟩
  | 60 => ⟨S800000x256, .f32⟩
  | 61 => ⟨S_, .f32⟩
  | 62 => ⟨S100000x256, .f32⟩
  | 63 => ⟨S800000x1, .i32⟩
  | 64 => ⟨S100000x256, .f32⟩
  | 65 => ⟨S100000x1, .f32⟩
  | 66 => ⟨S100000x256, .f32⟩
  | 67 => ⟨S100000x256, .f32⟩
  | 68 => ⟨S100000x256, .f32⟩
  | 69 => ⟨S1x256, .f32⟩
  | 70 => ⟨S100000x256, .f32⟩
  | 71 => ⟨S100000x256, .f32⟩
  | 72 => ⟨S_, .f32⟩
  | 73 => ⟨S256, .f32⟩
  | 74 => ⟨S_, .f32⟩
  | 75 => ⟨S256, .f32⟩
  | 76 => ⟨S256, .f32⟩
  | 77 => ⟨S1x256, .f32⟩
  | 78 => ⟨S100000x256, .f32⟩
  | 79 => ⟨S100000x256, .f32⟩
  | 80 => ⟨S100000x256, .f32⟩
  | 81 => ⟨S_, .f32⟩
  | 82 => ⟨S256, .f32⟩
  | 83 => ⟨S_, .f32⟩
  | 84 => ⟨S256, .f32⟩
  | 85 => ⟨S256, .f32⟩
  | 86 => ⟨S1x256, .f32⟩
  | 87 => ⟨S100000x256, .f32⟩
  | 88 => ⟨S100000x256, .f32⟩
  | 89 => ⟨S_, .f32⟩
  | 90 => ⟨S256, .f32⟩
  | 91 => ⟨S256, .f32⟩
  | 92 => ⟨S256, .f32⟩
  | 93 => ⟨S1x256, .f32⟩
  | 94 => ⟨S100000x256, .f32⟩
  | 95 => ⟨S100000x256, .f32⟩
  | 96 => ⟨S1x256, .f32⟩
  | 97 => ⟨S100000x256, .f32⟩
  | 98 => ⟨S100000x256, .f32⟩
  | 99 => ⟨S1x256, .f32⟩
  | 100 => ⟨S100000x256, .f32⟩
  | 101 => ⟨S100000x256, .f32⟩
  | 102 => ⟨S_, .f32⟩
  | 103 => ⟨S100000x256, .f32⟩
  | 104 => ⟨S100000x256, .f32⟩
  | 105 => ⟨S100000x256, .f32⟩
  | 106 => ⟨S100000x256, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000, .f32⟩
  | 125 => ⟨S800000, .f32⟩
  | 126 => ⟨S_, .i32⟩
  | 127 => ⟨S800000, .i32⟩
  | _ => ⟨S2x800000, .i32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x256, .f32⟩
  | 7 => ⟨S800000x1, .f32⟩
  | 8 => ⟨S800000x256, .f32⟩
  | 9 => ⟨S800000x256, .f32⟩
  | 10 => ⟨S_, .f32⟩
  | 11 => ⟨S100000x256, .f32⟩
  | 12 => ⟨S800000x1, .i32⟩
  | 13 => ⟨S100000x256, .f32⟩
  | 14 => ⟨S100000x1, .f32⟩
  | 15 => ⟨S100000x256, .f32⟩
  | 16 => ⟨S100000x256, .f32⟩
  | 17 => ⟨S100000x256, .f32⟩
  | 18 => ⟨S1x256, .f32⟩
  | 19 => ⟨S100000x256, .f32⟩
  | 20 => ⟨S100000x256, .f32⟩
  | 21 => ⟨S_, .f32⟩
  | 22 => ⟨S256, .f32⟩
  | 23 => ⟨S_, .f32⟩
  | 24 => ⟨S256, .f32⟩
  | 25 => ⟨S256, .f32⟩
  | 26 => ⟨S1x256, .f32⟩
  | 27 => ⟨S100000x256, .f32⟩
  | 28 => ⟨S100000x256, .f32⟩
  | 29 => ⟨S100000x256, .f32⟩
  | 30 => ⟨S_, .f32⟩
  | 31 => ⟨S256, .f32⟩
  | 32 => ⟨S_, .f32⟩
  | 33 => ⟨S256, .f32⟩
  | 34 => ⟨S256, .f32⟩
  | 35 => ⟨S1x256, .f32⟩
  | 36 => ⟨S100000x256, .f32⟩
  | 37 => ⟨S100000x256, .f32⟩
  | 38 => ⟨S_, .f32⟩
  | 39 => ⟨S256, .f32⟩
  | 40 => ⟨S256, .f32⟩
  | 41 => ⟨S256, .f32⟩
  | 42 => ⟨S1x256, .f32⟩
  | 43 => ⟨S100000x256, .f32⟩
  | 44 => ⟨S100000x256, .f32⟩
  | 45 => ⟨S1x256, .f32⟩
  | 46 => ⟨S100000x256, .f32⟩
  | 47 => ⟨S100000x256, .f32⟩
  | 48 => ⟨S1x256, .f32⟩
  | 49 => ⟨S100000x256, .f32⟩
  | 50 => ⟨S100000x256, .f32⟩
  | 51 => ⟨S_, .f32⟩
  | 52 => ⟨S100000x256, .f32⟩
  | 53 => ⟨S100000x256, .f32⟩
  | 54 => ⟨S100000x256, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_call0_cst : Ref sig .tc := ⟨.hbm, 102, rfl⟩
abbrev main_call0_v0 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_14 : Ref sig .tc := ⟨.hbm, 107, rfl⟩
abbrev main_v78 : Ref sig .tc := ⟨.hbm, 108, rfl⟩
abbrev main_v79 : Ref sig .tc := ⟨.hbm, 109, rfl⟩
abbrev main_c_15 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_16 : Ref sig .tc := ⟨.hbm, 116, rfl⟩
abbrev main_v85 : Ref sig .tc := ⟨.hbm, 117, rfl⟩
abbrev main_v86 : Ref sig .tc := ⟨.hbm, 118, rfl⟩
abbrev main_c_17 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_18 : Ref sig .tc := ⟨.hbm, 126, rfl⟩
abbrev main_v93 : Ref sig .tc := ⟨.hbm, 127, rfl⟩
abbrev main_v94 : Ref sig .tc := ⟨.hbm, 128, rfl⟩
abbrev main_c_19 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_20 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_21 : Ref sig .tc := ⟨.hbm, 149, rfl⟩
abbrev main_v113 : Ref sig .tc := ⟨.hbm, 150, rfl⟩
abbrev main_cst_22 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_23 : Ref sig .tc := ⟨.hbm, 158, rfl⟩
abbrev main_v120 : Ref sig .tc := ⟨.hbm, 159, rfl⟩
abbrev main_cst_24 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_25 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_call1_cst : Ref sig .tc := ⟨.hbm, 179, rfl⟩
abbrev main_call1_v0 : Ref sig .tc := ⟨.hbm, 180, rfl⟩
abbrev main_v138 : Ref sig .tc := ⟨.hbm, 181, rfl⟩
abbrev main_v139 : Ref sig .tc := ⟨.hbm, 182, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S256_d0 : S100000x256.ReducesTo [0] S256
  h_S_ : 0 < S_.numel
  bcast_S_S256 : S_.BroadcastsInDim S256 (![] : Fin 0 → Fin S256.rank)
  scatter_S100000_S800000x1_S800000_n_0_0_1_wf : ScatterDims.WF S100000 S800000x1 S800000 [] [0] [0] 1
  dot_S100000x128_S128x256_S100000x256_1_0_0_1_n_n_wf : DotDims.WF S100000x128 S128x256 S100000x256 [1] [0] [0] [1] [] []
  gather_S100000_S800000x1_S800000_n_0_n_n_0_1_1_wf : GatherDims.WF S100000 S800000x1 S800000 [] [0] [] [0] [] 1 ![1]
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x256_S100000x256_1_0_0_1_n_n_wf : DotDims.WF S100000x256 S256x256 S100000x256 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.Spec.lean ====
/-
  The two-layer residual graph convolution over N = 100000 nodes and E = 800000 edges, as functions of coordinates over the
  extended reals. An edge e carries a source word and a destination word; a source word names the row it reads after the
  wrap of a negative word by N and the clamp into [0, N-1]; an edge lands on node p when its destination word read signed
  is p. deg p = (0 + number of edges landing on p) + 1; the self-loop weight is 1/deg, the edge weight
  rsqrt(deg src) * rsqrt(deg dst). A layer maps features f to agg + h*dinv + b with h = f W, normalises every column by
  its mean and variance over the nodes, scales, shifts, clips at zero and adds the carried features.
  Two spellings of the variance: the mean of squared deviations, and the mean of squares minus the squared mean.
-/
import Idealize.ShloMosaic.PureOps.Ideal
import Idealize.ShloMosaic.PureOps.Ideal.Laws
import Idealize.ShloMosaic.Lib.ValueIdx
import proofs.«428588_j4063039062434_1_alg».proof.Proof.LibGatherScatter

open scoped BigOperators

noncomputable section

namespace Cert.Spec

open Idealize.ShloMosaic Idealize.ShloMosaic.ValueIdx Idealize.ShloMosaic.RowOps

/-- An array of extended reals read at coordinates (the arrays of a program's memory have types that only unfold to
    functions on indices; reading through these keeps the arithmetic on plain extended reals). -/
abbrev at2 {n k : Nat} (f : (⟨2, ![n, k]⟩ : Shape).Idx → EReal) (p : Fin n) (q : Fin k) : EReal := f (ix2 p q)
abbrev at1 {n : Nat} (f : (⟨1, ![n]⟩ : Shape).Idx → EReal) (p : Fin n) : EReal := f (ix1 p)
/-- An array of 32-bit words read at a coordinate. -/
abbrev wat1 {n : Nat} (f : (⟨1, ![n]⟩ : Shape).Idx → BitVec 32) (p : Fin n) : BitVec 32 := f (ix1 p)

/-- The words the programs write as float literals, at the ideal instance. -/
abbrev zero : EReal := Ideal.ofBits .f32 0x00000000#32
abbrev one : EReal := Ideal.ofBits .f32 0x3F800000#32
abbrev cN : EReal := Ideal.ofBits .f32 0x47C35000#32
abbrev eps : EReal := Ideal.ofBits .f32 0x3727C5AC#32

/-- A negative index word is wrapped by N = 100000 (two's complement add), any other kept. -/
def wrap (w : BitVec 32) : BitVec 32 := Scalar.select (IntOp.cmpi .slt w 0#32) (IntOp.addi w 100000#32) w

/-- The row a (wrapped) word names: read signed, clamped into [0, N-1]. -/
def rowOf (w : BitVec 32) : Fin 100000 := ⟨min w.toInt.toNat (100000 - 1), by omega⟩

/-- The graph: per edge its source and destination words. -/
structure Graph where
  src : Fin 800000 → BitVec 32
  dst : Fin 800000 → BitVec 32

variable (G : Graph)

/-- Edge e lands on node p: its destination word read signed is p. -/
def Graph.landsOn (e : Fin 800000) (p : Fin 100000) : Prop := (G.dst e).toInt = (p.val : Int)

instance (e : Fin 800000) (p : Fin 100000) : Decidable (G.landsOn e p) := by unfold Graph.landsOn; infer_instance

/-- The edges landing on node p. -/
def Graph.into (p : Fin 100000) : Finset (Fin 800000) := Finset.univ.filter fun e => G.landsOn e p

def Graph.deg (p : Fin 100000) : EReal := (zero + ∑ _e ∈ G.into p, one) + one
def Graph.dinv (p : Fin 100000) : EReal := Ideal.div one (G.deg p)
def Graph.dsq (p : Fin 100000) : EReal := Ideal.rsqrt (G.deg p)
/-- The edge weight: rsqrt(deg) at the source row times rsqrt(deg) at the destination row. -/
def Graph.nrm (e : Fin 800000) : EReal := G.dsq (rowOf (wrap (G.src e))) * G.dsq (rowOf (wrap (G.dst e)))

/-- A product of an [N × K] by a [K × 256] table. -/
def mm {K : Nat} (a : Fin 100000 → Fin K → EReal) (b : Fin K → Fin 256 → EReal) (p : Fin 100000) (q : Fin 256) : EReal :=
  ∑ k : Fin K, a p k * b k q

/-- The messages summed at node p: over the edges landing on p, the source row of h times the edge weight. -/
def Graph.agg (h : Fin 100000 → Fin 256 → EReal) (p : Fin 100000) (q : Fin 256) : EReal :=
  zero + ∑ e ∈ G.into p, h (rowOf (wrap (G.src e))) q * G.nrm e

/-- The convolution's output before normalisation. -/
def Graph.conv (h : Fin 100000 → Fin 256 → EReal) (b : Fin 256 → EReal) (p : Fin 100000) (q : Fin 256) : EReal :=
  (G.agg h p q + h p q * G.dinv p) + b q

/-- A column's sum over the nodes, from zero. -/
def colsum (f : Fin 100000 → Fin 256 → EReal) (q : Fin 256) : EReal := zero + ∑ p : Fin 100000, f p q

def mean (f : Fin 100000 → Fin 256 → EReal) (q : Fin 256) : EReal := Ideal.div (colsum f q) cN

/-- The variance as the mean of squared deviations. -/
def varDev (f : Fin 100000 → Fin 256 → EReal) (q : Fin 256) : EReal :=
  Ideal.div (colsum (fun p q => (f p q - mean f q) * (f p q - mean f q)) q) cN

/-- The variance as the mean of squares minus the squared mean. -/
def varSq (f : Fin 100000 → Fin 256 → EReal) (q : Fin 256) : EReal :=
  Ideal.div (colsum (fun p q => f p q * f p q) q) cN - mean f q * mean f q

/-- Normalise by a given mean and variance, scale, shift, clip at zero, add the carried features. -/
def bnRelu (pre f : Fin 100000 → Fin 256 → EReal) (mu var g be : Fin 256 → EReal) (p : Fin 100000) (q : Fin 256) : EReal :=
  pre p q + max (((f p q - mu q) * Ideal.rsqrt (var q + eps)) * g q + be q) zero

/-- The eleven inputs, by coordinates. -/
structure Inputs where
  G : Graph
  x : Fin 100000 → Fin 128 → EReal
  W1 : Fin 128 → Fin 256 → EReal
  b1 : Fin 256 → EReal
  g1 : Fin 256 → EReal
  be1 : Fin 256 → EReal
  W2 : Fin 256 → Fin 256 → EReal
  b2 : Fin 256 → EReal
  g2 : Fin 256 → EReal
  be2 : Fin 256 → EReal
  Wres : Fin 128 → Fin 256 → EReal

variable (I : Inputs)

def Inputs.pre : Fin 100000 → Fin 256 → EReal := mm I.x I.Wres
def Inputs.hf1 : Fin 100000 → Fin 256 → EReal := I.G.conv (mm I.x I.W1) I.b1
/-- Layer one's output under a given spelling `v` of the variance. -/
def Inputs.x2 (v : (Fin 100000 → Fin 256 → EReal) → Fin 256 → EReal) : Fin 100000 → Fin 256 → EReal :=
  bnRelu I.pre I.hf1 (mean I.hf1) (v I.hf1) I.g1 I.be1
def Inputs.hf2 (v : (Fin 100000 → Fin 256 → EReal) → Fin 256 → EReal) : Fin 100000 → Fin 256 → EReal :=
  I.G.conv (mm (I.x2 v) I.W2) I.b2
/-- The network's output under a given spelling `v` of the variance. -/
def Inputs.out (v : (Fin 100000 → Fin 256 → EReal) → Fin 256 → EReal) : Fin 100000 → Fin 256 → EReal :=
  bnRelu (I.x2 v) (I.hf2 v) (mean (I.hf2 v)) (v (I.hf2 v)) I.g2 I.be2

/-- Every source word is a row number: not negative and below N. -/
def Graph.SrcInRange : Prop := ∀ e, 0 ≤ (G.src e).toInt ∧ (G.src e).toInt < 100000

/-- A value that is a real number. -/
def IsReal (x : EReal) : Prop := ∃ r : ℝ, x = (r : EReal)

/-- Every float input holds real numbers. -/
structure Inputs.Finite : Prop where
  x : ∀ p k, IsReal (I.x p k)
  W1 : ∀ k q, IsReal (I.W1 k q)
  b1 : ∀ q, IsReal (I.b1 q)
  g1 : ∀ q, IsReal (I.g1 q)
  be1 : ∀ q, IsReal (I.be1 q)
  W2 : ∀ k q, IsReal (I.W2 k q)
  b2 : ∀ q, IsReal (I.b2 q)
  g2 : ∀ q, IsReal (I.g2 q)
  be2 : ∀ q, IsReal (I.be2 q)
  Wres : ∀ k q, IsReal (I.Wres k q)

/-- The graph read off the [2 × 800000] edge array: row 0 the sources, row 1 the destinations. -/
def graphOfEdges (ed : (⟨2, ![2, 800000]⟩ : Shape).Idx → BitVec 32) : Graph where
  src := fun e => ed (ix2 (0 : Fin 2) e)
  dst := fun e => ed (ix2 (1 : Fin 2) e)

/-- The inputs read off the eleven argument arrays. -/
def inputsOf (ed : (⟨2, ![2, 800000]⟩ : Shape).Idx → BitVec 32) (x : (⟨2, ![100000, 128]⟩ : Shape).Idx → EReal)
    (W1 : (⟨2, ![128, 256]⟩ : Shape).Idx → EReal) (b1 g1 be1 : (⟨1, ![256]⟩ : Shape).Idx → EReal)
    (W2 : (⟨2, ![256, 256]⟩ : Shape).Idx → EReal) (b2 g2 be2 : (⟨1, ![256]⟩ : Shape).Idx → EReal)
    (Wres : (⟨2, ![128, 256]⟩ : Shape).Idx → EReal) : Inputs where
  G := graphOfEdges ed
  x := fun p k => x (ix2 p k)
  W1 := fun k q => W1 (ix2 k q)
  b1 := fun q => b1 (ix1 q)
  g1 := fun q => g1 (ix1 q)
  be1 := fun q => be1 (ix1 q)
  W2 := fun k q => W2 (ix2 k q)
  b2 := fun q => b2 (ix1 q)
  g2 := fun q => g2 (ix1 q)
  be2 := fun q => be2 (ix1 q)
  Wres := fun k q => Wres (ix2 k q)

end Cert.Spec

end
-- ==== Proof.Inputs.lean ====
/-
  The inputs of the specification as each program's memory holds them on a device.
-/
import proofs.«428588_j4063039062434_1_alg».proof.Defs
import proofs.«428588_j4063039062434_1_alg».proof.Proof.Spec

noncomputable section

open Idealize.ShloMosaic Idealize.ShloMosaic.TcCoe Idealize.SL.Sem

namespace Cert.KernelIdeal

/-- The specification's inputs: the eleven argument arrays of a memory of the idealized kernel program on device c. -/
abbrev inputsAt (m : (ℓ : Loc nD τ sig) → Buf (Elt Ideal) ℓ) (c : Dev nD) : Cert.Spec.Inputs :=
  Cert.Spec.inputsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

end Cert.KernelIdeal

namespace Cert.ReferenceIdeal

/-- The same for a memory of the idealized reference program. -/
abbrev inputsAt (m : (ℓ : Loc nD τ sig) → Buf (Elt Ideal) ℓ) (c : Dev nD) : Cert.Spec.Inputs :=
  Cert.Spec.inputsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

end Cert.ReferenceIdeal

end
-- ==== Proof.PreDecode.lean ====
/-
  What the precondition says of the inputs: every float entry is below +infinity in absolute value, so is a real number;
  every source word (row 0 of the edge array) is at least 0 and below 100000.
-/
import proofs.«428588_j4063039062434_1_alg».proof.Proof.Inputs
import Idealize.ShloMosaic.Lib.ReduceAll
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.PreDecode

open Cert.Spec Cert.Pre_finite_inputs

/-- The scalar shape has one index. -/
instance subsingleton_scalar_idx : Subsingleton (⟨0, ![]⟩ : Shape).Idx := ⟨fun a b => funext fun d => d.elim0⟩

/-- The f32 pattern 0x7F800000 is +∞: sign bit clear, exponent field all ones, fraction field zero. -/
theorem ofBits_pos_inf : Ideal.ofBits .f32 0x7F800000#32 = (⊤ : EReal) := by
  simp [Ideal.ofBits, Ideal.ieee]

/-- An extended real whose absolute value max(x, −x) is below +∞ is a real number: at −∞ and at +∞ the maximum is +∞. -/
theorem isReal_of_abs_lt (x : EReal)
    (h : Ideal.cmp .olt (max x (-x)) (Ideal.ofBits .f32 0x7F800000#32) = 1#1) : IsReal x := by
  rw [ofBits_pos_inf] at h
  induction x using EReal.rec with
  | bot => simp [Ideal.cmp] at h
  | coe r => exact ⟨r, rfl⟩
  | top => simp [Ideal.cmp] at h

/-- A conjunction of one-bit arrays at an index. -/
theorem andi_at {s : Shape} (a b : IVec s 1) (i : s.Idx) : andi a b i = 1#1 ↔ a i = 1#1 ∧ b i = 1#1 :=
  IntOp.andi_eq_one

/-- The "all" of |x| < +∞ over an array of any shape came out 1: every entry of x is a real number. -/
theorem real_of_all {s t u : Shape} {axes : List (Fin s.rank)} [Subsingleton t.Idx] (x : FVec Ideal s .f32)
    (bc : (⟨0, ![]⟩ : Shape).BroadcastsInDim s (![] : Fin 0 → Fin s.rank)) (init : u.Idx → BitVec 1)
    (h : s.ReducesTo axes t) (hu : 0 < u.numel) (j : t.Idx)
    (e : Host.reduce IntOp.andi
      (cmpf .olt (Host.absf x) (broadcastInDim s ![] bc (constant (⟨0, ![]⟩ : Shape) .f32 0x7F800000#32))) init h hu j = 1#1)
    (i : s.Idx) : IsReal (x i) :=
  isReal_of_abs_lt (x i) (Host.reduce_andi_all _ init h hu j e i)

/-- The source word of edge e, read through the slice of row 0 of the edge array and the reshape to one axis. -/
theorem src_read (ed : IVec S2x800000 32) (sl : S2x800000.Slices ![0, 0] S1x800000) (sc : S1x800000.ShapeCasts S800000)
    (e : Fin 800000) :
    shapeCast S800000 (extractStridedSlice S1x800000 ![0, 0] ed sl) sc (ix1 e) = ed (ix2 (0 : Fin 2) e) := by
  refine (shapeCast_apply _ sc (ix1 e) (ix2 (0 : Fin 1) e) ?_).trans ?_
  · rw [Shape.rowMajor_val_two, Shape.rowMajor_val_one]
    show (0 : Nat) * 800000 + e.val = e.val
    omega
  · exact extractStridedSlice_apply ![0, 0] ed sl (ix2 (0 : Fin 1) e) (ix2 (0 : Fin 2) e) (fun a => match a with
      | ⟨0, _⟩ => by show (0 : Nat) = 0 + 0; omega
      | ⟨1, _⟩ => by show e.val = 0 + e.val; omega)

/-- The signed test "source word ≥ 0" at edge e. -/
theorem src_nonneg (ed : IVec S2x800000 32) (sl : S2x800000.Slices ![0, 0] S1x800000) (sc : S1x800000.ShapeCasts S800000)
    (bc : (⟨0, ![]⟩ : Shape).BroadcastsInDim S800000 (![] : Fin 0 → Fin S800000.rank)) (e : Fin 800000)
    (h : cmpi .sge (shapeCast S800000 (extractStridedSlice S1x800000 ![0, 0] ed sl) sc)
      (broadcastInDim S800000 ![] bc (constantI (⟨0, ![]⟩ : Shape) 32 0#32)) (ix1 e) = 1#1) :
    0 ≤ (ed (ix2 (0 : Fin 2) e)).toInt := by
  have h' : IntOp.cmpi .sge (shapeCast S800000 (extractStridedSlice S1x800000 ![0, 0] ed sl) sc (ix1 e)) 0#32 = 1#1 := h
  rw [src_read] at h'
  have := IntOp.cmpi_sge.1 h'
  rwa [show (0#32 : BitVec 32).toInt = 0 from by decide] at this

/-- The signed test "source word < 100000" at edge e. -/
theorem src_lt (ed : IVec S2x800000 32) (sl : S2x800000.Slices ![0, 0] S1x800000) (sc : S1x800000.ShapeCasts S800000)
    (bc : (⟨0, ![]⟩ : Shape).BroadcastsInDim S800000 (![] : Fin 0 → Fin S800000.rank)) (e : Fin 800000)
    (h : cmpi .slt (shapeCast S800000 (extractStridedSlice S1x800000 ![0, 0] ed sl) sc)
      (broadcastInDim S800000 ![] bc (constantI (⟨0, ![]⟩ : Shape) 32 100000#32)) (ix1 e) = 1#1) :
    (ed (ix2 (0 : Fin 2) e)).toInt < 100000 := by
  have h' : IntOp.cmpi .slt (shapeCast S800000 (extractStridedSlice S1x800000 ![0, 0] ed sl) sc (ix1 e)) 100000#32 = 1#1 := h
  rw [src_read] at h'
  have := IntOp.cmpi_slt.1 h'
  rwa [show (100000#32 : BitVec 32).toInt = 100000 from by decide] at this

end Cert.PreDecode

namespace Cert.KernelIdeal

open Cert.PreDecode

variable [hPre : Cert.Pre_finite_inputs.Facts]

/-- The precondition read back: the twelve conjuncts of the printed chain, each an "all" over one array. -/
theorem pre_all (m : (ℓ : Loc nD τ sig) → Buf (Elt Ideal) ℓ) (h : Cert.Pre_KernelIdeal m) (c : Dev nD) :
    (inputsAt m c).Finite ∧ (inputsAt m c).G.SrcInRange := by
  have e := congrFun (h c) ValueIdx.ix0
  dsimp only [Cert.Pre_finite_inputs.fn, Cert.Pre_finite_inputs.fn_part1, Cert.Pre_finite_inputs.fn_part2,
    Cert.Pre_finite_inputs.fn_part3] at e
  -- the outermost conjunction is the last conjunct
  obtain ⟨e, hlt⟩ := (andi_at _ _ _).1 e
  obtain ⟨e, hge⟩ := (andi_at _ _ _).1 e
  obtain ⟨e, h10⟩ := (andi_at _ _ _).1 e
  obtain ⟨e, h9⟩ := (andi_at _ _ _).1 e
  obtain ⟨e, h8⟩ := (andi_at _ _ _).1 e
  obtain ⟨e, h7⟩ := (andi_at _ _ _).1 e
  obtain ⟨e, h6⟩ := (andi_at _ _ _).1 e
  obtain ⟨e, h5⟩ := (andi_at _ _ _).1 e
  obtain ⟨e, h4⟩ := (andi_at _ _ _).1 e
  obtain ⟨e, h3⟩ := (andi_at _ _ _).1 e
  obtain ⟨h1, h2⟩ := (andi_at _ _ _).1 e
  refine ⟨⟨fun p k => real_of_all _ _ _ _ _ _ h1 (ix2 p k), fun k q => real_of_all _ _ _ _ _ _ h2 (ix2 k q),
    fun q => real_of_all _ _ _ _ _ _ h3 (ix1 q), fun q => real_of_all _ _ _ _ _ _ h4 (ix1 q),
    fun q => real_of_all _ _ _ _ _ _ h5 (ix1 q), fun k q => real_of_all _ _ _ _ _ _ h6 (ix2 k q),
    fun q => real_of_all _ _ _ _ _ _ h7 (ix1 q), fun q => real_of_all _ _ _ _ _ _ h8 (ix1 q),
    fun q => real_of_all _ _ _ _ _ _ h9 (ix1 q), fun k q => real_of_all _ _ _ _ _ _ h10 (ix2 k q)⟩, fun d => ⟨?_, ?_⟩⟩
  · exact src_nonneg _ _ _ _ d (Host.reduce_andi_all _ _ _ _ _ hge (ix1 d))
  · exact src_lt _ _ _ _ d (Host.reduce_andi_all _ _ _ _ _ hlt (ix1 d))

theorem pre_finite (m : (ℓ : Loc nD τ sig) → Buf (Elt Ideal) ℓ) (h : Cert.Pre_KernelIdeal m) (c : Dev nD) :
    (inputsAt m c).Finite :=
  (pre_all m h c).1

theorem pre_src (m : (ℓ : Loc nD τ sig) → Buf (Elt Ideal) ℓ) (h : Cert.Pre_KernelIdeal m) (c : Dev nD) :
    (inputsAt m c).G.SrcInRange :=
  (pre_all m h c).2

end Cert.KernelIdeal

end
-- ==== Proof.LibEReal.lean ====
/-
  Extended reals that are real numbers: sums, maxima and the corner-case operations (exponential, square root,
  quotient) of real numbers stay real, and the float patterns for −∞, 0 and 2 are what they say.
-/
import Idealize.ShloMosaic.PureOps.Ideal
import Idealize.ShloMosaic.PureOps.Ideal.Laws

noncomputable section

open scoped BigOperators

namespace Cert.LibEReal

open Idealize.ShloMosaic

/-- A finite sum of real numbers, taken among the extended reals, is the real sum. -/
theorem coe_sum {ι : Type} (s : Finset ι) (f : ι → ℝ) :
    (∑ i ∈ s, ((f i : ℝ) : EReal)) = ((∑ i ∈ s, f i : ℝ) : EReal) := by
  classical
  -- by induction on the index set: the embedding of ℝ respects 0 and binary sums
  induction s using Finset.induction_on with
  | empty => simp
  | insert a s ha ih => rw [Finset.sum_insert ha, Finset.sum_insert ha, ih, EReal.coe_add]

/-- The maximum of two real numbers among the extended reals is the real maximum. -/
theorem max_coe (a b : ℝ) : max ((a : ℝ) : EReal) ((b : ℝ) : EReal) = ((max a b : ℝ) : EReal) := by
  -- the embedding of ℝ is monotone, and a monotone map commutes with binary maxima
  exact (EReal.coe_strictMono.monotone.map_max (a := a) (b := b)).symm

/-- Folding `max` over a nonempty finite family of reals from a real start is the real maximum of the start and the
    family's largest member. -/
theorem fold_max_coe {ι : Type} [Fintype ι] [Nonempty ι] (a : ℝ) (f : ι → ℝ) :
    (Finset.univ : Finset ι).fold max ((a : ℝ) : EReal) (fun i => ((f i : ℝ) : EReal))
      = ((max a (Finset.univ.sup' Finset.univ_nonempty f) : ℝ) : EReal) := by
  -- two inequalities: the fold is the least upper bound of the start and the members
  apply le_antisymm
  · refine (Finset.fold_max_le _).2 ⟨?_, fun i hi => ?_⟩
    · exact EReal.coe_le_coe_iff.2 (le_max_left _ _)
    · exact EReal.coe_le_coe_iff.2 (le_max_of_le_right (Finset.le_sup' f hi))
  · -- the real maximum is attained, either at the start or at some member
    rcases max_choice a (Finset.univ.sup' Finset.univ_nonempty f) with h | h
    · rw [h]; exact (Finset.le_fold_max _).2 (Or.inl le_rfl)
    · rw [h]
      obtain ⟨i, hi, hsup⟩ := Finset.exists_mem_eq_sup' Finset.univ_nonempty f
      rw [hsup]
      exact (Finset.le_fold_max _).2 (Or.inr ⟨i, hi, le_rfl⟩)

/-- Folding `max` over a nonempty finite family of reals from −∞ is the family's largest member. -/
theorem fold_max_bot_coe {ι : Type} [Fintype ι] [Nonempty ι] (f : ι → ℝ) :
    (Finset.univ : Finset ι).fold max (⊥ : EReal) (fun i => ((f i : ℝ) : EReal))
      = ((Finset.univ.sup' Finset.univ_nonempty f : ℝ) : EReal) := by
  -- two inequalities again; −∞ is below everything, and the largest member is attained
  apply le_antisymm
  · refine (Finset.fold_max_le _).2 ⟨bot_le, fun i hi => ?_⟩
    exact EReal.coe_le_coe_iff.2 (Finset.le_sup' f hi)
  · obtain ⟨i, hi, hsup⟩ := Finset.exists_mem_eq_sup' Finset.univ_nonempty f
    rw [hsup]
    exact (Finset.le_fold_max _).2 (Or.inr ⟨i, hi, le_rfl⟩)

/-- The f32 pattern `0xFF800000` is −∞. -/
theorem ofBits_neg_inf : Ideal.ofBits .f32 0xFF800000#32 = (⊥ : EReal) := by
  -- sign bit set, exponent field all ones, fraction field zero
  simp [Ideal.ofBits, Ideal.ieee]

/-- The f32 pattern `0x40000000` is 2. -/
theorem ofBits_two : Ideal.ofBits .f32 0x40000000#32 = ((2 : ℝ) : EReal) := by
  -- sign bit clear, exponent field 128, fraction field zero: 2^23 · 2^(128 − 127 − 23) = 2
  simp [Ideal.ofBits, Ideal.ieee]
  rw [← EReal.coe_mul, EReal.coe_eq_coe_iff]
  norm_num

/-- The exponential of a real number. -/
theorem exp_coe (r : ℝ) : Ideal.exp ((r : ℝ) : EReal) = ((Real.exp r : ℝ) : EReal) := by
  exact Ideal.exp_coe r

/-- The exponential of −∞ is 0. -/
theorem exp_bot : Ideal.exp (⊥ : EReal) = 0 := by
  exact Ideal.exp_bot

/-- The square root of a nonnegative real number. -/
theorem sqrt_coe {r : ℝ} (h : 0 ≤ r) : Ideal.sqrt ((r : ℝ) : EReal) = ((Real.sqrt r : ℝ) : EReal) := by
  -- the negative branch of the definition is excluded by the hypothesis
  rw [Ideal.sqrt_coe, if_neg (not_lt.2 h)]

/-- The quotient of a real number by a nonzero real number. -/
theorem div_coe_coe (a : ℝ) {b : ℝ} (h : b ≠ 0) :
    Ideal.div ((a : ℝ) : EReal) ((b : ℝ) : EReal) = ((a / b : ℝ) : EReal) := by
  -- off zero the quotient is the product with the reciprocal, and a product of reals is real
  rw [Ideal.div_coe h, ← EReal.coe_mul, mul_one_div]

end Cert.LibEReal

end
-- ==== Proof.Algebra.lean ====
/-
  The two spellings of the variance agree on real-valued features, hence the network's output is the same under
  either. Every input entry is a real number; degrees are reals at least 1, so the reciprocal and the reciprocal
  square root of a degree are reals; finite sums and products of reals are reals, so every layer's pre-normalisation
  features are real-valued. For a real-valued column with mean μ over N entries,
  (Σ f²)/N − μ² = (Σ (f − μ)²)/N, and the right-hand side is nonnegative, so adding the positive ε keeps the argument
  of the reciprocal square root positive and the normalised features real.
-/
import Mathlib.Algebra.BigOperators.Ring.Finset
import Mathlib.Algebra.BigOperators.Field
import Mathlib.Algebra.Order.BigOperators.Ring.Finset
import Mathlib.Data.EReal.Basic
import Mathlib.Data.EReal.Operations
import Mathlib.Analysis.SpecialFunctions.Sqrt
import Mathlib.Tactic.Ring
import Mathlib.Tactic.FieldSimp
import Mathlib.Tactic.NormNum
import Mathlib.Tactic.Positivity
import proofs.«428588_j4063039062434_1_alg».proof.Proof.Spec
import proofs.«428588_j4063039062434_1_alg».proof.Proof.LibEReal

open scoped BigOperators

noncomputable section

namespace Cert.Spec

open Idealize.ShloMosaic Cert.LibEReal

/-! ### The four float words -/

/-- The word 0x00000000 is the real number 0. -/
theorem zero_eq : zero = ((0 : ℝ) : EReal) := by
  show Ideal.ofBits .f32 0x00000000#32 = _
  rw [Ideal.ofBits_zero_f32, EReal.coe_zero]

/-- The word 0x3F800000 is the real number 1: exponent field 127, fraction field zero. -/
theorem one_eq : one = ((1 : ℝ) : EReal) := by
  show Ideal.ofBits .f32 0x3F800000#32 = _
  simp [Ideal.ofBits, Ideal.ieee, -EReal.coe_mul]; norm_num

/-- The word 0x47C35000 is the real number 100000: exponent field 143, fraction field 0x435000. -/
theorem cN_eq : cN = ((100000 : ℝ) : EReal) := by
  show Ideal.ofBits .f32 0x47C35000#32 = _
  simp [Ideal.ofBits, Ideal.ieee, -EReal.coe_mul]; norm_num

/-- The word 0x3727C5AC is a positive real number: sign bit clear, exponent field 110. -/
theorem eps_pos : ∃ e : ℝ, 0 < e ∧ eps = ((e : ℝ) : EReal) := by
  show ∃ e : ℝ, 0 < e ∧ Ideal.ofBits .f32 0x3727C5AC#32 = _
  simp [Ideal.ofBits, Ideal.ieee, -EReal.coe_mul]

/-! ### Real numbers are closed under the operations used -/

theorem IsReal.coe (r : ℝ) : IsReal ((r : ℝ) : EReal) := ⟨r, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.max {a b : EReal} (ha : IsReal a) (hb : IsReal b) : IsReal (max a b) := by
  obtain ⟨r, rfl⟩ := ha
  obtain ⟨s, rfl⟩ := hb
  exact ⟨Max.max r s, max_coe r s⟩

/-- A finite sum of real numbers is a real number. -/
theorem IsReal.sum {ι : Type} (s : Finset ι) {f : ι → EReal} (hf : ∀ i, IsReal (f i)) : IsReal (∑ i ∈ s, f i) := by
  choose g hg using hf
  refine ⟨∑ i ∈ s, g i, ?_⟩
  rw [← coe_sum]
  exact Finset.sum_congr rfl fun i _ => hg i

theorem isReal_zero : IsReal zero := ⟨0, zero_eq⟩
theorem isReal_one : IsReal one := ⟨1, one_eq⟩

/-- The quotient of a real number by a nonzero real number is a real number. -/
theorem IsReal.div {a : EReal} (ha : IsReal a) {s : ℝ} (hs : s ≠ 0) : IsReal (Ideal.div a ((s : ℝ) : EReal)) := by
  obtain ⟨r, rfl⟩ := ha
  exact ⟨r / s, div_coe_coe r hs⟩

/-- The reciprocal square root of a positive real number. -/
theorem rsqrt_pos {s : ℝ} (hs : 0 < s) : Ideal.rsqrt ((s : ℝ) : EReal) = (((Real.sqrt s)⁻¹ : ℝ) : EReal) := by
  rw [Ideal.rsqrt_coe, if_neg (not_lt.2 hs.le), if_neg hs.ne']

/-! ### The graph's weights are real numbers -/

/-- A degree is a real number at least 1, in particular positive. -/
theorem deg_pos (G : Graph) (p : Fin 100000) : ∃ d : ℝ, 0 < d ∧ G.deg p = ((d : ℝ) : EReal) := by
  refine ⟨(0 + ∑ _e ∈ G.into p, (1 : ℝ)) + 1, ?_, ?_⟩
  · have : (0 : ℝ) ≤ ∑ _e ∈ G.into p, (1 : ℝ) := Finset.sum_nonneg fun _ _ => zero_le_one
    linarith
  · unfold Graph.deg
    rw [zero_eq, one_eq, coe_sum, ← EReal.coe_add, ← EReal.coe_add]

theorem dinv_real (G : Graph) (p : Fin 100000) : IsReal (G.dinv p) := by
  obtain ⟨d, hd, h⟩ := deg_pos G p
  unfold Graph.dinv
  rw [h]
  exact isReal_one.div hd.ne'

theorem dsq_real (G : Graph) (p : Fin 100000) : IsReal (G.dsq p) := by
  obtain ⟨d, hd, h⟩ := deg_pos G p
  unfold Graph.dsq
  rw [h, rsqrt_pos hd]
  exact IsReal.coe _

theorem nrm_real (G : Graph) (e : Fin 800000) : IsReal (G.nrm e) :=
  (dsq_real G _).mul (dsq_real G _)

/-! ### A layer's features before normalisation are real numbers -/

theorem mm_real {K : Nat} {a : Fin 100000 → Fin K → EReal} {b : Fin K → Fin 256 → EReal}
    (ha : ∀ p k, IsReal (a p k)) (hb : ∀ k q, IsReal (b k q)) (p : Fin 100000) (q : Fin 256) : IsReal (mm a b p q) :=
  IsReal.sum _ fun k => (ha p k).mul (hb k q)

theorem agg_real (G : Graph) {h : Fin 100000 → Fin 256 → EReal} (hh : ∀ p q, IsReal (h p q)) (p : Fin 100000)
    (q : Fin 256) : IsReal (G.agg h p q) :=
  isReal_zero.add (IsReal.sum _ fun e => (hh _ q).mul (nrm_real G e))

theorem conv_real (G : Graph) {h : Fin 100000 → Fin 256 → EReal} {b : Fin 256 → EReal}
    (hh : ∀ p q, IsReal (h p q)) (hb : ∀ q, IsReal (b q)) (p : Fin 100000) (q : Fin 256) : IsReal (G.conv h b p q) :=
  ((agg_real G hh p q).add ((hh p q).mul (dinv_real G p))).add (hb q)

/-! ### The two variances of a real-valued column -/

/-- The identity over the reals: the mean of squares minus the squared mean is the mean of squared deviations. -/
theorem var_identity {ι : Type} [Fintype ι] (g : ι → ℝ) (N : ℝ) (hN : N = (Fintype.card ι : ℝ)) (hN0 : N ≠ 0) :
    (∑ i, g i * g i) / N - (∑ i, g i) / N * ((∑ i, g i) / N)
      = (∑ i, (g i - (∑ j, g j) / N) * (g i - (∑ j, g j) / N)) / N := by
  -- expand each squared deviation, sum term by term, and use Σ 1 = N
  have h : ∀ i, (g i - (∑ j, g j) / N) * (g i - (∑ j, g j) / N)
      = g i * g i - 2 * ((∑ j, g j) / N) * g i + (∑ j, g j) / N * ((∑ j, g j) / N) := fun i => by ring
  simp only [h]
  rw [Finset.sum_add_distrib, Finset.sum_sub_distrib, ← Finset.mul_sum, Finset.sum_const, Finset.card_univ,
    nsmul_eq_mul, ← hN]
  field_simp
  ring

theorem colsum_coe (g : Fin 100000 → Fin 256 → ℝ) (q : Fin 256) :
    colsum (fun p q => ((g p q : ℝ) : EReal)) q = ((∑ p, g p q : ℝ) : EReal) := by
  unfold colsum
  rw [zero_eq, coe_sum, ← EReal.coe_add, zero_add]

theorem mean_coe (g : Fin 100000 → Fin 256 → ℝ) (q : Fin 256) :
    mean (fun p q => ((g p q : ℝ) : EReal)) q = (((∑ p, g p q) / 100000 : ℝ) : EReal) := by
  unfold mean
  rw [colsum_coe, cN_eq, div_coe_coe _ (by norm_num)]

theorem varDev_coe (g : Fin 100000 → Fin 256 → ℝ) (q : Fin 256) :
    varDev (fun p q => ((g p q : ℝ) : EReal)) q
      = (((∑ p, (g p q - (∑ j, g j q) / 100000) * (g p q - (∑ j, g j q) / 100000)) / 100000 : ℝ) : EReal) := by
  unfold varDev
  simp only [mean_coe, ← EReal.coe_sub, ← EReal.coe_mul]
  rw [colsum_coe (fun p q => (g p q - (∑ j, g j q) / 100000) * (g p q - (∑ j, g j q) / 100000)), cN_eq,
    div_coe_coe _ (by norm_num)]

theorem varSq_coe (g : Fin 100000 → Fin 256 → ℝ) (q : Fin 256) :
    varSq (fun p q => ((g p q : ℝ) : EReal)) q
      = (((∑ p, g p q * g p q) / 100000 - (∑ p, g p q) / 100000 * ((∑ p, g p q) / 100000) : ℝ) : EReal) := by
  unfold varSq
  simp only [mean_coe, ← EReal.coe_mul]
  rw [colsum_coe (fun p q => g p q * g p q), cN_eq, div_coe_coe _ (by norm_num), ← EReal.coe_sub]

/-- On a real-valued column the two variances agree, and their common value is a nonnegative real number. -/
theorem var_real {f : Fin 100000 → Fin 256 → EReal} (hf : ∀ p q, IsReal (f p q)) (q : Fin 256) :
    varSq f q = varDev f q ∧ ∃ r : ℝ, 0 ≤ r ∧ varDev f q = ((r : ℝ) : EReal) := by
  choose g hg using hf
  have hfg : f = fun p q => ((g p q : ℝ) : EReal) := funext fun p => funext fun q => hg p q
  subst hfg
  refine ⟨?_, _, ?_, varDev_coe g q⟩
  · rw [varSq_coe, varDev_coe, var_identity (fun p => g p q) 100000 (by simp) (by norm_num)]
  · -- a sum of squares over a positive number
    exact div_nonneg (Finset.sum_nonneg fun p _ => mul_self_nonneg _) (by norm_num)

theorem mean_real {f : Fin 100000 → Fin 256 → EReal} (hf : ∀ p q, IsReal (f p q)) (q : Fin 256) :
    IsReal (mean f q) := by
  unfold mean colsum
  rw [cN_eq]
  exact (isReal_zero.add (IsReal.sum _ fun p => hf p q)).div (by norm_num)

/-- Normalising real features by a real mean and a nonnegative real variance gives real features: the variance plus
    the positive ε is positive, so its reciprocal square root is a real number. -/
theorem bnRelu_real {pre f : Fin 100000 → Fin 256 → EReal} {mu var g be : Fin 256 → EReal}
    (hpre : ∀ p q, IsReal (pre p q)) (hf : ∀ p q, IsReal (f p q)) (hmu : ∀ q, IsReal (mu q))
    (hvar : ∀ q, ∃ r : ℝ, 0 ≤ r ∧ var q = ((r : ℝ) : EReal)) (hg : ∀ q, IsReal (g q)) (hbe : ∀ q, IsReal (be q))
    (p : Fin 100000) (q : Fin 256) : IsReal (bnRelu pre f mu var g be p q) := by
  obtain ⟨r, hr, hv⟩ := hvar q
  obtain ⟨e, he, hE⟩ := eps_pos
  unfold bnRelu
  rw [hv, hE, ← EReal.coe_add, rsqrt_pos (by linarith)]
  exact (hpre p q).add ((((((hf p q).sub (hmu q)).mul (IsReal.coe _)).mul (hg q)).add (hbe q)).max isReal_zero)

/-! ### The two layers -/

variable (I : Inputs)

theorem pre_real (h : I.Finite) (p : Fin 100000) (q : Fin 256) : IsReal (I.pre p q) := mm_real h.x h.Wres p q

theorem hf1_real (h : I.Finite) (p : Fin 100000) (q : Fin 256) : IsReal (I.hf1 p q) :=
  conv_real I.G (mm_real h.x h.W1) h.b1 p q

/-- Layer one's output does not depend on the spelling of the variance. -/
theorem x2_eq (h : I.Finite) : I.x2 varSq = I.x2 varDev := by
  have hv : varSq I.hf1 = varDev I.hf1 := funext fun q => (var_real (hf1_real I h) q).1
  unfold Inputs.x2
  rw [hv]

theorem x2_real (h : I.Finite) (p : Fin 100000) (q : Fin 256) : IsReal (I.x2 varDev p q) :=
  bnRelu_real (pre_real I h) (hf1_real I h) (fun q => mean_real (hf1_real I h) q)
    (fun q => (var_real (hf1_real I h) q).2) h.g1 h.be1 p q

theorem hf2_eq (h : I.Finite) : I.hf2 varSq = I.hf2 varDev := by
  unfold Inputs.hf2
  rw [x2_eq I h]

theorem hf2_real (h : I.Finite) (p : Fin 100000) (q : Fin 256) : IsReal (I.hf2 varDev p q) :=
  conv_real I.G (mm_real (x2_real I h) h.W2) h.b2 p q

/-- The network's output is the same under either spelling of the variance. -/
theorem out_varSq_eq_varDev (I : Inputs) (h : I.Finite) : I.out varSq = I.out varDev := by
  have hv : varSq (I.hf2 varDev) = varDev (I.hf2 varDev) := funext fun q => (var_real (hf2_real I h) q).1
  unfold Inputs.out
  rw [x2_eq I h, hf2_eq I h, hv]

end Cert.Spec

end
-- ==== Proof.RegMatmul.lean ====
/-
  The three tiled products. Each grid point t takes rows 2000t … 2000t+1999 of the left table and the whole right table,
  and writes that row block of the product; the fifty blocks tile the result, so entry (p, q) of the result array is the
  sum over k of left (p, k) times right (k, q) — at the ideal instance the change of float format on the way in is the
  identity and the accumulation from zero is the plain sum.
-/
import proofs.«428588_j4063039062434_1_alg».proof.Proof.Gen.KernelIdeal.Frame
import proofs.«428588_j4063039062434_1_alg».proof.Proof.Spec
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.RegVal

open Cert.KernelIdeal Cert.KernelIdeal.Gen Cert.Spec

variable (V : (c : Dev nD) → (b : Ref sig .tc) → Buf (Elt Ideal) ((c : Thread nD τ).loc b))

/-- The zero offsets of a whole-block access. -/
theorem hz : (![0, 0] : Fin 2 → Nat) = fun _ => 0 := funext fun a => by fin_cases a <;> rfl

/-! ## The contraction of a [2000 × 128] block with a [128 × 256] table, index by index -/

theorem lhsA_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhsA_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhsA_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhsA_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The product from a zero accumulator, at entry (p, q): the sum over the shared axis. -/
theorem prodA_apply (x0 : Vec Ideal S2000x128 .f32) (x1 : Vec Ideal S128x256 .f32) (p : Fin 2000) (q : Fin 256) :
    FloatOps.matmul dot_S2000x128_S128x256_S2000x256_1_0_0_1_n_n none (truncf .bf16 x0 bitsLt_bf16_f32) (truncf .bf16 x1 bitsLt_bf16_f32)
      (constant (F := Ideal) S2000x256 .f32 0x00000000#32) (ix2 p q) = ∑ k : Fin 128, at2 x0 p k * at2 x1 k q := by
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhsA_0 _ _
    | ⟨1, _⟩ => exact (lhsA_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhsA_0 _ _).trans hk
    | ⟨1, _⟩ => exact rhsA_1 _ _)
  rw [el, er]
  rfl

theorem pay0_apply (x0 : Vec Ideal S2000x128 .f32) (x1 : Vec Ideal S128x256 .f32) (p : Fin 2000) (q : Fin 256) :
    k0_pay1 x0 x1 (ix2 p q) = ∑ k : Fin 128, at2 x0 p k * at2 x1 k q := prodA_apply x0 x1 p q

/-! ## Region 0 -/

/-- The printed index maps over the grid: the left window and the output move one row block per point, the right table stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 2000t … 2000t+1999 of the left table. -/
theorem left0_apply (c : Dev nD) (t : Fin cfg0.N) (p : Fin 2000) (k : Fin 128) (r : Fin 100000) (hr : r.val = 2000 * t.val + p.val) :
    at2 (iblk0 V c 0 t : Vec Ideal S2000x128 .f32) p k = at2 (V c main_arg1) r k := by
  obtain ⟨e0, e1, -⟩ := idx0 t
  unfold iblk0
  show ((cfg0.win 0).blk t).view.read (Elt Ideal) (V c main_arg1) (ix2 p k) = V c main_arg1 (ix2 r k)
  rw [View.read_apply]
  show V c main_arg1 _ = V c main_arg1 _
  congr 1
  funext a
  apply Fin.ext
  match a with
  | ⟨0, _⟩ => show win0_0.index t (0 : Fin 2) * 2000 + 1 * p.val = r.val; omega
  | ⟨1, _⟩ => show win0_0.index t (1 : Fin 2) * 128 + 1 * k.val = k.val; omega

/-- The right window's block is the whole right table at every point. -/
theorem right0_apply (c : Dev nD) (t : Fin cfg0.N) (k : Fin 128) (q : Fin 256) :
    at2 (iblk0 V c 1 t : Vec Ideal S128x256 .f32) k q = at2 (V c main_arg10) k q := by
  obtain ⟨-, -, e0, e1, -⟩ := idx0 t
  unfold iblk0
  show ((cfg0.win 1).blk t).view.read (Elt Ideal) (V c main_arg10) (ix2 k q) = V c main_arg10 (ix2 k q)
  rw [View.read_apply]
  show V c main_arg10 _ = V c main_arg10 _
  congr 1
  funext a
  apply Fin.ext
  match a with
  | ⟨0, _⟩ => show win0_1.index t (0 : Fin 2) * 128 + 1 * k.val = k.val; omega
  | ⟨1, _⟩ => show win0_1.index t (1 : Fin 2) * 256 + 1 * q.val = q.val; omega

/-- The product of the two tables as found on entry, as one array. -/
abbrev P0 (c : Dev nD) : S100000x256.Idx → EReal := fun i =>
  ∑ k : Fin 128, at2 (V c main_arg1) (i 0) k * at2 (V c main_arg10) k (i 1)

/-- What point t writes back is block t of the product. -/
theorem flushed0 (c : Dev nD) (t : Fin cfg0.N) :
    (dat0 (F := Ideal) V c).flushed 2 t = ((cfg0.win 2).blk t).view.read (Elt Ideal) (P0 V c) := by
  show (cfg0.win 2).cut (grid0.coords t) ((dat0 (F := Ideal) V c).after 2 t) = _
  rw [after0_2]
  unfold out0_2
  rw [View.canon_unit_zero hz]
  simp only [View.ld_unit_zero (S := S2000x128) hz, View.ld_unit_zero (S := S128x256) hz]
  obtain ⟨-, -, -, -, e0, e1⟩ := idx0 t
  funext j
  obtain ⟨p, q, rfl⟩ : ∃ (p : Fin 2000) (q : Fin 256), j = ix2 p q := ⟨j 0, j 1, eq_ix2 j⟩
  have ht : t.val < 50 := lt_of_lt_of_eq t.isLt N_0
  refine (pay0_apply (iblk0 V c 0 t) (iblk0 V c 1 t) p q).trans ?_
  rw [View.read_apply]
  have hemb : ((cfg0.win 2).blk t).view.emb (ix2 p q) = ix2 (⟨2000 * t.val + p.val, by omega⟩ : Fin 100000) q := by
    funext a
    apply Fin.ext
    match a with
    | ⟨0, _⟩ => show win0_2.index t (0 : Fin 2) * 2000 + 1 * p.val = 2000 * t.val + p.val; omega
    | ⟨1, _⟩ => show win0_2.index t (1 : Fin 2) * 256 + 1 * q.val = q.val; omega
  rw [hemb]
  refine Finset.sum_congr rfl fun k _ => ?_
  rw [left0_apply V c t p k ⟨2000 * t.val + p.val, by omega⟩ rfl, right0_apply V c t k q]

/-- An index of the result is in point t's block iff its row is among rows 2000t … 2000t+1999. -/
theorem mem_blk0 (t : Fin cfg0.N) (i : S100000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v29).slice (win0_2.rect t)).set ↔ _
  rw [View.set_slice_whole, Rect.mem_set_unit]
  exact Iff.rfl

/-- The result array after the region is the product. -/
theorem final0 (c : Dev nD) : (dat0 (F := Ideal) V c).arrAt 2 cfg0.N = P0 V c :=
  (dat0 (F := Ideal) V c).arrAt_eq_of_cover 2 (P0 V c) (fun t _ => flushed0 V c t) fun i => by
    have hi0 : (i 0).val < 100000 := (i 0).isLt
    have hi1 : (i 1).val < 256 := (i 1).isLt
    have hN : cfg0.N = 50 := N_0
    refine ⟨⟨(i 0).val / 2000, by rw [hN]; omega⟩, flush0_2 _, ?_⟩
    rw [mem_blk0]
    obtain ⟨-, -, -, -, e0, e1⟩ := idx0 ⟨(i 0).val / 2000, by rw [hN]; omega⟩
    intro a
    match a with
    | ⟨0, _⟩ => show win0_2.index _ (0 : Fin 2) * 2000 ≤ (i 0).val ∧ (i 0).val < win0_2.index _ (0 : Fin 2) * 2000 + 2000; rw [e0]; show (i 0).val / 2000 * 2000 ≤ _ ∧ _ < (i 0).val / 2000 * 2000 + 2000; omega
    | ⟨1, _⟩ => show win0_2.index _ (1 : Fin 2) * 256 ≤ (i 1).val ∧ (i 1).val < win0_2.index _ (1 : Fin 2) * 256 + 256; rw [e1]; omega

/-- Region 0: x times Wres. -/
theorem mm0 (c : Dev nD) (p : Fin 100000) (q : Fin 256) :
    at2 ((dat0 (F := Ideal) V c).arrAt 2 cfg0.N) p q = ∑ k : Fin 128, at2 (V c main_arg1) p k * at2 (V c main_arg10) k q := by
  rw [final0]

/-! ## Region 1 -/

theorem pay1_apply (x0 : Vec Ideal S2000x128 .f32) (x1 : Vec Ideal S128x256 .f32) (p : Fin 2000) (q : Fin 256) :
    k1_pay1 x0 x1 (ix2 p q) = ∑ k : Fin 128, at2 x0 p k * at2 x1 k q := prodA_apply x0 x1 p q

/-- The printed index maps over the grid: the left window and the output move one row block per point, the right table stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left window's block at point t is rows 2000t … 2000t+1999 of the left table. -/
theorem left1_apply (c : Dev nD) (t : Fin cfg1.N) (p : Fin 2000) (k : Fin 128) (r : Fin 100000) (hr : r.val = 2000 * t.val + p.val) :
    at2 (iblk1 V c 0 t : Vec Ideal S2000x128 .f32) p k = at2 (V c main_arg1) r k := by
  obtain ⟨e0, e1, -⟩ := idx1 t
  unfold iblk1
  show ((cfg1.win 0).blk t).view.read (Elt Ideal) (V c main_arg1) (ix2 p k) = V c main_arg1 (ix2 r k)
  rw [View.read_apply]
  show V c main_arg1 _ = V c main_arg1 _
  congr 1
  funext a
  apply Fin.ext
  match a with
  | ⟨0, _⟩ => show win1_0.index t (0 : Fin 2) * 2000 + 1 * p.val = r.val; omega
  | ⟨1, _⟩ => show win1_0.index t (1 : Fin 2) * 128 + 1 * k.val = k.val; omega

/-- The right window's block is the whole right table at every point. -/
theorem right1_apply (c : Dev nD) (t : Fin cfg1.N) (k : Fin 128) (q : Fin 256) :
    at2 (iblk1 V c 1 t : Vec Ideal S128x256 .f32) k q = at2 (V c main_arg2) k q := by
  obtain ⟨-, -, e0, e1, -⟩ := idx1 t
  unfold iblk1
  show ((cfg1.win 1).blk t).view.read (Elt Ideal) (V c main_arg2) (ix2 k q) = V c main_arg2 (ix2 k q)
  rw [View.read_apply]
  show V c main_arg2 _ = V c main_arg2 _
  congr 1
  funext a
  apply Fin.ext
  match a with
  | ⟨0, _⟩ => show win1_1.index t (0 : Fin 2) * 128 + 1 * k.val = k.val; omega
  | ⟨1, _⟩ => show win1_1.index t (1 : Fin 2) * 256 + 1 * q.val = q.val; omega

/-- The product of the two tables as found on entry, as one array. -/
abbrev P1 (c : Dev nD) : S100000x256.Idx → EReal := fun i =>
  ∑ k : Fin 128, at2 (V c main_arg1) (i 0) k * at2 (V c main_arg2) k (i 1)

/-- What point t writes back is block t of the product. -/
theorem flushed1 (c : Dev nD) (t : Fin cfg1.N) :
    (dat1 (F := Ideal) V c).flushed 2 t = ((cfg1.win 2).blk t).view.read (Elt Ideal) (P1 V c) := by
  show (cfg1.win 2).cut (grid1.coords t) ((dat1 (F := Ideal) V c).after 2 t) = _
  rw [after1_2]
  unfold out1_2
  rw [View.canon_unit_zero hz]
  simp only [View.ld_unit_zero (S := S2000x128) hz, View.ld_unit_zero (S := S128x256) hz]
  obtain ⟨-, -, -, -, e0, e1⟩ := idx1 t
  funext j
  obtain ⟨p, q, rfl⟩ : ∃ (p : Fin 2000) (q : Fin 256), j = ix2 p q := ⟨j 0, j 1, eq_ix2 j⟩
  have ht : t.val < 50 := lt_of_lt_of_eq t.isLt N_1
  refine (pay1_apply (iblk1 V c 0 t) (iblk1 V c 1 t) p q).trans ?_
  rw [View.read_apply]
  have hemb : ((cfg1.win 2).blk t).view.emb (ix2 p q) = ix2 (⟨2000 * t.val + p.val, by omega⟩ : Fin 100000) q := by
    funext a
    apply Fin.ext
    match a with
    | ⟨0, _⟩ => show win1_2.index t (0 : Fin 2) * 2000 + 1 * p.val = 2000 * t.val + p.val; omega
    | ⟨1, _⟩ => show win1_2.index t (1 : Fin 2) * 256 + 1 * q.val = q.val; omega
  rw [hemb]
  refine Finset.sum_congr rfl fun k _ => ?_
  rw [left1_apply V c t p k ⟨2000 * t.val + p.val, by omega⟩ rfl, right1_apply V c t k q]

/-- An index of the result is in point t's block iff its row is among rows 2000t … 2000t+1999. -/
theorem mem_blk1 (t : Fin cfg1.N) (i : S100000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v30).slice (win1_2.rect t)).set ↔ _
  rw [View.set_slice_whole, Rect.mem_set_unit]
  exact Iff.rfl

/-- The result array after the region is the product. -/
theorem final1 (c : Dev nD) : (dat1 (F := Ideal) V c).arrAt 2 cfg1.N = P1 V c :=
  (dat1 (F := Ideal) V c).arrAt_eq_of_cover 2 (P1 V c) (fun t _ => flushed1 V c t) fun i => by
    have hi0 : (i 0).val < 100000 := (i 0).isLt
    have hi1 : (i 1).val < 256 := (i 1).isLt
    have hN : cfg1.N = 50 := N_1
    refine ⟨⟨(i 0).val / 2000, by rw [hN]; omega⟩, flush1_2 _, ?_⟩
    rw [mem_blk1]
    obtain ⟨-, -, -, -, e0, e1⟩ := idx1 ⟨(i 0).val / 2000, by rw [hN]; omega⟩
    intro a
    match a with
    | ⟨0, _⟩ => show win1_2.index _ (0 : Fin 2) * 2000 ≤ (i 0).val ∧ (i 0).val < win1_2.index _ (0 : Fin 2) * 2000 + 2000; rw [e0]; show (i 0).val / 2000 * 2000 ≤ _ ∧ _ < (i 0).val / 2000 * 2000 + 2000; omega
    | ⟨1, _⟩ => show win1_2.index _ (1 : Fin 2) * 256 ≤ (i 1).val ∧ (i 1).val < win1_2.index _ (1 : Fin 2) * 256 + 256; rw [e1]; omega

/-- Region 1: x times W1. -/
theorem mm1 (c : Dev nD) (p : Fin 100000) (q : Fin 256) :
    at2 ((dat1 (F := Ideal) V c).arrAt 2 cfg1.N) p q = ∑ k : Fin 128, at2 (V c main_arg1) p k * at2 (V c main_arg2) k q := by
  rw [final1]

/-! ## The contraction of a [2000 × 256] block with a [256 × 256] table, index by index -/

theorem lhsB_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhsB_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhsB_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhsB_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product from a zero accumulator, at entry (p, q): the sum over the shared axis. -/
theorem prodB_apply (x0 : Vec Ideal S2000x256 .f32) (x1 : Vec Ideal S256x256 .f32) (p : Fin 2000) (q : Fin 256) :
    FloatOps.matmul dot_S2000x256_S256x256_S2000x256_1_0_0_1_n_n none (truncf .bf16 x0 bitsLt_bf16_f32) (truncf .bf16 x1 bitsLt_bf16_f32)
      (constant (F := Ideal) S2000x256 .f32 0x00000000#32) (ix2 p q) = ∑ k : Fin 256, at2 x0 p k * at2 x1 k q := by
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhsB_0 _ _
    | ⟨1, _⟩ => exact (lhsB_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhsB_0 _ _).trans hk
    | ⟨1, _⟩ => exact rhsB_1 _ _)
  rw [el, er]
  rfl

/-- The body's reshape of the left block to its own shape changes nothing. -/
theorem pay4_apply (x0 : Vec Ideal S2000x256 .f32) (x1 : Vec Ideal S256x256 .f32) (p : Fin 2000) (q : Fin 256) :
    k4_pay1 x0 x1 (ix2 p q) = ∑ k : Fin 256, at2 x0 p k * at2 x1 k q := by
  unfold k4_pay1
  simp only [shapeCast_self]
  exact prodB_apply x0 x1 p q

/-! ## Region 4 -/

/-- The printed index maps over the grid: the left window and the output move one row block per point, the right table stays. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left window's block at point t is rows 2000t … 2000t+1999 of the left table. -/
theorem left4_apply (c : Dev nD) (t : Fin cfg4.N) (p : Fin 2000) (k : Fin 256) (r : Fin 100000) (hr : r.val = 2000 * t.val + p.val) :
    at2 (iblk4 V c 0 t : Vec Ideal S2000x256 .f32) p k = at2 (V c main_v48) r k := by
  obtain ⟨e0, e1, -⟩ := idx4 t
  unfold iblk4
  show ((cfg4.win 0).blk t).view.read (Elt Ideal) (V c main_v48) (ix2 p k) = V c main_v48 (ix2 r k)
  rw [View.read_apply]
  show V c main_v48 _ = V c main_v48 _
  congr 1
  funext a
  apply Fin.ext
  match a with
  | ⟨0, _⟩ => show win4_0.index t (0 : Fin 2) * 2000 + 1 * p.val = r.val; omega
  | ⟨1, _⟩ => show win4_0.index t (1 : Fin 2) * 256 + 1 * k.val = k.val; omega

/-- The right window's block is the whole right table at every point. -/
theorem right4_apply (c : Dev nD) (t : Fin cfg4.N) (k : Fin 256) (q : Fin 256) :
    at2 (iblk4 V c 1 t : Vec Ideal S256x256 .f32) k q = at2 (V c main_arg6) k q := by
  obtain ⟨-, -, e0, e1, -⟩ := idx4 t
  unfold iblk4
  show ((cfg4.win 1).blk t).view.read (Elt Ideal) (V c main_arg6) (ix2 k q) = V c main_arg6 (ix2 k q)
  rw [View.read_apply]
  show V c main_arg6 _ = V c main_arg6 _
  congr 1
  funext a
  apply Fin.ext
  match a with
  | ⟨0, _⟩ => show win4_1.index t (0 : Fin 2) * 256 + 1 * k.val = k.val; omega
  | ⟨1, _⟩ => show win4_1.index t (1 : Fin 2) * 256 + 1 * q.val = q.val; omega

/-- The product of the two tables as found on entry, as one array. -/
abbrev P4 (c : Dev nD) : S100000x256.Idx → EReal := fun i =>
  ∑ k : Fin 256, at2 (V c main_v48) (i 0) k * at2 (V c main_arg6) k (i 1)

/-- What point t writes back is block t of the product. -/
theorem flushed4 (c : Dev nD) (t : Fin cfg4.N) :
    (dat4 (F := Ideal) V c).flushed 2 t = ((cfg4.win 2).blk t).view.read (Elt Ideal) (P4 V c) := by
  show (cfg4.win 2).cut (grid4.coords t) ((dat4 (F := Ideal) V c).after 2 t) = _
  rw [after4_2]
  unfold out4_2
  rw [View.canon_unit_zero hz]
  simp only [View.ld_unit_zero (S := S2000x256) hz, View.ld_unit_zero (S := S256x256) hz]
  obtain ⟨-, -, -, -, e0, e1⟩ := idx4 t
  funext j
  obtain ⟨p, q, rfl⟩ : ∃ (p : Fin 2000) (q : Fin 256), j = ix2 p q := ⟨j 0, j 1, eq_ix2 j⟩
  have ht : t.val < 50 := lt_of_lt_of_eq t.isLt N_4
  refine (pay4_apply (iblk4 V c 0 t) (iblk4 V c 1 t) p q).trans ?_
  rw [View.read_apply]
  have hemb : ((cfg4.win 2).blk t).view.emb (ix2 p q) = ix2 (⟨2000 * t.val + p.val, by omega⟩ : Fin 100000) q := by
    funext a
    apply Fin.ext
    match a with
    | ⟨0, _⟩ => show win4_2.index t (0 : Fin 2) * 2000 + 1 * p.val = 2000 * t.val + p.val; omega
    | ⟨1, _⟩ => show win4_2.index t (1 : Fin 2) * 256 + 1 * q.val = q.val; omega
  rw [hemb]
  refine Finset.sum_congr rfl fun k _ => ?_
  rw [left4_apply V c t p k ⟨2000 * t.val + p.val, by omega⟩ rfl, right4_apply V c t k q]

/-- An index of the result is in point t's block iff its row is among rows 2000t … 2000t+1999. -/
theorem mem_blk4 (t : Fin cfg4.N) (i : S100000x256.Idx) :
    i ∈ ((cfg4.win 2).blk t).view.set ↔ ∀ a : Fin 2, win4_2.index t a * S2000x256.size a ≤ (i a).val ∧ (i a).val < win4_2.index t a * S2000x256.size a + S2000x256.size a := by
  show i ∈ ((View.whole main_v49).slice (win4_2.rect t)).set ↔ _
  rw [View.set_slice_whole, Rect.mem_set_unit]
  exact Iff.rfl

/-- The result array after the region is the product. -/
theorem final4 (c : Dev nD) : (dat4 (F := Ideal) V c).arrAt 2 cfg4.N = P4 V c :=
  (dat4 (F := Ideal) V c).arrAt_eq_of_cover 2 (P4 V c) (fun t _ => flushed4 V c t) fun i => by
    have hi0 : (i 0).val < 100000 := (i 0).isLt
    have hi1 : (i 1).val < 256 := (i 1).isLt
    have hN : cfg4.N = 50 := N_4
    refine ⟨⟨(i 0).val / 2000, by rw [hN]; omega⟩, flush4_2 _, ?_⟩
    rw [mem_blk4]
    obtain ⟨-, -, -, -, e0, e1⟩ := idx4 ⟨(i 0).val / 2000, by rw [hN]; omega⟩
    intro a
    match a with
    | ⟨0, _⟩ => show win4_2.index _ (0 : Fin 2) * 2000 ≤ (i 0).val ∧ (i 0).val < win4_2.index _ (0 : Fin 2) * 2000 + 2000; rw [e0]; show (i 0).val / 2000 * 2000 ≤ _ ∧ _ < (i 0).val / 2000 * 2000 + 2000; omega
    | ⟨1, _⟩ => show win4_2.index _ (1 : Fin 2) * 256 ≤ (i 1).val ∧ (i 1).val < win4_2.index _ (1 : Fin 2) * 256 + 256; rw [e1]; omega

/-- Region 4: the first layer's output times W2. -/
theorem mm4 (c : Dev nD) (p : Fin 100000) (q : Fin 256) :
    at2 ((dat4 (F := Ideal) V c).arrAt 2 cfg4.N) p q = ∑ k : Fin 256, at2 (V c main_v48) p k * at2 (V c main_arg6) k q := by
  rw [final4]

end Cert.KernelIdeal.RegVal

end
-- ==== Proof.RegStats.lean ====
/-
  The fused add with column statistics. Grid point t takes row block t of the aggregated messages, of the features and of
  the self-loop weights, and the bias row; it writes val = (agg + h * dinv) + b for its rows, and adds the block's column
  sums of val and of val squared into two [1 × 256] accumulators that are set to zero at the first point and written back
  after the last; so the accumulators end at 0 + the sum over all 100000 rows.
-/
import proofs.«428588_j4063039062434_1_alg».proof.Proof.Gen.KernelIdeal.Frame
import proofs.«428588_j4063039062434_1_alg».proof.Proof.Spec
import Idealize.ShloMosaic.Lib.Pipeline.Value
import Idealize.ShloMosaic.Lib.ValueLayout
import Idealize.ShloMosaic.Lib.Tactic
import Mathlib.Algebra.BigOperators.Intervals
import Mathlib.Algebra.BigOperators.Fin
import Mathlib.Tactic.Ring
import Mathlib.Tactic.NormNum

noncomputable section

open Idealize.ShloMosaic Idealize.ShloMosaic.TcCoe Idealize.SL.Sem Idealize.ShloMosaic.ValueIdx
open Idealize.ShloMosaic.Pipeline (Dat)
open scoped BigOperators

namespace Cert.KernelIdeal.RegVal

open Cert.KernelIdeal Cert.KernelIdeal.Gen Cert.Spec

/-! ## Shared: layout reads, the column sums of a block, regrouping the rows by blocks of 2000 -/

theorem stats_hz : (![0, 0] : Fin 2 → Nat) = fun _ => 0 := funext fun a => by fin_cases a <;> rfl

/-- A column [a, 1] broadcast over b lanes reads, at (p, c), the operand's row p. -/
theorem stats_bcast_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a [2000 × 256] block along its rows, at column q, is the sum over the 2000 rows of the entries of that column. -/
theorem stats_colsum_apply (src : FVec Ideal S2000x256 .f32) (hacc : (0x00000000#32 : BitVec 32) = 0x00000000#32) (q : Fin 256) :
    multiReduction .add [0] S256 src 0x00000000#32 reduces_S2000x256_S256 (.inl rfl) hacc (ix1 q) = ∑ k : Fin 2000, src (ix2 k q) := by
  refine (Ideal.multiReduction_add_single src 0x00000000#32 reduces_S2000x256_S256 (.inl rfl) hacc (ix1 q)).trans ?_
  refine Finset.sum_congr rfl fun k _ => congrArg src ?_
  funext a
  apply Fin.ext
  match a with
  | ⟨0, _⟩ => rfl
  | ⟨1, _⟩ => rfl

/-- A function of the 100000 rows continued by 0 to every natural number. -/
def statsExt0 (f : Fin 100000 → EReal) (p : ℕ) : EReal := if h : p < 100000 then f ⟨p, h⟩ else 0

/-- Adding block m's 2000 rows to the sum over the rows below 2000 m gives the sum over the rows below 2000 (m + 1). -/
theorem stats_step_sum (f : Fin 100000 → EReal) (m : ℕ) (hm : m < 50) (z : EReal) (b : Fin 2000 → EReal)
    (hb : ∀ (k : Fin 2000) (h : 2000 * m + k.val < 100000), b k = f ⟨2000 * m + k.val, h⟩) :
    (z + ∑ p ∈ Finset.range (2000 * m), statsExt0 f p) + ∑ k : Fin 2000, b k
      = z + ∑ p ∈ Finset.range (2000 * (m + 1)), statsExt0 f p := by
  rw [add_assoc, show 2000 * (m + 1) = 2000 * m + 2000 from by ring, Finset.sum_range_add, Finset.sum_range (n := 2000)]
  congr 2
  refine Finset.sum_congr rfl fun k _ => ?_
  have hk : 2000 * m + k.val < 100000 := by have := k.isLt; omega
  rw [hb k hk]
  unfold statsExt0
  rw [dif_pos hk]

/-- The rows below 2000 · 50 are all the rows. -/
theorem stats_sum_all (f : Fin 100000 → EReal) : ∑ p ∈ Finset.range (2000 * (49 + 1)), statsExt0 f p = ∑ p : Fin 100000, f p := by
  rw [show 2000 * (49 + 1) = 100000 from by norm_num, Finset.sum_range (n := 100000)]
  refine Finset.sum_congr rfl fun p _ => ?_
  unfold statsExt0
  rw [dif_pos p.isLt]

/-- The first block's 2000 rows are the rows below 2000. -/
theorem stats_base_sum (f : Fin 100000 → EReal) (z : EReal) (b : Fin 2000 → EReal)
    (hb : ∀ (k : Fin 2000) (h : 2000 * 0 + k.val < 100000), b k = f ⟨2000 * 0 + k.val, h⟩) :
    z + ∑ k : Fin 2000, b k = z + ∑ p ∈ Finset.range (2000 * (0 + 1)), statsExt0 f p := by
  have h := stats_step_sum f 0 (by omega) z b hb
  rwa [Nat.mul_zero, Finset.range_zero, Finset.sum_empty, add_zero] at h

/-! ## Region 2: what each control case leaves in the three output blocks, as the body's arithmetic of the loaded blocks -/

section Pieces2
variable {F : FTy → Type} [FloatOps F]

theorem pieceA4_2 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond2_0 i)
    (x0 : Vec F S2000x256 .f32) (x1 : Vec F S2000x256 .f32) (x2 : Vec F S2000x1 .f32) (x3 : Vec F S1x256 .f32) :
    out2_A_4 c i arg1 harg1 arg2 harg2 arg3 harg3 arg4 harg4 arg5 harg5 arg6 harg6 arg7 harg7 hc0 x0 x1 x2 x3 = k2_pay3 x0 x1 x2 x3 := by
  unfold out2_A_4
  rw [View.read_writes_eq_canon _ _ _ (cover2_A_4 c i arg1 harg1 arg2 harg2 arg3 harg3 arg4 harg4 arg5 harg5 arg6 harg6 arg7 harg7 hc0 x0 x1 x2 x3)]
  unfold kernelRun2_A
  dsimp only
  sl_unfold_words
  rw [View.canon_unit_zero stats_hz]
  simp only [View.readAt_eq_ld, harg1.read_unread, harg2.read_unread, harg3.read_unread, harg4.read_unread, harg6.read_unread, harg7.read_unread, View.ld_unit_zero (S := S2000x256) stats_hz, View.ld_unit_zero (S := S2000x1) stats_hz, View.ld_unit_zero (S := S1x256) stats_hz]

theorem pieceA5_2 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond2_0 i)
    (x0 : Vec F S2000x256 .f32) (x1 : Vec F S2000x256 .f32) (x2 : Vec F S2000x1 .f32) (x3 : Vec F S1x256 .f32) :
    out2_A_5 c i arg1 harg1 arg2 harg2 arg3 harg3 arg4 harg4 arg5 harg5 arg6 harg6 arg7 harg7 hc0 x0 x1 x2 x3 = k2_pay4 x0 x1 x2 x3 (k2_pay1 (F := F)) := by
  unfold out2_A_5
  rw [View.read_writes_eq_canon _ _ _ (cover2_A_5 c i arg1 harg1 arg2 harg2 arg3 harg3 arg4 harg4 arg5 harg5 arg6 harg6 arg7 harg7 hc0 x0 x1 x2 x3)]
  unfold kernelRun2_A
  dsimp only
  sl_unfold_words
  rw [View.canon_cons_unit_zero (S := S1x256) stats_hz, View.readCov_unit_zero (S := S1x256) _ stats_hz]
  simp only [View.readAt_eq_ld, harg1.read_unread, harg2.read_unread, harg3.read_unread, harg4.read_unread, harg6.read_unread, harg7.read_unread, View.ld_unit_zero (S := S2000x256) stats_hz, View.ld_unit_zero (S := S2000x1) stats_hz, View.ld_unit_zero (S := S1x256) stats_hz]

theorem pieceA6_2 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond2_0 i)
    (x0 : Vec F S2000x256 .f32) (x1 : Vec F S2000x256 .f32) (x2 : Vec F S2000x1 .f32) (x3 : Vec F S1x256 .f32) :
    out2_A_6 c i arg1 harg1 arg2 harg2 arg3 harg3 arg4 harg4 arg5 harg5 arg6 harg6 arg7 harg7 hc0 x0 x1 x2 x3 = k2_pay5 x0 x1 x2 x3 (k2_pay2 (F := F)) := by
  unfold out2_A_6
  rw [View.read_writes_eq_canon _ _ _ (cover2_A_6 c i arg1 harg1 arg2 harg2 arg3 harg3 arg4 harg4 arg5 harg5 arg6 harg6 arg7 harg7 hc0 x0 x1 x2 x3)]
  unfold kernelRun2_A
  dsimp only
  sl_unfold_words
  rw [View.canon_cons_unit_zero (S := S1x256) stats_hz, View.readCov_unit_zero (S := S1x256) _ stats_hz]
  simp only [View.readAt_eq_ld, harg1.read_unread, harg2.read_unread, harg3.read_unread, harg4.read_unread, harg6.read_unread, harg7.read_unread, View.ld_unit_zero (S := S2000x256) stats_hz, View.ld_unit_zero (S := S2000x1) stats_hz, View.ld_unit_zero (S := S1x256) stats_hz]

theorem pieceB4_2 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond2_0 i)
    (x0 : Vec F S2000x256 .f32) (x1 : Vec F S2000x256 .f32) (x2 : Vec F S2000x1 .f32) (x3 : Vec F S1x256 .f32) (xo5 : Vec F S1x256 .f32) (xo6 : Vec F S1x256 .f32) :
    out2_B_4 c i arg1 harg1 arg2 harg2 arg3 harg3 arg4 harg4 arg5 harg5 arg6 harg6 arg7 harg7 hc0 x0 x1 x2 x3 xo5 xo6 = k2_pay3 x0 x1 x2 x3 := by
  unfold out2_B_4
  rw [View.read_writes_eq_canon _ _ _ (cover2_B_4 c i arg1 harg1 arg2 harg2 arg3 harg3 arg4 harg4 arg5 harg5 arg6 harg6 arg7 harg7 hc0 x0 x1 x2 x3 xo5 xo6)]
  unfold kernelRun2_B
  dsimp only
  sl_unfold_words
  rw [View.canon_unit_zero stats_hz]
  simp only [View.readAt_eq_ld, harg1.read_unread, harg2.read_unread, harg3.read_unread, harg4.read_unread, harg6.read_unread, harg7.read_unread, View.ld_unit_zero (S := S2000x256) stats_hz, View.ld_unit_zero (S := S2000x1) stats_hz, View.ld_unit_zero (S := S1x256) stats_hz]

theorem pieceB5_2 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond2_0 i)
    (x0 : Vec F S2000x256 .f32) (x1 : Vec F S2000x256 .f32) (x2 : Vec F S2000x1 .f32) (x3 : Vec F S1x256 .f32) (xo5 : Vec F S1x256 .f32) (xo6 : Vec F S1x256 .f32) :
    out2_B_5 c i arg1 harg1 arg2 harg2 arg3 harg3 arg4 harg4 arg5 harg5 arg6 harg6 arg7 harg7 hc0 x0 x1 x2 x3 xo5 xo6 = k2_pay4 x0 x1 x2 x3 xo5 := by
  unfold out2_B_5
  rw [View.read_writes_eq_canon _ _ _ (cover2_B_5 c i arg1 harg1 arg2 harg2 arg3 harg3 arg4 harg4 arg5 harg5 arg6 harg6 arg7 harg7 hc0 x0 x1 x2 x3 xo5 xo6)]
  unfold kernelRun2_B
  dsimp only
  sl_unfold_words
  rw [View.canon_unit_zero stats_hz]
  simp only [View.readAt_eq_ld, harg1.read_unread, harg2.read_unread, harg3.read_unread, harg4.read_unread, harg6.read_unread, harg7.read_unread, View.ld_unit_zero (S := S2000x256) stats_hz, View.ld_unit_zero (S := S2000x1) stats_hz, View.ld_unit_zero (S := S1x256) stats_hz]

theorem pieceB6_2 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond2_0 i)
    (x0 : Vec F S2000x256 .f32) (x1 : Vec F S2000x256 .f32) (x2 : Vec F S2000x1 .f32) (x3 : Vec F S1x256 .f32) (xo5 : Vec F S1x256 .f32) (xo6 : Vec F S1x256 .f32) :
    out2_B_6 c i arg1 harg1 arg2 harg2 arg3 harg3 arg4 harg4 arg5 harg5 arg6 harg6 arg7 harg7 hc0 x0 x1 x2 x3 xo5 xo6 = k2_pay5 x0 x1 x2 x3 xo6 := by
  unfold out2_B_6
  rw [View.read_writes_eq_canon _ _ _ (cover2_B_6 c i arg1 harg1 arg2 harg2 arg3 harg3 arg4 harg4 arg5 harg5 arg6 harg6 arg7 harg7 hc0 x0 x1 x2 x3 xo5 xo6)]
  unfold kernelRun2_B
  dsimp only
  sl_unfold_words
  rw [View.canon_unit_zero stats_hz]
  simp only [View.readAt_eq_ld, harg1.read_unread, harg2.read_unread, harg3.read_unread, harg4.read_unread, harg6.read_unread, harg7.read_unread, View.ld_unit_zero (S := S2000x256) stats_hz, View.ld_unit_zero (S := S2000x1) stats_hz, View.ld_unit_zero (S := S1x256) stats_hz]

end Pieces2

/-! ## Region 2: the body's arithmetic read at an entry -/

/-- The block written back: at row r, column q, (agg + h · d) + b of the four loaded blocks' entries. -/
theorem pay3_apply2 (x0 x1 : Vec Ideal S2000x256 .f32) (x2 : Vec Ideal S2000x1 .f32) (x3 : Vec Ideal S1x256 .f32) (r : Fin 2000) (q : Fin 256) :
    at2 (k2_pay3 x0 x1 x2 x3) r q = (at2 x0 r q + at2 x1 r q * at2 x2 r (0 : Fin 1)) + at2 x3 (0 : Fin 1) q := by
  unfold k2_pay3
  dsimp only
  simp only [at2, shapeCast_self, addf_apply, mulf_apply, stats_bcast_col_apply, broadcastTo_1b_ab_apply]

/-- The first accumulator's update: the old entry plus the column's sum over the block's 2000 rows. -/
theorem pay4_apply2 (x0 x1 : Vec Ideal S2000x256 .f32) (x2 : Vec Ideal S2000x1 .f32) (x3 : Vec Ideal S1x256 .f32) (acc : Vec Ideal S1x256 .f32) (u : Fin 1) (q : Fin 256) :
    at2 (k2_pay4 x0 x1 x2 x3 acc) u q = at2 acc u q + ∑ k : Fin 2000, at2 (k2_pay3 x0 x1 x2 x3) k q := by
  unfold k2_pay4
  dsimp only
  simp only [at2, shapeCast_self, addf_apply, shapeCast_a_1a_apply]
  congr 1
  exact stats_colsum_apply _ rfl q

/-- The second accumulator's update: the old entry plus the column's sum of squares over the block's 2000 rows. -/
theorem pay5_apply2 (x0 x1 : Vec Ideal S2000x256 .f32) (x2 : Vec Ideal S2000x1 .f32) (x3 : Vec Ideal S1x256 .f32) (acc : Vec Ideal S1x256 .f32) (u : Fin 1) (q : Fin 256) :
    at2 (k2_pay5 x0 x1 x2 x3 acc) u q
      = at2 acc u q + ∑ k : Fin 2000, (at2 (k2_pay3 x0 x1 x2 x3) k q * at2 (k2_pay3 x0 x1 x2 x3) k q) := by
  unfold k2_pay5
  dsimp only
  simp only [at2, shapeCast_self, addf_apply, shapeCast_a_1a_apply]
  congr 1
  refine (stats_colsum_apply _ rfl q).trans ?_
  simp only [mulf_apply]

/-- The reset stores zeros. -/
theorem pay1_apply2 (u : Fin 1) (q : Fin 256) : at2 (k2_pay1 (F := Ideal)) u q = zero := rfl
theorem pay2_apply2 (u : Fin 1) (q : Fin 256) : at2 (k2_pay2 (F := Ideal)) u q = zero := rfl

/-! ## Region 2: the blocks a grid point reads are row blocks of the arrays -/

/-- The block indices at point t: row block t of the three node arrays and of the output, block 0 of the bias row and
    of the two accumulators. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

section Values2

variable (V : (c : Dev nD) → (b : Ref sig .tc) → Buf (Elt Ideal) ((c : Thread nD τ).loc b))

/-- The four blocks point t loads, at their literal shapes. -/
abbrev bA2 (c : Dev nD) (t : Fin cfg2.N) : Vec Ideal S2000x256 .f32 := iblk2 V c 0 t
abbrev bH2 (c : Dev nD) (t : Fin cfg2.N) : Vec Ideal S2000x256 .f32 := iblk2 V c 1 t
abbrev bD2 (c : Dev nD) (t : Fin cfg2.N) : Vec Ideal S2000x1 .f32 := iblk2 V c 2 t
abbrev bB2 (c : Dev nD) (t : Fin cfg2.N) : Vec Ideal S1x256 .f32 := iblk2 V c 3 t

theorem bA2_apply (c : Dev nD) (t : Fin cfg2.N) (r : Fin 2000) (q : Fin 256) (h : 2000 * t.val + r.val < 100000) :
    at2 (bA2 V c t) r q = at2 (V c main_v37) ⟨2000 * t.val + r.val, h⟩ q := by
  obtain ⟨e0, e1, -⟩ := idx_facts2 t
  have e : ((cfg2.win 0).blk t).view.emb (ix2 r q) = ix2 (⟨2000 * t.val + r.val, h⟩ : Fin 100000) q := by
    funext a; apply Fin.ext
    match a with
    | ⟨0, _⟩ => show win2_0.index t (0 : Fin 2) * 2000 + 1 * r.val = 2000 * t.val + r.val; omega
    | ⟨1, _⟩ => show win2_0.index t (1 : Fin 2) * 256 + 1 * q.val = q.val; omega
  show V c main_v37 (((cfg2.win 0).blk t).view.emb (ix2 r q)) = V c main_v37 (ix2 (⟨2000 * t.val + r.val, h⟩ : Fin 100000) q)
  rw [e]

theorem bH2_apply (c : Dev nD) (t : Fin cfg2.N) (r : Fin 2000) (q : Fin 256) (h : 2000 * t.val + r.val < 100000) :
    at2 (bH2 V c t) r q = at2 (V c main_v30) ⟨2000 * t.val + r.val, h⟩ q := by
  obtain ⟨-, -, e0, e1, -⟩ := idx_facts2 t
  have e : ((cfg2.win 1).blk t).view.emb (ix2 r q) = ix2 (⟨2000 * t.val + r.val, h⟩ : Fin 100000) q := by
    funext a; apply Fin.ext
    match a with
    | ⟨0, _⟩ => show win2_1.index t (0 : Fin 2) * 2000 + 1 * r.val = 2000 * t.val + r.val; omega
    | ⟨1, _⟩ => show win2_1.index t (1 : Fin 2) * 256 + 1 * q.val = q.val; omega
  show V c main_v30 (((cfg2.win 1).blk t).view.emb (ix2 r q)) = V c main_v30 (ix2 (⟨2000 * t.val + r.val, h⟩ : Fin 100000) q)
  rw [e]

theorem bD2_apply (c : Dev nD) (t : Fin cfg2.N) (r : Fin 2000) (h : 2000 * t.val + r.val < 100000) :
    at2 (bD2 V c t) r (0 : Fin 1) = at2 (V c main_v13) ⟨2000 * t.val + r.val, h⟩ (0 : Fin 1) := by
  obtain ⟨-, -, -, -, e0, e1, -⟩ := idx_facts2 t
  have e : ((cfg2.win 2).blk t).view.emb (ix2 r (0 : Fin 1)) = ix2 (⟨2000 * t.val + r.val, h⟩ : Fin 100000) (0 : Fin 1) := by
    funext a; apply Fin.ext
    match a with
    | ⟨0, _⟩ => show win2_2.index t (0 : Fin 2) * 2000 + 1 * r.val = 2000 * t.val + r.val; omega
    | ⟨1, _⟩ => show win2_2.index t (1 : Fin 2) * 1 + 1 * 0 = 0; omega
  show V c main_v13 (((cfg2.win 2).blk t).view.emb (ix2 r (0 : Fin 1))) = V c main_v13 (ix2 (⟨2000 * t.val + r.val, h⟩ : Fin 100000) (0 : Fin 1))
  rw [e]

theorem bB2_apply (c : Dev nD) (t : Fin cfg2.N) (q : Fin 256) :
    at2 (bB2 V c t) (0 : Fin 1) q = at2 (V c main_v38) (0 : Fin 1) q := by
  obtain ⟨-, -, -, -, -, -, e0, e1, -⟩ := idx_facts2 t
  have e : ((cfg2.win 3).blk t).view.emb (ix2 (0 : Fin 1) q) = ix2 (0 : Fin 1) q := by
    funext a; apply Fin.ext
    match a with
    | ⟨0, _⟩ => show win2_3.index t (0 : Fin 2) * 1 + 1 * 0 = 0; omega
    | ⟨1, _⟩ => show win2_3.index t (1 : Fin 2) * 256 + 1 * q.val = q.val; omega
  show V c main_v38 (((cfg2.win 3).blk t).view.emb (ix2 (0 : Fin 1) q)) = V c main_v38 (ix2 (0 : Fin 1) q)
  rw [e]

/-- The convolution's value at node p, column q, from the arrays as the region finds them. -/
abbrev rowv2 (c : Dev nD) (p : Fin 100000) (q : Fin 256) : EReal :=
  (at2 (V c main_v37) p q + at2 (V c main_v30) p q * at2 (V c main_v13) p (0 : Fin 1)) + at2 (V c main_v38) (0 : Fin 1) q

/-- Row r of what point t writes back is the convolution's value at node 2000 t + r. -/
theorem blk_row2 (c : Dev nD) (t : Fin cfg2.N) (r : Fin 2000) (q : Fin 256) (h : 2000 * t.val + r.val < 100000) :
    at2 (k2_pay3 (bA2 V c t) (bH2 V c t) (bD2 V c t) (bB2 V c t)) r q = rowv2 V c ⟨2000 * t.val + r.val, h⟩ q := by
  refine (pay3_apply2 (bA2 V c t) (bH2 V c t) (bD2 V c t) (bB2 V c t) r q).trans ?_
  rw [bA2_apply V c t r q h, bH2_apply V c t r q h, bD2_apply V c t r h, bB2_apply V c t q]

/-! ## Region 2: what the three output blocks hold after each point -/

theorem outs4_2 (c : Dev nD) (t : Fin cfg2.N) :
    (outsAt2 V c t.val t.isLt).1 = k2_pay3 (bA2 V c t) (bH2 V c t) (bD2 V c t) (bB2 V c t) := by
  by_cases h0 : t.val % 50 = 0
  · rw [outsAt2_A V c t h0]; dsimp only
    exact pieceA4_2 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t)
  · rw [outsAt2_B V c t h0]; dsimp only
    exact pieceB4_2 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2

theorem outs5A_2 (c : Dev nD) (t : Fin cfg2.N) (h0 : t.val % 50 = 0) :
    (outsAt2 V c t.val t.isLt).2.1 = k2_pay4 (bA2 V c t) (bH2 V c t) (bD2 V c t) (bB2 V c t) (k2_pay1 (F := Ideal)) := by
  rw [outsAt2_A V c t h0]; dsimp only
  exact pieceA5_2 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t)

theorem outs6A_2 (c : Dev nD) (t : Fin cfg2.N) (h0 : t.val % 50 = 0) :
    (outsAt2 V c t.val t.isLt).2.2 = k2_pay5 (bA2 V c t) (bH2 V c t) (bD2 V c t) (bB2 V c t) (k2_pay2 (F := Ideal)) := by
  rw [outsAt2_A V c t h0]; dsimp only
  exact pieceA6_2 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t)

theorem outs5B_2 (c : Dev nD) (t : Fin cfg2.N) (h0 : ¬t.val % 50 = 0) :
    (outsAt2 V c t.val t.isLt).2.1 = k2_pay4 (bA2 V c t) (bH2 V c t) (bD2 V c t) (bB2 V c t) (outsAt2 V c (t.val - 1) (Nat.lt_of_le_of_lt (Nat.sub_le _ _) t.isLt)).2.1 := by
  rw [outsAt2_B V c t h0]; dsimp only
  exact pieceB5_2 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2

theorem outs6B_2 (c : Dev nD) (t : Fin cfg2.N) (h0 : ¬t.val % 50 = 0) :
    (outsAt2 V c t.val t.isLt).2.2 = k2_pay5 (bA2 V c t) (bH2 V c t) (bD2 V c t) (bB2 V c t) (outsAt2 V c (t.val - 1) (Nat.lt_of_le_of_lt (Nat.sub_le _ _) t.isLt)).2.2 := by
  rw [outsAt2_B V c t h0]; dsimp only
  exact pieceB6_2 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2

/-- After point n the two accumulators hold, in every column, zero plus the sum over the rows below 2000 (n + 1) of the
    convolution's value, and of its square: the reset and the first block at point 0, one more block at each later point. -/
theorem acc_inv2 (c : Dev nD) (u : Fin 1) (q : Fin 256) : ∀ (n : ℕ) (hn : n < cfg2.N),
    at2 (outsAt2 V c n hn).2.1 u q = zero + ∑ p ∈ Finset.range (2000 * (n + 1)), statsExt0 (fun p => rowv2 V c p q) p
    ∧ at2 (outsAt2 V c n hn).2.2 u q
        = zero + ∑ p ∈ Finset.range (2000 * (n + 1)), statsExt0 (fun p => rowv2 V c p q * rowv2 V c p q) p
  | 0, hn => by
    constructor
    · rw [outs5A_2 V c ⟨0, hn⟩ (Nat.zero_mod _)]
      refine (pay4_apply2 (bA2 V c ⟨0, hn⟩) (bH2 V c ⟨0, hn⟩) (bD2 V c ⟨0, hn⟩) (bB2 V c ⟨0, hn⟩) (k2_pay1 (F := Ideal)) u q).trans ?_
      rw [pay1_apply2 u q]
      exact stats_base_sum (fun p => rowv2 V c p q) zero (fun k => at2 (k2_pay3 (bA2 V c ⟨0, hn⟩) (bH2 V c ⟨0, hn⟩) (bD2 V c ⟨0, hn⟩) (bB2 V c ⟨0, hn⟩)) k q)
        (fun k h => blk_row2 V c ⟨0, hn⟩ k q h)
    · rw [outs6A_2 V c ⟨0, hn⟩ (Nat.zero_mod _)]
      refine (pay5_apply2 (bA2 V c ⟨0, hn⟩) (bH2 V c ⟨0, hn⟩) (bD2 V c ⟨0, hn⟩) (bB2 V c ⟨0, hn⟩) (k2_pay2 (F := Ideal)) u q).trans ?_
      rw [pay2_apply2 u q]
      exact stats_base_sum (fun p => rowv2 V c p q * rowv2 V c p q) zero
        (fun k => at2 (k2_pay3 (bA2 V c ⟨0, hn⟩) (bH2 V c ⟨0, hn⟩) (bD2 V c ⟨0, hn⟩) (bB2 V c ⟨0, hn⟩)) k q * at2 (k2_pay3 (bA2 V c ⟨0, hn⟩) (bH2 V c ⟨0, hn⟩) (bD2 V c ⟨0, hn⟩) (bB2 V c ⟨0, hn⟩)) k q)
        (fun k h => by show at2 _ k q * at2 _ k q = _; rw [blk_row2 V c ⟨0, hn⟩ k q h])
  | n + 1, hn => by
    have hN : cfg2.N = 50 := N_2
    have hB : ¬(⟨n + 1, hn⟩ : Fin cfg2.N).val % 50 = 0 := by dsimp only; omega
    obtain ⟨ih1, ih2⟩ := acc_inv2 c u q n (Nat.lt_of_succ_lt hn)
    constructor
    · rw [outs5B_2 V c ⟨n + 1, hn⟩ hB]
      refine (pay4_apply2 (bA2 V c ⟨n + 1, hn⟩) (bH2 V c ⟨n + 1, hn⟩) (bD2 V c ⟨n + 1, hn⟩) (bB2 V c ⟨n + 1, hn⟩) _ u q).trans ?_
      show at2 (outsAt2 V c n _).2.1 u q + _ = _
      rw [ih1]
      exact stats_step_sum (fun p => rowv2 V c p q) (n + 1) (by omega) zero (fun k => at2 (k2_pay3 (bA2 V c ⟨n + 1, hn⟩) (bH2 V c ⟨n + 1, hn⟩) (bD2 V c ⟨n + 1, hn⟩) (bB2 V c ⟨n + 1, hn⟩)) k q)
        (fun k h => blk_row2 V c ⟨n + 1, hn⟩ k q h)
    · rw [outs6B_2 V c ⟨n + 1, hn⟩ hB]
      refine (pay5_apply2 (bA2 V c ⟨n + 1, hn⟩) (bH2 V c ⟨n + 1, hn⟩) (bD2 V c ⟨n + 1, hn⟩) (bB2 V c ⟨n + 1, hn⟩) _ u q).trans ?_
      show at2 (outsAt2 V c n _).2.2 u q + _ = _
      rw [ih2]
      exact stats_step_sum (fun p => rowv2 V c p q * rowv2 V c p q) (n + 1) (by omega) zero
        (fun k => at2 (k2_pay3 (bA2 V c ⟨n + 1, hn⟩) (bH2 V c ⟨n + 1, hn⟩) (bD2 V c ⟨n + 1, hn⟩) (bB2 V c ⟨n + 1, hn⟩)) k q * at2 (k2_pay3 (bA2 V c ⟨n + 1, hn⟩) (bH2 V c ⟨n + 1, hn⟩) (bD2 V c ⟨n + 1, hn⟩) (bB2 V c ⟨n + 1, hn⟩)) k q)
        (fun k h => by show at2 _ k q * at2 _ k q = _; rw [blk_row2 V c ⟨n + 1, hn⟩ k q h])

end Values2

/-! ## Region 2: from the blocks written back to the three result arrays -/

section Arrays2

variable (V : (c : Dev nD) → (b : Ref sig .tc) → Buf (Elt Ideal) ((c : Thread nD τ).loc b))

/-- The three result arrays: the convolution's value at every node; every column's sum; every column's sum of squares. -/
abbrev G4_2 (c : Dev nD) : S100000x256.Idx → EReal := fun i => rowv2 V c (i 0) (i 1)
abbrev G5_2 (c : Dev nD) : S1x256.Idx → EReal := fun i => zero + ∑ p : Fin 100000, rowv2 V c p (i 1)
abbrev G6_2 (c : Dev nD) : S1x256.Idx → EReal := fun i => zero + ∑ p : Fin 100000, (rowv2 V c p (i 1) * rowv2 V c p (i 1))

theorem flush4_at2 (c : Dev nD) (t : Fin cfg2.N) (j : S2000x256.Idx) :
    k2_pay3 (bA2 V c t) (bH2 V c t) (bD2 V c t) (bB2 V c t) j = G4_2 V c (((cfg2.win 4).blk t).view.emb j) := by
  obtain ⟨r, q, rfl⟩ : ∃ (r : Fin 2000) (q : Fin 256), j = ix2 r q := ⟨j 0, j 1, eq_ix2 j⟩
  have hN : t.val < 50 := lt_of_lt_of_eq t.isLt (show cfg2.N = 50 from N_2)
  have h : 2000 * t.val + r.val < 100000 := by have := r.isLt; omega
  obtain ⟨-, -, -, -, -, -, -, -, e0, e1, -⟩ := idx_facts2 t
  have e : ((cfg2.win 4).blk t).view.emb (ix2 r q) = ix2 (⟨2000 * t.val + r.val, h⟩ : Fin 100000) q := by
    funext a; apply Fin.ext
    match a with
    | ⟨0, _⟩ => show win2_4.index t (0 : Fin 2) * 2000 + 1 * r.val = 2000 * t.val + r.val; omega
    | ⟨1, _⟩ => show win2_4.index t (1 : Fin 2) * 256 + 1 * q.val = q.val; omega
  rw [e]
  exact blk_row2 V c t r q h

/-- What point t writes back of output 4 is row block t of the convolution's value. -/
theorem flushed4_2 (c : Dev nD) (t : Fin cfg2.N) :
    (dat2 V c).flushed 4 t = ((cfg2.win 4).blk t).view.read (Elt Ideal) (G4_2 V c) := by
  show (cfg2.win 4).cut (grid2.coords t) ((dat2 V c).after 4 t) = _
  rw [after2_4, outs4_2 V c t]
  funext j
  exact flush4_at2 V c t j

theorem mem_blk4_2 (t : Fin cfg2.N) (i : S100000x256.Idx) :
    i ∈ ((cfg2.win 4).blk t).view.set ↔ ∀ a : Fin 2, win2_4.index t a * S2000x256.size a ≤ (i a).val ∧ (i a).val < win2_4.index t a * S2000x256.size a + S2000x256.size a := by
  show i ∈ ((View.whole main_v39_0).slice (win2_4.rect t)).set ↔ _
  rw [View.set_slice_whole, Rect.mem_set_unit]
  exact Iff.rfl

/-- Row p lies in the block of point p / 2000. -/
theorem cover4_2 (i : S100000x256.Idx) : ∃ t : Fin cfg2.N, (cfg2.win 4).flush t = true ∧ i ∈ ((cfg2.win 4).blk t).view.set := by
  have hi0 : (i 0).val < 100000 := (i 0).isLt
  have hi1 : (i 1).val < 256 := (i 1).isLt
  have hN : cfg2.N = 50 := N_2
  have ht : (i 0).val / 2000 < cfg2.N := by omega
  refine ⟨⟨(i 0).val / 2000, ht⟩, flush2_4 _, ?_⟩
  rw [mem_blk4_2]
  obtain ⟨-, -, -, -, -, -, -, -, e0, e1, -⟩ := idx_facts2 ⟨(i 0).val / 2000, ht⟩
  have e0' : win2_4.index ⟨(i 0).val / 2000, ht⟩ (0 : Fin 2) = (i 0).val / 2000 := e0
  intro a
  match a with
  | ⟨0, _⟩ =>
    show win2_4.index ⟨(i 0).val / 2000, ht⟩ (0 : Fin 2) * 2000 ≤ (i 0).val ∧ (i 0).val < win2_4.index ⟨(i 0).val / 2000, ht⟩ (0 : Fin 2) * 2000 + 2000
    omega
  | ⟨1, _⟩ =>
    show win2_4.index ⟨(i 0).val / 2000, ht⟩ (1 : Fin 2) * 256 ≤ (i 1).val ∧ (i 1).val < win2_4.index ⟨(i 0).val / 2000, ht⟩ (1 : Fin 2) * 256 + 256
    omega

theorem final4_2 (c : Dev nD) : (dat2 V c).arrAt 4 cfg2.N = G4_2 V c :=
  (dat2 V c).arrAt_eq_of_cover 4 (G4_2 V c) (fun t _ => flushed4_2 V c t) (cover4_2)

theorem flush5_at2 (c : Dev nD) (t : Fin cfg2.N) (h49 : t.val = 49) (j : S1x256.Idx) :
    (outsAt2 V c t.val t.isLt).2.1 j = G5_2 V c (((cfg2.win 5).blk t).view.emb j) := by
  obtain ⟨u, q, rfl⟩ : ∃ (u : Fin 1) (q : Fin 256), j = ix2 u q := ⟨j 0, j 1, eq_ix2 j⟩
  obtain ⟨-, -, -, -, -, -, -, -, -, -, e0, e1, -⟩ := idx_facts2 t
  have hu : u.val = 0 := by omega
  have e : ((cfg2.win 5).blk t).view.emb (ix2 u q) = ix2 u q := by
    funext a; apply Fin.ext
    match a with
    | ⟨0, _⟩ => show win2_5.index t (0 : Fin 2) * 1 + 1 * u.val = u.val; omega
    | ⟨1, _⟩ => show win2_5.index t (1 : Fin 2) * 256 + 1 * q.val = q.val; omega
  rw [e]
  refine ((acc_inv2 V c u q t.val t.isLt).1).trans ?_
  rw [h49]
  exact congrArg (fun s => zero + s) (stats_sum_all (fun p => rowv2 V c p q))

theorem flush6_at2 (c : Dev nD) (t : Fin cfg2.N) (h49 : t.val = 49) (j : S1x256.Idx) :
    (outsAt2 V c t.val t.isLt).2.2 j = G6_2 V c (((cfg2.win 6).blk t).view.emb j) := by
  obtain ⟨u, q, rfl⟩ : ∃ (u : Fin 1) (q : Fin 256), j = ix2 u q := ⟨j 0, j 1, eq_ix2 j⟩
  obtain ⟨-, -, -, -, -, -, -, -, -, -, -, -, e0, e1⟩ := idx_facts2 t
  have hu : u.val = 0 := by omega
  have e : ((cfg2.win 6).blk t).view.emb (ix2 u q) = ix2 u q := by
    funext a; apply Fin.ext
    match a with
    | ⟨0, _⟩ => show win2_6.index t (0 : Fin 2) * 1 + 1 * u.val = u.val; omega
    | ⟨1, _⟩ => show win2_6.index t (1 : Fin 2) * 256 + 1 * q.val = q.val; omega
  rw [e]
  refine ((acc_inv2 V c u q t.val t.isLt).2).trans ?_
  rw [h49]
  exact congrArg (fun s => zero + s) (stats_sum_all (fun p => rowv2 V c p q * rowv2 V c p q))

/-- The one write-back of each accumulator, after the last point, writes the whole [1 × 256] array. -/
theorem flushed5_2 (c : Dev nD) (t : Fin cfg2.N) (hf : (cfg2.win 5).flush t = true) :
    (dat2 V c).flushed 5 t = ((cfg2.win 5).blk t).view.read (Elt Ideal) (G5_2 V c) := by
  have hN : cfg2.N = 50 := N_2
  have h49 : t.val = 49 := by have := (flush2_5 t).mp hf; have := t.isLt; omega
  show (cfg2.win 5).cut (grid2.coords t) ((dat2 V c).after 5 t) = _
  rw [after2_5]
  funext j
  exact flush5_at2 V c t h49 j

theorem flushed6_2 (c : Dev nD) (t : Fin cfg2.N) (hf : (cfg2.win 6).flush t = true) :
    (dat2 V c).flushed 6 t = ((cfg2.win 6).blk t).view.read (Elt Ideal) (G6_2 V c) := by
  have hN : cfg2.N = 50 := N_2
  have h49 : t.val = 49 := by have := (flush2_6 t).mp hf; have := t.isLt; omega
  show (cfg2.win 6).cut (grid2.coords t) ((dat2 V c).after 6 t) = _
  rw [after2_6]
  funext j
  exact flush6_at2 V c t h49 j

theorem mem_blk5_2 (t : Fin cfg2.N) (i : S1x256.Idx) :
    i ∈ ((cfg2.win 5).blk t).view.set ↔ ∀ a : Fin 2, win2_5.index t a * S1x256.size a ≤ (i a).val ∧ (i a).val < win2_5.index t a * S1x256.size a + S1x256.size a := by
  show i ∈ ((View.whole main_v39_1).slice (win2_5.rect t)).set ↔ _
  rw [View.set_slice_whole, Rect.mem_set_unit]
  exact Iff.rfl

theorem mem_blk6_2 (t : Fin cfg2.N) (i : S1x256.Idx) :
    i ∈ ((cfg2.win 6).blk t).view.set ↔ ∀ a : Fin 2, win2_6.index t a * S1x256.size a ≤ (i a).val ∧ (i a).val < win2_6.index t a * S1x256.size a + S1x256.size a := by
  show i ∈ ((View.whole main_v39_2).slice (win2_6.rect t)).set ↔ _
  rw [View.set_slice_whole, Rect.mem_set_unit]
  exact Iff.rfl

theorem cover5_2 (i : S1x256.Idx) : ∃ t : Fin cfg2.N, (cfg2.win 5).flush t = true ∧ i ∈ ((cfg2.win 5).blk t).view.set := by
  have hi0 : (i 0).val < 1 := (i 0).isLt
  have hi1 : (i 1).val < 256 := (i 1).isLt
  have hN : cfg2.N = 50 := N_2
  have ht : 49 < cfg2.N := by omega
  refine ⟨⟨49, ht⟩, (flush2_5 _).mpr rfl, ?_⟩
  rw [mem_blk5_2]
  obtain ⟨-, -, -, -, -, -, -, -, -, -, e0, e1, -⟩ := idx_facts2 ⟨49, ht⟩
  intro a
  match a with
  | ⟨0, _⟩ =>
    show win2_5.index ⟨49, ht⟩ (0 : Fin 2) * 1 ≤ (i 0).val ∧ (i 0).val < win2_5.index ⟨49, ht⟩ (0 : Fin 2) * 1 + 1
    omega
  | ⟨1, _⟩ =>
    show win2_5.index ⟨49, ht⟩ (1 : Fin 2) * 256 ≤ (i 1).val ∧ (i 1).val < win2_5.index ⟨49, ht⟩ (1 : Fin 2) * 256 + 256
    omega

theorem cover6_2 (i : S1x256.Idx) : ∃ t : Fin cfg2.N, (cfg2.win 6).flush t = true ∧ i ∈ ((cfg2.win 6).blk t).view.set := by
  have hi0 : (i 0).val < 1 := (i 0).isLt
  have hi1 : (i 1).val < 256 := (i 1).isLt
  have hN : cfg2.N = 50 := N_2
  have ht : 49 < cfg2.N := by omega
  refine ⟨⟨49, ht⟩, (flush2_6 _).mpr rfl, ?_⟩
  rw [mem_blk6_2]
  obtain ⟨-, -, -, -, -, -, -, -, -, -, -, -, e0, e1⟩ := idx_facts2 ⟨49, ht⟩
  intro a
  match a with
  | ⟨0, _⟩ =>
    show win2_6.index ⟨49, ht⟩ (0 : Fin 2) * 1 ≤ (i 0).val ∧ (i 0).val < win2_6.index ⟨49, ht⟩ (0 : Fin 2) * 1 + 1
    omega
  | ⟨1, _⟩ =>
    show win2_6.index ⟨49, ht⟩ (1 : Fin 2) * 256 ≤ (i 1).val ∧ (i 1).val < win2_6.index ⟨49, ht⟩ (1 : Fin 2) * 256 + 256
    omega

theorem final5_2 (c : Dev nD) : (dat2 V c).arrAt 5 cfg2.N = G5_2 V c :=
  (dat2 V c).arrAt_eq_of_cover 5 (G5_2 V c) (flushed5_2 V c) (cover5_2)

theorem final6_2 (c : Dev nD) : (dat2 V c).arrAt 6 cfg2.N = G6_2 V c :=
  (dat2 V c).arrAt_eq_of_cover 6 (G6_2 V c) (flushed6_2 V c) (cover6_2)

end Arrays2

/-! ## Region 2: the three results -/

variable (V : (c : Dev nD) → (b : Ref sig .tc) → Buf (Elt Ideal) ((c : Thread nD τ).loc b))

/-- Region 2, output 4: the convolution's value, row block by row block. -/
theorem stats2_hf (c : Dev nD) (p : Fin 100000) (q : Fin 256) :
    at2 ((dat2 (F := Ideal) V c).arrAt 4 cfg2.N) p q
      = (at2 (V c main_v37) p q + at2 (V c main_v30) p q * at2 (V c main_v13) p (0 : Fin 1)) + at2 (V c main_v38) (0 : Fin 1) q := by
  rw [final4_2 V c]

/-- Region 2, output 5: every column's sum over all the nodes, accumulated block by block from zero. -/
theorem stats2_sum (c : Dev nD) (q : Fin 256) :
    at2 ((dat2 (F := Ideal) V c).arrAt 5 cfg2.N) (0 : Fin 1) q
      = zero + ∑ p : Fin 100000, ((at2 (V c main_v37) p q + at2 (V c main_v30) p q * at2 (V c main_v13) p (0 : Fin 1)) + at2 (V c main_v38) (0 : Fin 1) q) := by
  rw [final5_2 V c]

/-- Region 2, output 6: every column's sum of squares over all the nodes. -/
theorem stats2_sq (c : Dev nD) (q : Fin 256) :
    at2 ((dat2 (F := Ideal) V c).arrAt 6 cfg2.N) (0 : Fin 1) q
      = zero + ∑ p : Fin 100000, (((at2 (V c main_v37) p q + at2 (V c main_v30) p q * at2 (V c main_v13) p (0 : Fin 1)) + at2 (V c main_v38) (0 : Fin 1) q)
          * ((at2 (V c main_v37) p q + at2 (V c main_v30) p q * at2 (V c main_v13) p (0 : Fin 1)) + at2 (V c main_v38) (0 : Fin 1) q)) := by
  rw [final6_2 V c]

end Cert.KernelIdeal.RegVal

end
-- ==== Proof.RegNormBase.lean ====
/-
  The normalisation epilogue. Grid point t takes row block t of the convolution's value and of the carried features, and
  the four [1 × 256] rows mean, variance, scale and shift; it writes pre + max(((v − mean) * rsqrt(var + eps)) * g + be, 0)
  for its rows; the fifty blocks tile the result. Here: one element of the epilogue, the result array as one function of
  the six arrays read, and region 3 (the first layer's epilogue).
-/
import proofs.«428588_j4063039062434_1_alg».proof.Proof.Gen.KernelIdeal.Frame
import proofs.«428588_j4063039062434_1_alg».proof.Proof.Spec
import Idealize.ShloMosaic.Lib.Pipeline.Value
import Idealize.ShloMosaic.Lib.ValueLayout
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.RegVal

open Cert.KernelIdeal Cert.KernelIdeal.Gen Cert.Spec

/-- The zero offsets of a whole-block access, however spelt. -/
theorem hz : (![0, 0] : Fin 2 → Nat) = fun _ => 0 := funext fun a => by
  match a with
  | ⟨0, _⟩ => rfl
  | ⟨1, _⟩ => rfl

/-- One element of the epilogue: the carried feature plus the normalised, scaled, shifted value clipped at zero. -/
def bn (pre f mu var g be : EReal) : EReal :=
  pre + max (((f - mu) * Ideal.rsqrt (var + eps)) * g + be) zero

/-- A reciprocal square root of a vector, read at an index. -/
theorem rsqrt_apply {s : Shape} {φ : FTy} (a : FVec Ideal s φ) (i : s.Idx) : rsqrt a i = Ideal.rsqrt (a i) := rfl

variable (V : (c : Dev nD) → (b : Ref sig .tc) → Buf (Elt Ideal) ((c : Thread nD τ).loc b))

/-- The epilogue's array from the six arrays it reads: at row r, column s the element of the carried features, of
    the convolution's value, and of the four rows at column s. -/
abbrev normArr (pre f : S100000x256.Idx → EReal) (mu var g be : S1x256.Idx → EReal) : S100000x256.Idx → EReal :=
  fun i => bn (pre i) (f i) (mu (ix2 (0 : Fin 1) (i 1))) (var (ix2 (0 : Fin 1) (i 1))) (g (ix2 (0 : Fin 1) (i 1))) (be (ix2 (0 : Fin 1) (i 1)))

/-! ## Region 3 -/

/-- The body's arithmetic of region 3 at row p, column q of its block: the rows of mean, variance, scale and shift are
    read at column q whatever the row. -/
theorem pay3_at (x0 : Vec Ideal S2000x256 .f32) (x1 x2 x3 x4 : Vec Ideal S1x256 .f32) (x5 : Vec Ideal S2000x256 .f32)
    (p : Fin 2000) (q : Fin 256) :
    k3_pay1 (F := Ideal) x0 x1 x2 x3 x4 x5 (ix2 p q)
      = bn (at2 x5 p q) (at2 x0 p q) (at2 x1 (0 : Fin 1) q) (at2 x2 (0 : Fin 1) q) (at2 x3 (0 : Fin 1) q) (at2 x4 (0 : Fin 1) q) := by
  unfold k3_pay1
  simp only [shapeCast_self, addf_apply, maximumf_apply, mulf_apply, subf_apply, broadcast_apply, rsqrt_apply,
    broadcastTo_1b_ab_apply]
  rfl

/-- The body's arithmetic at any index of its block. -/
theorem pay3_idx (x0 : Vec Ideal S2000x256 .f32) (x1 x2 x3 x4 : Vec Ideal S1x256 .f32) (x5 : Vec Ideal S2000x256 .f32)
    (j : S2000x256.Idx) :
    k3_pay1 (F := Ideal) x0 x1 x2 x3 x4 x5 j
      = bn (x5 j) (x0 j) (x1 (ix2 (0 : Fin 1) (j 1))) (x2 (ix2 (0 : Fin 1) (j 1))) (x3 (ix2 (0 : Fin 1) (j 1))) (x4 (ix2 (0 : Fin 1) (j 1))) := by
  obtain ⟨p, q, rfl⟩ : ∃ (p : Fin 2000) (q : Fin 256), j = ix2 p q := ⟨j 0, j 1, eq_ix2 j⟩
  exact pay3_at x0 x1 x2 x3 x4 x5 p q

/-- The printed index maps, decided over the grid: the two row-block windows and the output take block t on the
    rows and block 0 on the columns; the four row windows take block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- An element of window 0's block at point t sits in its array where the same element of the output's block sits in the result. -/
theorem emb3_0 (t : Fin cfg3.N) (j : S2000x256.Idx) :
    ((cfg3.win 0).blk t).view.emb j = ((cfg3.win 6).blk t).view.emb j := by
  obtain ⟨e00, e01, e10, e11, e20, e21, e30, e31, e40, e41, e50, e51, e60, e61⟩ := idx_facts3 t
  funext a; apply Fin.ext
  match a with
  | ⟨0, _⟩ => show win3_0.index t (0 : Fin 2) * 2000 + 1 * (j 0).val = win3_6.index t (0 : Fin 2) * 2000 + 1 * (j 0).val; omega
  | ⟨1, _⟩ => show win3_0.index t (1 : Fin 2) * 256 + 1 * (j 1).val = win3_6.index t (1 : Fin 2) * 256 + 1 * (j 1).val; omega

/-- An element of window 5's block at point t sits in its array where the same element of the output's block sits in the result. -/
theorem emb3_5 (t : Fin cfg3.N) (j : S2000x256.Idx) :
    ((cfg3.win 5).blk t).view.emb j = ((cfg3.win 6).blk t).view.emb j := by
  obtain ⟨e00, e01, e10, e11, e20, e21, e30, e31, e40, e41, e50, e51, e60, e61⟩ := idx_facts3 t
  funext a; apply Fin.ext
  match a with
  | ⟨0, _⟩ => show win3_5.index t (0 : Fin 2) * 2000 + 1 * (j 0).val = win3_6.index t (0 : Fin 2) * 2000 + 1 * (j 0).val; omega
  | ⟨1, _⟩ => show win3_5.index t (1 : Fin 2) * 256 + 1 * (j 1).val = win3_6.index t (1 : Fin 2) * 256 + 1 * (j 1).val; omega

/-- Window 1's block is its whole one-row array: column s of the block is column s of the array, which is the column of the
    output's element in the result. -/
theorem emb3_1 (t : Fin cfg3.N) (j : S2000x256.Idx) :
    ((cfg3.win 1).blk t).view.emb (ix2 (0 : Fin 1) (j 1)) = ix2 (0 : Fin 1) ((((cfg3.win 6).blk t).view.emb j) 1) := by
  obtain ⟨e00, e01, e10, e11, e20, e21, e30, e31, e40, e41, e50, e51, e60, e61⟩ := idx_facts3 t
  have hj1 : (j 1).val < 256 := (j 1).isLt
  funext a; apply Fin.ext
  match a with
  | ⟨0, _⟩ => show win3_1.index t (0 : Fin 2) * 1 + 1 * 0 = 0; omega
  | ⟨1, _⟩ => show win3_1.index t (1 : Fin 2) * 256 + 1 * (j 1).val = win3_6.index t (1 : Fin 2) * 256 + 1 * (j 1).val; omega

/-- Window 2's block is its whole one-row array: column s of the block is column s of the array, which is the column of the
    output's element in the result. -/
theorem emb3_2 (t : Fin cfg3.N) (j : S2000x256.Idx) :
    ((cfg3.win 2).blk t).view.emb (ix2 (0 : Fin 1) (j 1)) = ix2 (0 : Fin 1) ((((cfg3.win 6).blk t).view.emb j) 1) := by
  obtain ⟨e00, e01, e10, e11, e20, e21, e30, e31, e40, e41, e50, e51, e60, e61⟩ := idx_facts3 t
  have hj1 : (j 1).val < 256 := (j 1).isLt
  funext a; apply Fin.ext
  match a with
  | ⟨0, _⟩ => show win3_2.index t (0 : Fin 2) * 1 + 1 * 0 = 0; omega
  | ⟨1, _⟩ => show win3_2.index t (1 : Fin 2) * 256 + 1 * (j 1).val = win3_6.index t (1 : Fin 2) * 256 + 1 * (j 1).val; omega

/-- Window 3's block is its whole one-row array: column s of the block is column s of the array, which is the column of the
    output's element in the result. -/
theorem emb3_3 (t : Fin cfg3.N) (j : S2000x256.Idx) :
    ((cfg3.win 3).blk t).view.emb (ix2 (0 : Fin 1) (j 1)) = ix2 (0 : Fin 1) ((((cfg3.win 6).blk t).view.emb j) 1) := by
  obtain ⟨e00, e01, e10, e11, e20, e21, e30, e31, e40, e41, e50, e51, e60, e61⟩ := idx_facts3 t
  have hj1 : (j 1).val < 256 := (j 1).isLt
  funext a; apply Fin.ext
  match a with
  | ⟨0, _⟩ => show win3_3.index t (0 : Fin 2) * 1 + 1 * 0 = 0; omega
  | ⟨1, _⟩ => show win3_3.index t (1 : Fin 2) * 256 + 1 * (j 1).val = win3_6.index t (1 : Fin 2) * 256 + 1 * (j 1).val; omega

/-- Window 4's block is its whole one-row array: column s of the block is column s of the array, which is the column of the
    output's element in the result. -/
theorem emb3_4 (t : Fin cfg3.N) (j : S2000x256.Idx) :
    ((cfg3.win 4).blk t).view.emb (ix2 (0 : Fin 1) (j 1)) = ix2 (0 : Fin 1) ((((cfg3.win 6).blk t).view.emb j) 1) := by
  obtain ⟨e00, e01, e10, e11, e20, e21, e30, e31, e40, e41, e50, e51, e60, e61⟩ := idx_facts3 t
  have hj1 : (j 1).val < 256 := (j 1).isLt
  funext a; apply Fin.ext
  match a with
  | ⟨0, _⟩ => show win3_4.index t (0 : Fin 2) * 1 + 1 * 0 = 0; omega
  | ⟨1, _⟩ => show win3_4.index t (1 : Fin 2) * 256 + 1 * (j 1).val = win3_6.index t (1 : Fin 2) * 256 + 1 * (j 1).val; omega

set_option maxHeartbeats 400000 in
/-- What point t writes back is block t of the epilogue's array. -/
theorem flushed3_eq (c : Dev nD) (t : Fin cfg3.N) :
    (dat3 (F := Ideal) V c).flushed 6 t
      = ((cfg3.win 6).blk t).view.read (Elt Ideal)
          (normArr (V c main_v29) (V c main_v39_0) (V c main_v41) (V c main_v45) (V c main_v46) (V c main_v47)) := by
  show (cfg3.win 6).cut (grid3.coords t) ((dat3 (F := Ideal) V c).after 6 t) = _
  rw [after3_6]
  unfold out3_6
  rw [View.canon_unit_zero hz]
  simp only [View.ld_unit_zero (S := S2000x256) hz, View.ld_unit_zero (S := S1x256) hz]
  funext j
  refine (pay3_idx _ _ _ _ _ _ j).trans ?_
  show bn (V c main_v29 (((cfg3.win 5).blk t).view.emb j)) (V c main_v39_0 (((cfg3.win 0).blk t).view.emb j))
        (V c main_v41 (((cfg3.win 1).blk t).view.emb (ix2 (0 : Fin 1) (j 1))))
        (V c main_v45 (((cfg3.win 2).blk t).view.emb (ix2 (0 : Fin 1) (j 1))))
        (V c main_v46 (((cfg3.win 3).blk t).view.emb (ix2 (0 : Fin 1) (j 1))))
        (V c main_v47 (((cfg3.win 4).blk t).view.emb (ix2 (0 : Fin 1) (j 1))))
      = bn (V c main_v29 (((cfg3.win 6).blk t).view.emb j)) (V c main_v39_0 (((cfg3.win 6).blk t).view.emb j))
        (V c main_v41 (ix2 (0 : Fin 1) ((((cfg3.win 6).blk t).view.emb j) 1)))
        (V c main_v45 (ix2 (0 : Fin 1) ((((cfg3.win 6).blk t).view.emb j) 1)))
        (V c main_v46 (ix2 (0 : Fin 1) ((((cfg3.win 6).blk t).view.emb j) 1)))
        (V c main_v47 (ix2 (0 : Fin 1) ((((cfg3.win 6).blk t).view.emb j) 1)))
  rw [emb3_0 t j, emb3_5 t j, emb3_1 t j, emb3_2 t j, emb3_3 t j, emb3_4 t j]
  rfl
/-- An index of the result array is in point t's block iff each coordinate is in the block's range on its axis. -/
theorem mem_blk3 (t : Fin cfg3.N) (i : S100000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v48).slice (win3_6.rect t)).set ↔ _
  rw [View.set_slice_whole, Rect.mem_set_unit]
  exact Iff.rfl

/-- The fifty row blocks tile the result: row r is in block r / 2000. -/
theorem cover3 (i : S100000x256.Idx) :
    ∃ t : Fin cfg3.N, (cfg3.win 6).flush t = true ∧ i ∈ ((cfg3.win 6).blk t).view.set := by
  have hi0 : (i 0).val < 100000 := (i 0).isLt
  have hi1 : (i 1).val < 256 := (i 1).isLt
  have hN : grid3.N = 50 := N_3
  have ht : (i 0).val / 2000 < cfg3.N := by show (i 0).val / 2000 < grid3.N; rw [hN]; omega
  obtain ⟨-, -, -, -, -, -, -, -, -, -, -, -, e60, e61⟩ := idx_facts3 ⟨(i 0).val / 2000, ht⟩
  refine ⟨⟨(i 0).val / 2000, ht⟩, flush3_6 _, ?_⟩
  rw [mem_blk3]
  intro a
  match a with
  | ⟨0, _⟩ =>
    show win3_6.index ⟨(i 0).val / 2000, ht⟩ (0 : Fin 2) * 2000 ≤ (i 0).val ∧ (i 0).val < win3_6.index ⟨(i 0).val / 2000, ht⟩ (0 : Fin 2) * 2000 + 2000
    rw [e60]; show (i 0).val / 2000 * 2000 ≤ (i 0).val ∧ (i 0).val < (i 0).val / 2000 * 2000 + 2000; omega
  | ⟨1, _⟩ =>
    show win3_6.index ⟨(i 0).val / 2000, ht⟩ (1 : Fin 2) * 256 ≤ (i 1).val ∧ (i 1).val < win3_6.index ⟨(i 0).val / 2000, ht⟩ (1 : Fin 2) * 256 + 256
    rw [e61]; omega

/-- The result array after the region: the epilogue's array. -/
theorem final3 (c : Dev nD) :
    (dat3 (F := Ideal) V c).arrAt 6 cfg3.N
      = normArr (V c main_v29) (V c main_v39_0) (V c main_v41) (V c main_v45) (V c main_v46) (V c main_v47) :=
  (dat3 (F := Ideal) V c).arrAt_eq_of_cover 6 _ (fun t _ => flushed3_eq V c t) cover3

/-- Region 3: normalise, scale, shift, clip at zero, add the carried features. -/
theorem norm3 (c : Dev nD) (p : Fin 100000) (q : Fin 256) :
    at2 ((dat3 (F := Ideal) V c).arrAt 6 cfg3.N) p q
      = at2 (V c main_v29) p q + max (((at2 (V c main_v39_0) p q - at2 (V c main_v41) (0 : Fin 1) q) * Ideal.rsqrt (at2 (V c main_v45) (0 : Fin 1) q + eps)) * at2 (V c main_v46) (0 : Fin 1) q + at2 (V c main_v47) (0 : Fin 1) q) zero := by
  show (dat3 (F := Ideal) V c).arrAt 6 cfg3.N (ix2 p q) = _
  rw [final3 V c]
  rfl

end Cert.KernelIdeal.RegVal

end
-- ==== Proof.RegNorm6.lean ====
/-
  The normalisation epilogue of the second layer. Region 6 is region 3's kernel at the same shapes over other arrays:
  grid point t takes row block t of the second convolution's value and of the first layer's output, and the four
  [1 × 256] rows mean, variance, scale and shift; the fifty blocks tile the result.
-/
import proofs.«428588_j4063039062434_1_alg».proof.Proof.RegNormBase

noncomputable section

open Idealize.ShloMosaic Idealize.ShloMosaic.TcCoe Idealize.SL.Sem Idealize.ShloMosaic.ValueIdx
open Idealize.ShloMosaic.Pipeline (Dat)
open scoped BigOperators

namespace Cert.KernelIdeal.RegVal

open Cert.KernelIdeal Cert.KernelIdeal.Gen Cert.Spec

variable (V : (c : Dev nD) → (b : Ref sig .tc) → Buf (Elt Ideal) ((c : Thread nD τ).loc b))

/-! ## Region 6 -/

/-- The body's arithmetic of region 6 at row p, column q of its block: the rows of mean, variance, scale and shift are
    read at column q whatever the row. -/
theorem pay6_at (x0 : Vec Ideal S2000x256 .f32) (x1 x2 x3 x4 : Vec Ideal S1x256 .f32) (x5 : Vec Ideal S2000x256 .f32)
    (p : Fin 2000) (q : Fin 256) :
    k6_pay1 (F := Ideal) x0 x1 x2 x3 x4 x5 (ix2 p q)
      = bn (at2 x5 p q) (at2 x0 p q) (at2 x1 (0 : Fin 1) q) (at2 x2 (0 : Fin 1) q) (at2 x3 (0 : Fin 1) q) (at2 x4 (0 : Fin 1) q) := by
  unfold k6_pay1
  simp only [shapeCast_self, addf_apply, maximumf_apply, mulf_apply, subf_apply, broadcast_apply, rsqrt_apply,
    broadcastTo_1b_ab_apply]
  rfl

/-- The body's arithmetic at any index of its block. -/
theorem pay6_idx (x0 : Vec Ideal S2000x256 .f32) (x1 x2 x3 x4 : Vec Ideal S1x256 .f32) (x5 : Vec Ideal S2000x256 .f32)
    (j : S2000x256.Idx) :
    k6_pay1 (F := Ideal) x0 x1 x2 x3 x4 x5 j
      = bn (x5 j) (x0 j) (x1 (ix2 (0 : Fin 1) (j 1))) (x2 (ix2 (0 : Fin 1) (j 1))) (x3 (ix2 (0 : Fin 1) (j 1))) (x4 (ix2 (0 : Fin 1) (j 1))) := by
  obtain ⟨p, q, rfl⟩ : ∃ (p : Fin 2000) (q : Fin 256), j = ix2 p q := ⟨j 0, j 1, eq_ix2 j⟩
  exact pay6_at x0 x1 x2 x3 x4 x5 p q

/-- The printed index maps, decided over the grid: the two row-block windows and the output take block t on the
    rows and block 0 on the columns; the four row windows take block (0, 0). -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

/-- An element of window 0's block at point t sits in its array where the same element of the output's block sits in the result. -/
theorem emb6_0 (t : Fin cfg6.N) (j : S2000x256.Idx) :
    ((cfg6.win 0).blk t).view.emb j = ((cfg6.win 6).blk t).view.emb j := by
  obtain ⟨e00, e01, e10, e11, e20, e21, e30, e31, e40, e41, e50, e51, e60, e61⟩ := idx_facts6 t
  funext a; apply Fin.ext
  match a with
  | ⟨0, _⟩ => show win6_0.index t (0 : Fin 2) * 2000 + 1 * (j 0).val = win6_6.index t (0 : Fin 2) * 2000 + 1 * (j 0).val; omega
  | ⟨1, _⟩ => show win6_0.index t (1 : Fin 2) * 256 + 1 * (j 1).val = win6_6.index t (1 : Fin 2) * 256 + 1 * (j 1).val; omega

/-- An element of window 5's block at point t sits in its array where the same element of the output's block sits in the result. -/
theorem emb6_5 (t : Fin cfg6.N) (j : S2000x256.Idx) :
    ((cfg6.win 5).blk t).view.emb j = ((cfg6.win 6).blk t).view.emb j := by
  obtain ⟨e00, e01, e10, e11, e20, e21, e30, e31, e40, e41, e50, e51, e60, e61⟩ := idx_facts6 t
  funext a; apply Fin.ext
  match a with
  | ⟨0, _⟩ => show win6_5.index t (0 : Fin 2) * 2000 + 1 * (j 0).val = win6_6.index t (0 : Fin 2) * 2000 + 1 * (j 0).val; omega
  | ⟨1, _⟩ => show win6_5.index t (1 : Fin 2) * 256 + 1 * (j 1).val = win6_6.index t (1 : Fin 2) * 256 + 1 * (j 1).val; omega

/-- Window 1's block is its whole one-row array: column s of the block is column s of the array, which is the column of the
    output's element in the result. -/
theorem emb6_1 (t : Fin cfg6.N) (j : S2000x256.Idx) :
    ((cfg6.win 1).blk t).view.emb (ix2 (0 : Fin 1) (j 1)) = ix2 (0 : Fin 1) ((((cfg6.win 6).blk t).view.emb j) 1) := by
  obtain ⟨e00, e01, e10, e11, e20, e21, e30, e31, e40, e41, e50, e51, e60, e61⟩ := idx_facts6 t
  have hj1 : (j 1).val < 256 := (j 1).isLt
  funext a; apply Fin.ext
  match a with
  | ⟨0, _⟩ => show win6_1.index t (0 : Fin 2) * 1 + 1 * 0 = 0; omega
  | ⟨1, _⟩ => show win6_1.index t (1 : Fin 2) * 256 + 1 * (j 1).val = win6_6.index t (1 : Fin 2) * 256 + 1 * (j 1).val; omega

/-- Window 2's block is its whole one-row array: column s of the block is column s of the array, which is the column of the
    output's element in the result. -/
theorem emb6_2 (t : Fin cfg6.N) (j : S2000x256.Idx) :
    ((cfg6.win 2).blk t).view.emb (ix2 (0 : Fin 1) (j 1)) = ix2 (0 : Fin 1) ((((cfg6.win 6).blk t).view.emb j) 1) := by
  obtain ⟨e00, e01, e10, e11, e20, e21, e30, e31, e40, e41, e50, e51, e60, e61⟩ := idx_facts6 t
  have hj1 : (j 1).val < 256 := (j 1).isLt
  funext a; apply Fin.ext
  match a with
  | ⟨0, _⟩ => show win6_2.index t (0 : Fin 2) * 1 + 1 * 0 = 0; omega
  | ⟨1, _⟩ => show win6_2.index t (1 : Fin 2) * 256 + 1 * (j 1).val = win6_6.index t (1 : Fin 2) * 256 + 1 * (j 1).val; omega

/-- Window 3's block is its whole one-row array: column s of the block is column s of the array, which is the column of the
    output's element in the result. -/
theorem emb6_3 (t : Fin cfg6.N) (j : S2000x256.Idx) :
    ((cfg6.win 3).blk t).view.emb (ix2 (0 : Fin 1) (j 1)) = ix2 (0 : Fin 1) ((((cfg6.win 6).blk t).view.emb j) 1) := by
  obtain ⟨e00, e01, e10, e11, e20, e21, e30, e31, e40, e41, e50, e51, e60, e61⟩ := idx_facts6 t
  have hj1 : (j 1).val < 256 := (j 1).isLt
  funext a; apply Fin.ext
  match a with
  | ⟨0, _⟩ => show win6_3.index t (0 : Fin 2) * 1 + 1 * 0 = 0; omega
  | ⟨1, _⟩ => show win6_3.index t (1 : Fin 2) * 256 + 1 * (j 1).val = win6_6.index t (1 : Fin 2) * 256 + 1 * (j 1).val; omega

/-- Window 4's block is its whole one-row array: column s of the block is column s of the array, which is the column of the
    output's element in the result. -/
theorem emb6_4 (t : Fin cfg6.N) (j : S2000x256.Idx) :
    ((cfg6.win 4).blk t).view.emb (ix2 (0 : Fin 1) (j 1)) = ix2 (0 : Fin 1) ((((cfg6.win 6).blk t).view.emb j) 1) := by
  obtain ⟨e00, e01, e10, e11, e20, e21, e30, e31, e40, e41, e50, e51, e60, e61⟩ := idx_facts6 t
  have hj1 : (j 1).val < 256 := (j 1).isLt
  funext a; apply Fin.ext
  match a with
  | ⟨0, _⟩ => show win6_4.index t (0 : Fin 2) * 1 + 1 * 0 = 0; omega
  | ⟨1, _⟩ => show win6_4.index t (1 : Fin 2) * 256 + 1 * (j 1).val = win6_6.index t (1 : Fin 2) * 256 + 1 * (j 1).val; omega

set_option maxHeartbeats 400000 in
/-- What point t writes back is block t of the epilogue's array. -/
theorem flushed6_eq (c : Dev nD) (t : Fin cfg6.N) :
    (dat6 (F := Ideal) V c).flushed 6 t
      = ((cfg6.win 6).blk t).view.read (Elt Ideal)
          (normArr (V c main_v48) (V c main_v58_0) (V c main_v60) (V c main_v64) (V c main_v65) (V c main_v66)) := by
  show (cfg6.win 6).cut (grid6.coords t) ((dat6 (F := Ideal) V c).after 6 t) = _
  rw [after6_6]
  unfold out6_6
  rw [View.canon_unit_zero hz]
  simp only [View.ld_unit_zero (S := S2000x256) hz, View.ld_unit_zero (S := S1x256) hz]
  funext j
  refine (pay6_idx _ _ _ _ _ _ j).trans ?_
  show bn (V c main_v48 (((cfg6.win 5).blk t).view.emb j)) (V c main_v58_0 (((cfg6.win 0).blk t).view.emb j))
        (V c main_v60 (((cfg6.win 1).blk t).view.emb (ix2 (0 : Fin 1) (j 1))))
        (V c main_v64 (((cfg6.win 2).blk t).view.emb (ix2 (0 : Fin 1) (j 1))))
        (V c main_v65 (((cfg6.win 3).blk t).view.emb (ix2 (0 : Fin 1) (j 1))))
        (V c main_v66 (((cfg6.win 4).blk t).view.emb (ix2 (0 : Fin 1) (j 1))))
      = bn (V c main_v48 (((cfg6.win 6).blk t).view.emb j)) (V c main_v58_0 (((cfg6.win 6).blk t).view.emb j))
        (V c main_v60 (ix2 (0 : Fin 1) ((((cfg6.win 6).blk t).view.emb j) 1)))
        (V c main_v64 (ix2 (0 : Fin 1) ((((cfg6.win 6).blk t).view.emb j) 1)))
        (V c main_v65 (ix2 (0 : Fin 1) ((((cfg6.win 6).blk t).view.emb j) 1)))
        (V c main_v66 (ix2 (0 : Fin 1) ((((cfg6.win 6).blk t).view.emb j) 1)))
  rw [emb6_0 t j, emb6_5 t j, emb6_1 t j, emb6_2 t j, emb6_3 t j, emb6_4 t j]
  rfl
/-- An index of the result array is in point t's block iff each coordinate is in the block's range on its axis. -/
theorem mem_blk6 (t : Fin cfg6.N) (i : S100000x256.Idx) :
    i ∈ ((cfg6.win 6).blk t).view.set ↔ ∀ a : Fin 2, win6_6.index t a * S2000x256.size a ≤ (i a).val ∧ (i a).val < win6_6.index t a * S2000x256.size a + S2000x256.size a := by
  show i ∈ ((View.whole main_v67).slice (win6_6.rect t)).set ↔ _
  rw [View.set_slice_whole, Rect.mem_set_unit]
  exact Iff.rfl

/-- The fifty row blocks tile the result: row r is in block r / 2000. -/
theorem cover6 (i : S100000x256.Idx) :
    ∃ t : Fin cfg6.N, (cfg6.win 6).flush t = true ∧ i ∈ ((cfg6.win 6).blk t).view.set := by
  have hi0 : (i 0).val < 100000 := (i 0).isLt
  have hi1 : (i 1).val < 256 := (i 1).isLt
  have hN : grid6.N = 50 := N_6
  have ht : (i 0).val / 2000 < cfg6.N := by show (i 0).val / 2000 < grid6.N; rw [hN]; omega
  obtain ⟨-, -, -, -, -, -, -, -, -, -, -, -, e60, e61⟩ := idx_facts6 ⟨(i 0).val / 2000, ht⟩
  refine ⟨⟨(i 0).val / 2000, ht⟩, flush6_6 _, ?_⟩
  rw [mem_blk6]
  intro a
  match a with
  | ⟨0, _⟩ =>
    show win6_6.index ⟨(i 0).val / 2000, ht⟩ (0 : Fin 2) * 2000 ≤ (i 0).val ∧ (i 0).val < win6_6.index ⟨(i 0).val / 2000, ht⟩ (0 : Fin 2) * 2000 + 2000
    rw [e60]; show (i 0).val / 2000 * 2000 ≤ (i 0).val ∧ (i 0).val < (i 0).val / 2000 * 2000 + 2000; omega
  | ⟨1, _⟩ =>
    show win6_6.index ⟨(i 0).val / 2000, ht⟩ (1 : Fin 2) * 256 ≤ (i 1).val ∧ (i 1).val < win6_6.index ⟨(i 0).val / 2000, ht⟩ (1 : Fin 2) * 256 + 256
    rw [e61]; omega

/-- The result array after the region: the epilogue's array. -/
theorem final6 (c : Dev nD) :
    (dat6 (F := Ideal) V c).arrAt 6 cfg6.N
      = normArr (V c main_v48) (V c main_v58_0) (V c main_v60) (V c main_v64) (V c main_v65) (V c main_v66) :=
  (dat6 (F := Ideal) V c).arrAt_eq_of_cover 6 _ (fun t _ => flushed6_eq V c t) cover6

/-- Region 6: normalise, scale, shift, clip at zero, add the carried features. -/
theorem norm6 (c : Dev nD) (p : Fin 100000) (q : Fin 256) :
    at2 ((dat6 (F := Ideal) V c).arrAt 6 cfg6.N) p q
      = at2 (V c main_v48) p q + max (((at2 (V c main_v58_0) p q - at2 (V c main_v60) (0 : Fin 1) q) * Ideal.rsqrt (at2 (V c main_v64) (0 : Fin 1) q + eps)) * at2 (V c main_v65) (0 : Fin 1) q + at2 (V c main_v66) (0 : Fin 1) q) zero := by
  show (dat6 (F := Ideal) V c).arrAt 6 cfg6.N (ix2 p q) = _
  rw [final6 V c]
  rfl

end Cert.KernelIdeal.RegVal

end
-- ==== Proof.RegNorm.lean ====
/-
  The normalisation epilogue of both layers. Grid point t takes row block t of the convolution's value and of the carried
  features, and the four [1 × 256] rows mean, variance, scale and shift; it writes
  pre + max(((v − mean) * rsqrt(var + eps)) * g + be, 0) for its rows; the fifty blocks tile the result. Region 3 is the first
  layer's epilogue, region 6 the second's: the same kernel at the same shapes over other arrays.
-/
import proofs.«428588_j4063039062434_1_alg».proof.Proof.RegNormBase
import proofs.«428588_j4063039062434_1_alg».proof.Proof.RegNorm6
-- ==== Proof.HostPrefix.lean ====
/-
  The host operations before the first region, read at coordinates: the source and destination words are rows 0 and 1 of
  the edge array; deg is the scatter-add of ones at the destinations plus one; the self-loop weight column is 1/deg and
  the edge weight rsqrt(deg) at the wrapped, clamped source row times rsqrt(deg) at the wrapped, clamped destination row.
-/
import proofs.«428588_j4063039062434_1_alg».proof.Proof.Gen.KernelIdeal.Frame
import proofs.«428588_j4063039062434_1_alg».proof.Proof.Spec
import Idealize.ShloMosaic.Lib.Pipeline.Value
import Idealize.ShloMosaic.Lib.StableHlo.Run
import Idealize.ShloMosaic.Lib.StableHlo.Predicate
import Idealize.ShloMosaic.Lib.ValueLayout
import proofs.«428588_j4063039062434_1_alg».proof.Proof.LibGatherScatter

noncomputable section

open Idealize.ShloMosaic Idealize.ShloMosaic.TcCoe Idealize.SL.Sem Idealize.ShloMosaic.ValueIdx
open Idealize.ShloMosaic.Pipeline (Dat)
open scoped BigOperators

namespace Cert.KernelIdeal.HostVal

open Cert.KernelIdeal Cert.KernelIdeal.Gen Cert.Spec
open Idealize.ShloMosaic.StableHlo.Predicate Idealize.ShloMosaic.RowOps

variable (W : Valuation τ sig (Elt Ideal))

/-- The graph read off the edge array that the valuation holds. -/
abbrev graphOf : Graph := graphOfEdges (W (Proc.devRef .tc main_arg0))

/-! Everything auxiliary lives in its own namespace; the four readings at the end are stated in the enclosing one. -/
namespace Prefix

/-! ## The arrays the stretch writes, as functions of the edge array -/

/-- Row 0 of the edge array as a vector of words. -/
def srcV (ed : S2x800000.Idx → BitVec 32) : S800000.Idx → BitVec 32 :=
  shapeCast _ (extractStridedSlice S1x800000 ![0, 0] ed slices_S2x800000_S1x800000_0_0) shapeCasts_S1x800000_S800000
/-- Row 1 of the edge array as a vector of words. -/
def dstV (ed : S2x800000.Idx → BitVec 32) : S800000.Idx → BitVec 32 :=
  shapeCast _ (extractStridedSlice S1x800000 ![1, 0] ed slices_S2x800000_S1x800000_1_0) shapeCasts_S1x800000_S800000
/-- A vector of words as an [n × 1] column. -/
def colV (w : S800000.Idx → BitVec 32) : S800000x1.Idx → BitVec 32 :=
  broadcastInDim S800000x1 ![0] bcast_S800000_S800000x1_0 w
/-- The degree vector: ones scatter-added into zeros at the destination words, plus one. -/
def degV (ed : S2x800000.Idx → BitVec 32) : FVec Ideal S100000 .f32 :=
  addf
    (Host.scatterAdd scatter_S100000_S800000x1_S800000_n_0_0_1
      (broadcastInDim S100000 ![] bcast_S_S100000 (constant S_ .f32 0x00000000#32))
      (colV (dstV ed))
      (broadcastInDim S800000 ![] bcast_S_S800000 (constant S_ .f32 0x3F800000#32)))
    (broadcastInDim S100000 ![] bcast_S_S100000 (constant S_ .f32 0x3F800000#32))
def dinvV (ed : S2x800000.Idx → BitVec 32) : FVec Ideal S100000 .f32 :=
  Host.divf (broadcastInDim S100000 ![] bcast_S_S100000 (constant S_ .f32 0x3F800000#32)) (degV ed)
def dsqV (ed : S2x800000.Idx → BitVec 32) : FVec Ideal S100000 .f32 := Host.rsqrt (degV ed)
/-- The wrap of every word of a vector: a negative word plus N, any other kept. -/
def wrapV (w : S800000.Idx → BitVec 32) : S800000.Idx → BitVec 32 :=
  select (cmpi .slt w (broadcastInDim S800000 ![] bcast_S_S800000 (constantI S_ 32 0#32)))
    (addi w (broadcastInDim S800000 ![] bcast_S_S800000 (constantI S_ 32 100000#32))) w
def nrmV (ed : S2x800000.Idx → BitVec 32) : FVec Ideal S800000 .f32 :=
  mulf (Host.gather gather_S100000_S800000x1_S800000_n_0_n_n_0_1_1 (dsqV ed) (colV (wrapV (srcV ed))))
    (Host.gather gather_S100000_S800000x1_S800000_n_0_n_n_0_1_1 (dsqV ed) (colV (wrapV (dstV ed))))

theorem v1_eq :
    (StableHlo.after (hostOps0 (F := Ideal)) W (Proc.devRef .tc main_v1) : S800000.Idx → BitVec 32)
      = srcV (W (Proc.devRef .tc main_arg0)) := by
  after_results
  rfl

theorem v3_eq :
    (StableHlo.after (hostOps0 (F := Ideal)) W (Proc.devRef .tc main_v3) : S800000.Idx → BitVec 32)
      = dstV (W (Proc.devRef .tc main_arg0)) := by
  after_results
  rfl

theorem v13_eq :
    (StableHlo.after (hostOps0 (F := Ideal)) W (Proc.devRef .tc main_v13) : S100000x1.Idx → EReal)
      = broadcastInDim S100000x1 ![0] bcast_S100000_S100000x1_0 (dinvV (W (Proc.devRef .tc main_arg0))) := by
  after_results
  rfl

theorem v28_eq :
    (StableHlo.after (hostOps0 (F := Ideal)) W (Proc.devRef .tc main_v28) : S800000.Idx → EReal)
      = nrmV (W (Proc.devRef .tc main_arg0)) := by
  after_results_simp
  rfl

/-! ## The arrays read at coordinates -/

/-- Row p of an [n × 1] column is its element (p, 0). -/
theorem ixP_eq_ix2 {n : Nat} (p : Fin n) : (ixP p : (⟨2, ![n, 1]⟩ : Shape).Idx) = ix2 p (0 : Fin 1) := by
  funext a
  match a with
  | ⟨0, _⟩ => rfl
  | ⟨1, _⟩ => rfl

theorem srcV_at (ed : S2x800000.Idx → BitVec 32) (e : Fin 800000) : srcV ed (ix1 e) = ed (ix2 (0 : Fin 2) e) := by
  unfold srcV
  rw [shapeCast_apply _ shapeCasts_S1x800000_S800000 (ix1 e) (ix2 (0 : Fin 1) e)
    (by rewrite [Shape.rowMajor_val_two, Shape.rowMajor_val_one]; show 0 * 800000 + e.val = e.val; omega)]
  exact extractStridedSlice_apply ![0, 0] _ slices_S2x800000_S1x800000_0_0 _ (ix2 (0 : Fin 2) e) (fun a => match a with
    | ⟨0, _⟩ => by show (0 : Nat) = 0 + 0; rfl
    | ⟨1, _⟩ => by show e.val = 0 + e.val; omega)

theorem dstV_at (ed : S2x800000.Idx → BitVec 32) (e : Fin 800000) : dstV ed (ix1 e) = ed (ix2 (1 : Fin 2) e) := by
  unfold dstV
  rw [shapeCast_apply _ shapeCasts_S1x800000_S800000 (ix1 e) (ix2 (0 : Fin 1) e)
    (by rewrite [Shape.rowMajor_val_two, Shape.rowMajor_val_one]; show 0 * 800000 + e.val = e.val; omega)]
  exact extractStridedSlice_apply ![1, 0] _ slices_S2x800000_S1x800000_1_0 _ (ix2 (1 : Fin 2) e) (fun a => match a with
    | ⟨0, _⟩ => by show (1 : Nat) = 1 + 0; rfl
    | ⟨1, _⟩ => by show e.val = 0 + e.val; omega)

theorem colV_at (w : S800000.Idx → BitVec 32) (e : Fin 800000) : colV w (ixP e) = w (ix1 e) := by
  unfold colV
  rw [bcast_col1, ofFin_eq_ix1]

theorem wrapV_at (w : S800000.Idx → BitVec 32) (e : Fin 800000) : wrapV w (ix1 e) = wrap (w (ix1 e)) := rfl

/-- The splat of one over the edges, of one and of zero over the nodes, at a coordinate. -/
theorem ones_at (e : Fin 800000) :
    (broadcastInDim S800000 ![] bcast_S_S800000 (constant (F := Ideal) S_ .f32 0x3F800000#32) : FVec Ideal S800000 .f32) (ix1 e) = one := rfl
theorem onesN_at (p : Fin 100000) :
    (broadcastInDim S100000 ![] bcast_S_S100000 (constant (F := Ideal) S_ .f32 0x3F800000#32) : FVec Ideal S100000 .f32) (ix1 p) = one := rfl
theorem zerosN_at (p : Fin 100000) :
    (broadcastInDim S100000 ![] bcast_S_S100000 (constant (F := Ideal) S_ .f32 0x00000000#32) : FVec Ideal S100000 .f32) (ix1 p) = zero := rfl

/-- The edges whose destination column word read signed is p are the edges landing on p. -/
theorem lands_eq_into (ed : S2x800000.Idx → BitVec 32) (p : Fin 100000) :
    Finset.univ.filter (fun e : Fin 800000 => lands (colV (dstV ed)) e p.val) = (graphOfEdges ed).into p := by
  ext e
  simp only [Graph.into, Finset.mem_filter, Finset.mem_univ, true_and]
  unfold lands Graph.landsOn graphOfEdges
  rw [colV_at, dstV_at]

/-- The degree at node p: zero plus a one for every edge whose destination word read signed is p, plus one. -/
theorem degV_at (ed : S2x800000.Idx → BitVec 32) (p : Fin 100000) :
    degV ed (ix1 p) = (graphOfEdges ed).deg p := by
  unfold degV Host.scatterAdd Graph.deg
  rw [addf_apply, Ideal.hostScatterAdd_def, scatterAdd_row1 _ rfl rfl rfl rfl, lands_eq_into, onesN_at, zerosN_at]
  exact congrArg (· + one) (congrArg (zero + ·) (Finset.sum_congr rfl fun e _ => ones_at e))

/-- A host quotient of the splat of one by a vector, and a host reciprocal square root of a vector, at a coordinate. -/
theorem divf_ones_at (g : FVec Ideal S100000 .f32) (p : Fin 100000) :
    Host.divf (broadcastInDim S100000 ![] bcast_S_S100000 (constant (F := Ideal) S_ .f32 0x3F800000#32)) g (ix1 p)
      = Ideal.div one (g (ix1 p)) := rfl
theorem rsqrt_at (g : FVec Ideal S100000 .f32) (p : Fin 100000) :
    Host.rsqrt g (ix1 p) = Ideal.rsqrt (g (ix1 p)) := rfl

theorem dinvV_at (ed : S2x800000.Idx → BitVec 32) (p : Fin 100000) :
    dinvV ed (ix1 p) = (graphOfEdges ed).dinv p := by
  unfold dinvV Graph.dinv
  rw [divf_ones_at, degV_at]

theorem dsqV_at (ed : S2x800000.Idx → BitVec 32) (p : Fin 100000) :
    dsqV ed (ix1 p) = (graphOfEdges ed).dsq p := by
  unfold dsqV Graph.dsq
  rw [rsqrt_at, degV_at]

theorem graphOfEdges_src (ed : S2x800000.Idx → BitVec 32) (e : Fin 800000) :
    (graphOfEdges ed).src e = ed (ix2 (0 : Fin 2) e) := rfl
theorem graphOfEdges_dst (ed : S2x800000.Idx → BitVec 32) (e : Fin 800000) :
    (graphOfEdges ed).dst e = ed (ix2 (1 : Fin 2) e) := rfl

/-- A start index's clamped row is the row its word names. -/
theorem clampRow_eq (idx : IVec ⟨2, ![800000, 1]⟩ 32) (e : Fin 800000) (h : 0 < 100000) (x : BitVec 32)
    (hx : idx (ixP e) = x) : clampRow 100000 h idx e = rowOf x := by
  subst hx
  rfl

/-- A host gather of a node table at the column of wrapped words reads the table at the row each word names. -/
theorem gather_wrap_at (g : FVec Ideal S100000 .f32) (w : S800000.Idx → BitVec 32) (e : Fin 800000) :
    Host.gather gather_S100000_S800000x1_S800000_n_0_n_n_0_1_1 g (colV (wrapV w)) (ix1 e)
      = g (ix1 (rowOf (wrap (w (ix1 e))))) := by
  have hN : 0 < 100000 := by omega
  rw [gather_row1 _ rfl rfl rfl rfl _ _ _ hN, clampRow_eq _ e hN _ (by rw [colV_at, wrapV_at])]

theorem nrmV_at (ed : S2x800000.Idx → BitVec 32) (e : Fin 800000) :
    nrmV ed (ix1 e) = (graphOfEdges ed).nrm e := by
  unfold nrmV Graph.nrm
  rw [mulf_apply, gather_wrap_at, gather_wrap_at, dsqV_at, dsqV_at, srcV_at, dstV_at, graphOfEdges_src, graphOfEdges_dst]

end Prefix

open Prefix
/-! ## The four readings -/

theorem host0_src (e : Fin 800000) :
    wat1 (StableHlo.after (hostOps0 (F := Ideal)) W (Proc.devRef .tc main_v1)) e = (graphOf W).src e := by
  show (StableHlo.after (hostOps0 (F := Ideal)) W (Proc.devRef .tc main_v1) : S800000.Idx → BitVec 32) (ix1 e) = _
  rw [v1_eq, srcV_at, graphOfEdges_src]

theorem host0_dst (e : Fin 800000) :
    wat1 (StableHlo.after (hostOps0 (F := Ideal)) W (Proc.devRef .tc main_v3)) e = (graphOf W).dst e := by
  show (StableHlo.after (hostOps0 (F := Ideal)) W (Proc.devRef .tc main_v3) : S800000.Idx → BitVec 32) (ix1 e) = _
  rw [v3_eq, dstV_at, graphOfEdges_dst]

theorem host0_dinv (p : Fin 100000) :
    at2 (StableHlo.after (hostOps0 (F := Ideal)) W (Proc.devRef .tc main_v13)) p (0 : Fin 1) = (graphOf W).dinv p := by
  show (StableHlo.after (hostOps0 (F := Ideal)) W (Proc.devRef .tc main_v13) : S100000x1.Idx → EReal) (ix2 p (0 : Fin 1)) = _
  rw [v13_eq, ← ixP_eq_ix2, bcast_col1, ofFin_eq_ix1, dinvV_at]

theorem host0_nrm (e : Fin 800000) :
    at1 (StableHlo.after (hostOps0 (F := Ideal)) W (Proc.devRef .tc main_v28)) e = (graphOf W).nrm e := by
  show (StableHlo.after (hostOps0 (F := Ideal)) W (Proc.devRef .tc main_v28) : S800000.Idx → EReal) (ix1 e) = _
  rw [v28_eq, nrmV_at]

end Cert.KernelIdeal.HostVal

end
-- ==== Proof.HostConv.lean ====
/-
  The host operations between the product and the fused add: the take of the features' rows at the source words (a gather
  at the wrapped words, masked to a fill value where a wrapped word is outside [0, N-1]), its product with the edge weight
  broadcast along the features, and the scatter-add of the products at the destination words into zeros.
-/
import proofs.«428588_j4063039062434_1_alg».proof.Proof.Gen.KernelIdeal.Frame
import proofs.«428588_j4063039062434_1_alg».proof.Proof.Spec
import Idealize.ShloMosaic.Lib.Pipeline.Value
import Idealize.ShloMosaic.Lib.StableHlo.Run
import Idealize.ShloMosaic.Lib.StableHlo.Predicate
import Idealize.ShloMosaic.Lib.ValueLayout
import Idealize.ShloMosaic.Lib.ReduceAll
import proofs.«428588_j4063039062434_1_alg».proof.Proof.LibGatherScatter

noncomputable section

open Idealize.ShloMosaic Idealize.ShloMosaic.TcCoe Idealize.SL.Sem Idealize.ShloMosaic.ValueIdx
open Idealize.ShloMosaic.Pipeline (Dat)
open scoped BigOperators

namespace Cert.KernelIdeal.HostVal

open Cert.KernelIdeal Cert.KernelIdeal.Gen Cert.Spec

variable (W : Valuation τ sig (Elt Ideal))

/-! ## Indices written two ways, and a vector laid along the rows of a rectangle -/

/-- The two spellings of the index (p, q) of a rectangle agree. -/
theorem ij_eq_ix2 {n m : Nat} (p : Fin n) (q : Fin m) : StableHlo.Predicate.ij p q = ix2 p q := by
  funext a
  match a with
  | ⟨0, _⟩ => rfl
  | ⟨1, _⟩ => rfl

/-- The two spellings of the index (0, q) of a one-row rectangle agree. -/
theorem i1q_eq_ix2 {m : Nat} (q : Fin m) : StableHlo.Predicate.i1q q = ix2 (0 : Fin 1) q := by
  funext a
  match a with
  | ⟨0, _⟩ => rfl
  | ⟨1, _⟩ => rfl

/-- Every index of an [n × 1] column is (its row, 0). -/
theorem eq_ixP {n : Nat} (i : (⟨2, ![n, 1]⟩ : Shape).Idx) : i = StableHlo.Predicate.ixP (i 0) := by
  funext a
  match a with
  | ⟨0, _⟩ => rfl
  | ⟨1, _⟩ =>
    apply Fin.ext
    have h := idx2_lt1 i
    show (i 1).val = 0
    omega

/-- A vector laid along the first axis of an [n × m] rectangle in one step reads, at (p, q), the vector at p. -/
theorem bcast_vec_rows {α : Type} {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  simp only [broadcastInDim]
  congr 1
  funext a
  match a with
  | ⟨0, _⟩ =>
    apply Fin.ext
    have hp := p.isLt
    split
    · next h1 => change n = 1 at h1; show (0 : Nat) = p.val; omega
    · rfl

/-! ## Words in range -/

/-- A word that is not negative is not wrapped. -/
theorem wrap_of_nonneg {w : BitVec 32} (h : 0 ≤ w.toInt) : wrap w = w := by
  have hc : ¬ IntOp.cmpi .slt w 0#32 = 1#1 := by
    rw [IntOp.cmpi_slt, show (0#32 : BitVec 32).toInt = 0 from by decide]
    omega
  exact if_neg hc

/-- A word in [0, N) passes both range tests of the take. -/
theorem inRange_bits {w : BitVec 32} (h0 : 0 ≤ w.toInt) (h1 : w.toInt < 100000) :
    IntOp.andi (IntOp.cmpi .sge w 0#32) (IntOp.cmpi .sle w 99999#32) = 1#1 := by
  rw [IntOp.andi_eq_one, IntOp.cmpi_sge, IntOp.cmpi_sle, show (0#32 : BitVec 32).toInt = 0 from by decide,
    show (99999#32 : BitVec 32).toInt = 99999 from by decide]
  omega

/-- A fold by `and` from 1 over bits that are all 1 is 1. -/
theorem fold_andi_ones {ι : Type} (S : Finset ι) (f : ι → BitVec 1) (h : ∀ i ∈ S, f i = 1#1) :
    S.fold IntOp.andi 1#1 f = 1#1 := by
  induction S using Finset.cons_induction with
  | empty => rfl
  | cons a S ha ih =>
    rw [Finset.fold_cons, h a (Finset.mem_cons_self a S), ih fun i hi => h i (Finset.mem_cons_of_mem hi)]
    rfl

/-! ## The wrapped words as a column of start indices -/

/-- The wrapped source words. -/
def wrapV (src : IVec S800000 32) : IVec S800000 32 :=
  select (cmpi .slt src (broadcastInDim S800000 ![] bcast_S_S800000 (constantI S_ 32 0#32)))
    (addi src (broadcastInDim S800000 ![] bcast_S_S800000 (constantI S_ 32 100000#32))) src

/-- The wrapped words as a column of start indices. -/
def colV (src : IVec S800000 32) : IVec S800000x1 32 :=
  broadcastInDim S800000x1 ![0] bcast_S800000_S800000x1_0 (wrapV src)

/-- Row e of the column of start indices is the wrapped word of edge e. -/
theorem colV_apply (src : IVec S800000 32) (e : Fin 800000) :
    colV src (StableHlo.Predicate.ixP e) = wrap (src (ix1 e)) := by
  unfold colV
  rw [StableHlo.Predicate.bcast_col1, RowOps.ofFin_eq_ix1]
  rfl

/-- A reduce by `and` from 1 over bits that are all 1 is 1 at every result index. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) :
    Host.reduce IntOp.andi x init h hu j = 1#1 := by
  rw [Host.reduce_eq_fold, hi]
  exact fold_andi_ones _ _ fun i _ => hx i

/-! ## The weighted scatter-add as one term, and read at an index -/

/-- At any extents: update rows `t`, each scaled by its row's weight, scatter-added into zeros at an [n × 1] column of
    words. Entry (p, q) is, from zero, the sum over the rows whose word read signed is p of the row's entry q times the
    row's weight. -/
theorem scatter_weighted_rows {K D n : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (h0 : (⟨0, ![]⟩ : Shape).BroadcastsInDim ⟨2, ![K, D]⟩ ![])
    (h1 : (⟨1, ![n]⟩ : Shape).BroadcastsInDim ⟨2, ![n, 1]⟩ ![0])
    (h2 : (⟨2, ![n, 1]⟩ : Shape).BroadcastsInDim ⟨2, ![n, D]⟩ ![0, 1])
    (t : FVec Ideal ⟨2, ![n, D]⟩ .f32) (wgt : FVec Ideal ⟨1, ![n]⟩ .f32) (dst : IVec ⟨1, ![n]⟩ 32) (p : Fin K) (q : Fin D) :
    Host.scatterAdd d (broadcastInDim ⟨2, ![K, D]⟩ ![] h0 (constant (F := Ideal) ⟨0, ![]⟩ .f32 0x00000000#32))
        (broadcastInDim ⟨2, ![n, 1]⟩ ![0] h1 dst)
        (mulf t (broadcastInDim ⟨2, ![n, D]⟩ ![0, 1] h2 (broadcastInDim ⟨2, ![n, 1]⟩ ![0] h1 wgt))) (ix2 p q)
      = zero + ∑ e ∈ Finset.univ.filter (fun e : Fin n => (dst (ix1 e)).toInt = (p.val : Int)),
          t (ix2 e q) * wgt (ix1 e) := by
  show Ideal.hostScatterAdd _ _ _ _ (ix2 p q) = _
  rw [RowOps.scatterAdd_rows d huw hiw hsd hivd]
  show zero + _ = zero + _
  refine congrArg (fun z => zero + z) ?_
  apply Finset.sum_congr
  · ext e
    simp only [Finset.mem_filter, Finset.mem_univ, true_and]
    unfold RowOps.lands
    rw [StableHlo.Predicate.bcast_col1, RowOps.ofFin_eq_ix1]
  · intro e _
    rw [mulf_apply]
    congr 1
    rw [← ij_eq_ix2, StableHlo.Predicate.bcast_rows, RowOps.ofFin_eq_ix1]

/-- The rows `t`, each scaled by its edge's weight, added at the destination words into zeros. -/
def aggV (t : FVec Ideal S800000x256 .f32) (wgt : FVec Ideal S800000 .f32) (dst : IVec S800000 32) :
    FVec Ideal S100000x256 .f32 :=
  Host.scatterAdd scatter_S100000x256_S800000x1_S800000x256_1_0_0_1
    (broadcastInDim S100000x256 ![] bcast_S_S100000x256 (constant (F := Ideal) S_ .f32 0x00000000#32))
    (broadcastInDim S800000x1 ![0] bcast_S800000_S800000x1_0 dst)
    (mulf t (broadcastInDim S800000x256 ![0, 1] bcast_S800000x1_S800000x256_0_1
      (broadcastInDim S800000x1 ![0] bcast_S800000_S800000x1_0 wgt)))

/-- Entry (p, q): from zero, the sum over the edges whose destination word read signed is p of the edge's row at q times
    the edge's weight. -/
theorem aggV_apply (t : FVec Ideal S800000x256 .f32) (wgt : FVec Ideal S800000 .f32) (dst : IVec S800000 32)
    (p : Fin 100000) (q : Fin 256) :
    aggV t wgt dst (ix2 p q)
      = zero + ∑ e ∈ Finset.univ.filter (fun e : Fin 800000 => (dst (ix1 e)).toInt = (p.val : Int)),
          t (ix2 e q) * wgt (ix1 e) :=
  scatter_weighted_rows scatter_S100000x256_S800000x1_S800000x256_1_0_0_1 rfl rfl rfl rfl
    bcast_S_S100000x256 bcast_S800000_S800000x1_0 bcast_S800000x1_S800000x256_0_1 t wgt dst p q

/-! ## The take in parts

  The take's twenty-three operations are run as three consecutive parts — the wrapped column with its range tests, the fold
  of the tests along each row, and the gather with the select — and each part is read over the valuation it starts from,
  so that no step meets the whole composed term. -/

namespace Take

/-! ## A line of operations run in parts, and the range tests of a column -/

/-- A line of operations run in two parts. -/
theorem after_append (l1 l2 : List (HloOp τ sig (Elt Ideal))) (V : Valuation τ sig (Elt Ideal)) :
    StableHlo.after (l1 ++ l2) V = StableHlo.after l2 (StableHlo.after l1 V) := by
  induction l1 generalizing V with
  | nil => rfl
  | cons a l ih => exact ih _

/-- The two range tests of a column of words, conjoined: not negative, and at most N - 1. -/
def maskV (c : IVec S800000x1 32) : IVec S800000x1 1 :=
  andi (cmpi .sge c (broadcastInDim S800000x1 ![] bcast_S_S800000x1 (constantI S_ 32 0#32)))
    (cmpi .sle c (broadcastInDim S800000x1 ![0, 1] bcast_S1x1_S800000x1_0_1
      (broadcastInDim S1x1 ![1] bcast_S1_S1x1_1 (constantI S1 32 99999#32))))

theorem maskV_apply (c : IVec S800000x1 32) (i : S800000x1.Idx) :
    maskV c i = IntOp.andi (IntOp.cmpi .sge (c i) 0#32) (IntOp.cmpi .sle (c i) 99999#32) := rfl

/-- A start index's clamped row is the row its word names. -/
theorem clampRow_eq (idx : IVec ⟨2, ![800000, 1]⟩ 32) (e : Fin 800000) (h : 0 < 100000) (x : BitVec 32)
    (hx : idx (StableHlo.Predicate.ixP e) = x) : RowOps.clampRow 100000 h idx e = rowOf x := by
  subst hx
  rfl

/-! ## Stretch 2: the take in three parts -/

/-- The take's first seventeen operations: the wrapped words as a column and the two range tests of every word. -/
abbrev pre2 : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S800000, .i32⟩) (broadcastInDim S800000 ![] bcast_S_S800000),
    StableHlo.TRef.binary (.of main_v1 : StableHlo.TRef sig ⟨S800000, .i32⟩) (.of main_call0_v0 : StableHlo.TRef sig ⟨S800000, .i32⟩) (.of main_call0_v1 : StableHlo.TRef sig ⟨S800000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S800000, .i32⟩) (broadcastInDim S800000 ![] bcast_S_S800000),
    StableHlo.TRef.binary (.of main_v1 : StableHlo.TRef sig ⟨S800000, .i32⟩) (.of main_call0_v2 : StableHlo.TRef sig ⟨S800000, .i32⟩) (.of main_call0_v3 : StableHlo.TRef sig ⟨S800000, .i32⟩) addi,
    StableHlo.TRef.ternary (.of main_call0_v1 : StableHlo.TRef sig ⟨S800000, .i1⟩) (.of main_call0_v3 : StableHlo.TRef sig ⟨S800000, .i32⟩) (.of main_v1 : StableHlo.TRef sig ⟨S800000, .i32⟩) (.of main_call0_v4 : StableHlo.TRef sig ⟨S800000, .i32⟩) select,
    StableHlo.TRef.unary main_call0_call0.v0 (.of main_call0_v5 : StableHlo.TRef sig ⟨S800000x1, .i32⟩) (broadcastInDim S800000x1 ![0] bcast_S800000_S800000x1_0),
    StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S800000x1, .i32⟩) (broadcastInDim S800000x1 ![] bcast_S_S800000x1),
    StableHlo.TRef.binary (.of main_call0_v5 : StableHlo.TRef sig ⟨S800000x1, .i32⟩) (.of main_call0_v6 : StableHlo.TRef sig ⟨S800000x1, .i32⟩) (.of main_call0_v7 : StableHlo.TRef sig ⟨S800000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S800000x1, .i32⟩) (broadcastInDim S800000x1 ![0, 1] bcast_S1x1_S800000x1_0_1),
    StableHlo.TRef.binary (.of main_call0_v5 : StableHlo.TRef sig ⟨S800000x1, .i32⟩) (.of main_call0_v9 : StableHlo.TRef sig ⟨S800000x1, .i32⟩) (.of main_call0_v10 : StableHlo.TRef sig ⟨S800000x1, .i1⟩) (cmpi .sle),
    StableHlo.TRef.binary (.of main_call0_v7 : StableHlo.TRef sig ⟨S800000x1, .i1⟩) (.of main_call0_v10 : StableHlo.TRef sig ⟨S800000x1, .i1⟩) (.of main_call0_v11 : StableHlo.TRef sig ⟨S800000x1, .i1⟩) andi,
    StableHlo.TRef.nullary (.of main_call0_c_3 : StableHlo.TRef sig ⟨S_, .i1⟩) (constantI S_ 1 1#1) ]
/-- The fold of the range tests along each row by and. -/
abbrev red2 : List (HloOp τ sig (Elt Ideal)) :=
  [ StableHlo.TRef.binary (.of main_call0_v11 : StableHlo.TRef sig ⟨S800000x1, .i1⟩) (.of main_call0_c_3 : StableHlo.TRef sig ⟨S_, .i1⟩) (.of main_call0_v12 : StableHlo.TRef sig ⟨S800000, .i1⟩) (fun x v => Host.reduce IntOp.andi x v reducesTo_S800000x1_S800000_d1 h_S_) ]
/-- The gather of the rows and the select by the folded tests. -/
abbrev post2 : List (HloOp τ sig (Elt Ideal)) :=
  [ StableHlo.TRef.binary (.of main_v30 : StableHlo.TRef sig ⟨S100000x256, .f32⟩) (.of main_call0_v5 : StableHlo.TRef sig ⟨S800000x1, .i32⟩) (.of main_call0_v13 : StableHlo.TRef sig ⟨S800000x256, .f32⟩) (fun x i => Host.gather gather_S100000x256_S800000x1_S800000x256_1_0_n_n_0_1_1256 x i),
    StableHlo.TRef.unary (.of main_call0_v12 : StableHlo.TRef sig ⟨S800000, .i1⟩) (.of main_call0_v14 : StableHlo.TRef sig ⟨S800000x256, .i1⟩) (broadcastInDim S800000x256 ![0] bcast_S800000_S800000x256_0),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S800000x256, .f32⟩) (broadcastInDim S800000x256 ![] bcast_S_S800000x256),
    StableHlo.TRef.ternary (.of main_call0_v14 : StableHlo.TRef sig ⟨S800000x256, .i1⟩) (.of main_call0_v13 : StableHlo.TRef sig ⟨S800000x256, .f32⟩) (.of main_call0_v15 : StableHlo.TRef sig ⟨S800000x256, .f32⟩) (.of main_v31 : StableHlo.TRef sig ⟨S800000x256, .f32⟩) select ]

theorem hostOps2_split : (hostOps2 (F := Ideal)) = pre2 ++ (red2 ++ post2) := rfl

/-- What the last part writes, over any valuation it starts from. -/
theorem post2_out (V : Valuation τ sig (Elt Ideal)) :
    (StableHlo.after post2 V (Proc.devRef .tc main_v31) : FVec Ideal S800000x256 .f32)
      = select (broadcastInDim S800000x256 ![0] bcast_S800000_S800000x256_0 (V (Proc.devRef .tc main_call0_v12) : IVec S800000 1))
          (Host.gather gather_S100000x256_S800000x1_S800000x256_1_0_n_n_0_1_1256
            (V (Proc.devRef .tc main_v30) : FVec Ideal S100000x256 .f32) (V (Proc.devRef .tc main_call0_v5) : IVec S800000x1 32))
          (broadcastInDim S800000x256 ![] bcast_S_S800000x256 (constant (F := Ideal) S_ .f32 0x7FC00000#32)) := by
  after_results_simp
  rfl

attribute [local irreducible] Host.reduce in
/-- What the fold writes, and what it leaves, over any valuation it starts from. -/
theorem red2_v12 (V : Valuation τ sig (Elt Ideal)) :
    (StableHlo.after red2 V (Proc.devRef .tc main_call0_v12) : IVec S800000 1)
      = Host.reduce IntOp.andi (V (Proc.devRef .tc main_call0_v11) : IVec S800000x1 1) (V (Proc.devRef .tc main_call0_c_3) : IVec S_ 1)
          reducesTo_S800000x1_S800000_d1 h_S_ := by
  after_results_simp
  rfl
theorem red2_feat (V : Valuation τ sig (Elt Ideal)) :
    StableHlo.after red2 V (Proc.devRef .tc main_v30) = V (Proc.devRef .tc main_v30) := by
  after_results_simp
theorem red2_v5 (V : Valuation τ sig (Elt Ideal)) :
    StableHlo.after red2 V (Proc.devRef .tc main_call0_v5) = V (Proc.devRef .tc main_call0_v5) := by
  after_results_simp

/-- What the first part writes and leaves. -/
theorem pre2_v11 :
    (StableHlo.after pre2 W (Proc.devRef .tc main_call0_v11) : IVec S800000x1 1) = maskV (colV (W (Proc.devRef .tc main_v1))) := by
  after_results_simp
  rfl
theorem pre2_c3 :
    (StableHlo.after pre2 W (Proc.devRef .tc main_call0_c_3) : IVec S_ 1) = constantI S_ 1 1#1 := by
  after_results_simp
  rfl
theorem pre2_v5 :
    (StableHlo.after pre2 W (Proc.devRef .tc main_call0_v5) : IVec S800000x1 32) = colV (W (Proc.devRef .tc main_v1)) := by
  after_results_simp
  rfl
theorem pre2_feat :
    StableHlo.after pre2 W (Proc.devRef .tc main_v30) = W (Proc.devRef .tc main_v30) := by
  after_results_simp

/-! ## Stretch 5: the take in three parts -/

/-- The take's first seventeen operations: the wrapped words as a column and the two range tests of every word. -/
abbrev pre5 : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S800000, .i32⟩) (broadcastInDim S800000 ![] bcast_S_S800000),
    StableHlo.TRef.binary (.of main_v1 : StableHlo.TRef sig ⟨S800000, .i32⟩) (.of main_call1_v0 : StableHlo.TRef sig ⟨S800000, .i32⟩) (.of main_call1_v1 : StableHlo.TRef sig ⟨S800000, .i1⟩) (cmpi .slt),
    StableHlo.TRef.nullary (.of main_call1_c_0 : StableHlo.TRef sig ⟨S_, .i32⟩) (constantI S_ 32 100000#32),
    StableHlo.TRef.unary (.of main_call1_c_0 : StableHlo.TRef sig ⟨S_, .i32⟩) (.of main_call1_v2 : StableHlo.TRef sig ⟨S800000, .i32⟩) (broadcastInDim S800000 ![] bcast_S_S800000),
    StableHlo.TRef.binary (.of main_v1 : StableHlo.TRef sig ⟨S800000, .i32⟩) (.of main_call1_v2 : StableHlo.TRef sig ⟨S800000, .i32⟩) (.of main_call1_v3 : StableHlo.TRef sig ⟨S800000, .i32⟩) addi,
    StableHlo.TRef.ternary (.of main_call1_v1 : StableHlo.TRef sig ⟨S800000, .i1⟩) (.of main_call1_v3 : StableHlo.TRef sig ⟨S800000, .i32⟩) (.of main_v1 : StableHlo.TRef sig ⟨S800000, .i32⟩) (.of main_call1_v4 : StableHlo.TRef sig ⟨S800000, .i32⟩) select,
    StableHlo.TRef.unary main_call1_call0.v0 (.of main_call1_v5 : StableHlo.TRef sig ⟨S800000x1, .i32⟩) (broadcastInDim S800000x1 ![0] bcast_S800000_S800000x1_0),
    StableHlo.TRef.nullary (.of main_call1_c_1 : StableHlo.TRef sig ⟨S1, .i32⟩) (constantI S1 32 99999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S800000x1, .i32⟩) (broadcastInDim S800000x1 ![] bcast_S_S800000x1),
    StableHlo.TRef.binary (.of main_call1_v5 : StableHlo.TRef sig ⟨S800000x1, .i32⟩) (.of main_call1_v6 : StableHlo.TRef sig ⟨S800000x1, .i32⟩) (.of main_call1_v7 : StableHlo.TRef sig ⟨S800000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S800000x1, .i32⟩) (broadcastInDim S800000x1 ![0, 1] bcast_S1x1_S800000x1_0_1),
    StableHlo.TRef.binary (.of main_call1_v5 : StableHlo.TRef sig ⟨S800000x1, .i32⟩) (.of main_call1_v9 : StableHlo.TRef sig ⟨S800000x1, .i32⟩) (.of main_call1_v10 : StableHlo.TRef sig ⟨S800000x1, .i1⟩) (cmpi .sle),
    StableHlo.TRef.binary (.of main_call1_v7 : StableHlo.TRef sig ⟨S800000x1, .i1⟩) (.of main_call1_v10 : StableHlo.TRef sig ⟨S800000x1, .i1⟩) (.of main_call1_v11 : StableHlo.TRef sig ⟨S800000x1, .i1⟩) andi,
    StableHlo.TRef.nullary (.of main_call1_c_3 : StableHlo.TRef sig ⟨S_, .i1⟩) (constantI S_ 1 1#1) ]
/-- The fold of the range tests along each row by and. -/
abbrev red5 : List (HloOp τ sig (Elt Ideal)) :=
  [ StableHlo.TRef.binary (.of main_call1_v11 : StableHlo.TRef sig ⟨S800000x1, .i1⟩) (.of main_call1_c_3 : StableHlo.TRef sig ⟨S_, .i1⟩) (.of main_call1_v12 : StableHlo.TRef sig ⟨S800000, .i1⟩) (fun x v => Host.reduce IntOp.andi x v reducesTo_S800000x1_S800000_d1 h_S_) ]
/-- The gather of the rows and the select by the folded tests. -/
abbrev post5 : List (HloOp τ sig (Elt Ideal)) :=
  [ StableHlo.TRef.binary (.of main_v49 : StableHlo.TRef sig ⟨S100000x256, .f32⟩) (.of main_call1_v5 : StableHlo.TRef sig ⟨S800000x1, .i32⟩) (.of main_call1_v13 : StableHlo.TRef sig ⟨S800000x256, .f32⟩) (fun x i => Host.gather gather_S100000x256_S800000x1_S800000x256_1_0_n_n_0_1_1256 x i),
    StableHlo.TRef.unary (.of main_call1_v12 : StableHlo.TRef sig ⟨S800000, .i1⟩) (.of main_call1_v14 : StableHlo.TRef sig ⟨S800000x256, .i1⟩) (broadcastInDim S800000x256 ![0] bcast_S800000_S800000x256_0),
    StableHlo.TRef.nullary (.of main_call1_cst : StableHlo.TRef sig ⟨S_, .f32⟩) (constant (F := Ideal) S_ .f32 0x7FC00000#32),
    StableHlo.TRef.unary (.of main_call1_cst : StableHlo.TRef sig ⟨S_, .f32⟩) (.of main_call1_v15 : StableHlo.TRef sig ⟨S800000x256, .f32⟩) (broadcastInDim S800000x256 ![] bcast_S_S800000x256),
    StableHlo.TRef.ternary (.of main_call1_v14 : StableHlo.TRef sig ⟨S800000x256, .i1⟩) (.of main_call1_v13 : StableHlo.TRef sig ⟨S800000x256, .f32⟩) (.of main_call1_v15 : StableHlo.TRef sig ⟨S800000x256, .f32⟩) (.of main_v50 : StableHlo.TRef sig ⟨S800000x256, .f32⟩) select ]

theorem hostOps5_split : (hostOps5 (F := Ideal)) = pre5 ++ (red5 ++ post5) := rfl

/-- What the last part writes, over any valuation it starts from. -/
theorem post5_out (V : Valuation τ sig (Elt Ideal)) :
    (StableHlo.after post5 V (Proc.devRef .tc main_v50) : FVec Ideal S800000x256 .f32)
      = select (broadcastInDim S800000x256 ![0] bcast_S800000_S800000x256_0 (V (Proc.devRef .tc main_call1_v12) : IVec S800000 1))
          (Host.gather gather_S100000x256_S800000x1_S800000x256_1_0_n_n_0_1_1256
            (V (Proc.devRef .tc main_v49) : FVec Ideal S100000x256 .f32) (V (Proc.devRef .tc main_call1_v5) : IVec S800000x1 32))
          (broadcastInDim S800000x256 ![] bcast_S_S800000x256 (constant (F := Ideal) S_ .f32 0x7FC00000#32)) := by
  after_results_simp
  rfl

attribute [local irreducible] Host.reduce in
/-- What the fold writes, and what it leaves, over any valuation it starts from. -/
theorem red5_v12 (V : Valuation τ sig (Elt Ideal)) :
    (StableHlo.after red5 V (Proc.devRef .tc main_call1_v12) : IVec S800000 1)
      = Host.reduce IntOp.andi (V (Proc.devRef .tc main_call1_v11) : IVec S800000x1 1) (V (Proc.devRef .tc main_call1_c_3) : IVec S_ 1)
          reducesTo_S800000x1_S800000_d1 h_S_ := by
  after_results_simp
  rfl
theorem red5_feat (V : Valuation τ sig (Elt Ideal)) :
    StableHlo.after red5 V (Proc.devRef .tc main_v49) = V (Proc.devRef .tc main_v49) := by
  after_results_simp
theorem red5_v5 (V : Valuation τ sig (Elt Ideal)) :
    StableHlo.after red5 V (Proc.devRef .tc main_call1_v5) = V (Proc.devRef .tc main_call1_v5) := by
  after_results_simp

/-- What the first part writes and leaves. -/
theorem pre5_v11 :
    (StableHlo.after pre5 W (Proc.devRef .tc main_call1_v11) : IVec S800000x1 1) = maskV (colV (W (Proc.devRef .tc main_v1))) := by
  after_results_simp
  rfl
theorem pre5_c3 :
    (StableHlo.after pre5 W (Proc.devRef .tc main_call1_c_3) : IVec S_ 1) = constantI S_ 1 1#1 := by
  after_results_simp
  rfl
theorem pre5_v5 :
    (StableHlo.after pre5 W (Proc.devRef .tc main_call1_v5) : IVec S800000x1 32) = colV (W (Proc.devRef .tc main_v1)) := by
  after_results_simp
  rfl
theorem pre5_feat :
    StableHlo.after pre5 W (Proc.devRef .tc main_v49) = W (Proc.devRef .tc main_v49) := by
  after_results_simp

end Take

open Take

/-! ## Stretch 2 -/

/-- When every source word is a row number the take's mask holds at every edge, so row e of the take is the row of the
    features its source word names. -/
theorem take2_apply
    (hsrc : ∀ e : Fin 800000, 0 ≤ (wat1 (W (Proc.devRef .tc main_v1)) e).toInt ∧ (wat1 (W (Proc.devRef .tc main_v1)) e).toInt < 100000)
    (e : Fin 800000) (q : Fin 256) :
    (StableHlo.after (hostOps2 (F := Ideal)) W (Proc.devRef .tc main_v31) : FVec Ideal S800000x256 .f32) (ix2 e q)
      = at2 (W (Proc.devRef .tc main_v30)) (rowOf (wrap (wat1 (W (Proc.devRef .tc main_v1)) e))) q := by
  have hN : 0 < 100000 := by omega
  -- both range tests hold at every index of the column
  have hmask : ∀ i : S800000x1.Idx, maskV (colV (W (Proc.devRef .tc main_v1))) i = 1#1 := fun i => by
    obtain ⟨e', rfl⟩ : ∃ e' : Fin 800000, i = StableHlo.Predicate.ixP e' := ⟨i 0, eq_ixP (n := 800000) i⟩
    rw [maskV_apply, colV_apply, wrap_of_nonneg (hsrc e').1]
    exact inRange_bits (hsrc e').1 (hsrc e').2
  rw [hostOps2_split, after_append, after_append, post2_out, red2_v12, red2_feat, red2_v5, pre2_v11, pre2_c3,
    pre2_v5, pre2_feat, select_apply, bcast_vec_rows, reduce_andi_ones _ _ _ _ _ hmask rfl]
  refine Eq.trans (if_pos rfl) ?_
  rw [RowOps.gather_rows _ rfl rfl rfl rfl rfl rfl _ _ e q hN, clampRow_eq _ e hN _ (colV_apply _ e)]

/-- The take writes neither the edge weights nor the destination words nor the bias. -/
theorem keep2_v28 :
    StableHlo.after (hostOps2 (F := Ideal)) W (Proc.devRef .tc main_v28) = W (Proc.devRef .tc main_v28) := by
  after_results_simp

theorem keep2_v3 :
    StableHlo.after (hostOps2 (F := Ideal)) W (Proc.devRef .tc main_v3) = W (Proc.devRef .tc main_v3) := by
  after_results_simp

theorem keep2_b :
    StableHlo.after (hostOps2 (F := Ideal)) W (Proc.devRef .tc main_arg3) = W (Proc.devRef .tc main_arg3) := by
  after_results_simp

/-- The scatter-add's result is the weighted scatter-add of the take's result. -/
theorem agg2_eq (V : Valuation τ sig (Elt Ideal)) :
    (StableHlo.after (hostOps2_1 (F := Ideal)) V (Proc.devRef .tc main_v37) : FVec Ideal S100000x256 .f32)
      = aggV (V (Proc.devRef .tc main_v31)) (V (Proc.devRef .tc main_v28)) (V (Proc.devRef .tc main_v3)) := by
  after_results_simp
  rfl

/-- The bias row is the bias broadcast to one row. -/
theorem bias2_eq (V : Valuation τ sig (Elt Ideal)) :
    (StableHlo.after (hostOps2_1 (F := Ideal)) V (Proc.devRef .tc main_v38) : FVec Ideal S1x256 .f32)
      = broadcastInDim S1x256 ![1] bcast_S256_S1x256_1 (V (Proc.devRef .tc main_arg3)) := by
  after_results_simp

/-- The aggregated messages after the take and the scatter-add: when every source word is a row number the take's mask is
    all true, so node p gathers, over the edges whose destination word is p, the source row of the features times the
    edge weight. -/
theorem host2_agg
    (hsrc : ∀ e : Fin 800000, 0 ≤ (wat1 (W (Proc.devRef .tc main_v1)) e).toInt ∧ (wat1 (W (Proc.devRef .tc main_v1)) e).toInt < 100000)
    (p : Fin 100000) (q : Fin 256) :
    at2 (StableHlo.after (hostOps2_1 (F := Ideal)) (StableHlo.after (hostOps2 (F := Ideal)) W) (Proc.devRef .tc main_v37)) p q
      = zero + ∑ e ∈ Finset.univ.filter (fun e : Fin 800000 => (wat1 (W (Proc.devRef .tc main_v3)) e).toInt = (p.val : Int)),
          at2 (W (Proc.devRef .tc main_v30)) (rowOf (wrap (wat1 (W (Proc.devRef .tc main_v1)) e))) q * at1 (W (Proc.devRef .tc main_v28)) e := by
  have hA := congrFun (agg2_eq (StableHlo.after (hostOps2 (F := Ideal)) W)) (ix2 p q)
  rw [keep2_v28 W, keep2_v3 W] at hA
  refine hA.trans ((aggV_apply _ _ _ p q).trans ?_)
  refine congrArg (fun z => zero + z) (Finset.sum_congr rfl fun e _ => ?_)
  rw [take2_apply W hsrc e q]

/-- The bias as a [1 × 256] row. -/
theorem host2_b (q : Fin 256) :
    at2 (StableHlo.after (hostOps2_1 (F := Ideal)) (StableHlo.after (hostOps2 (F := Ideal)) W) (Proc.devRef .tc main_v38)) (0 : Fin 1) q
      = at1 (W (Proc.devRef .tc main_arg3)) q := by
  have hB := congrFun (bias2_eq (StableHlo.after (hostOps2 (F := Ideal)) W)) (ix2 (0 : Fin 1) q)
  rw [keep2_b W] at hB
  refine hB.trans ?_
  rw [← i1q_eq_ix2, StableHlo.Predicate.bcast_row1, RowOps.ofFin_eq_ix1]

/-! ## Stretch 5 -/

/-- When every source word is a row number the take's mask holds at every edge, so row e of the take is the row of the
    features its source word names. -/
theorem take5_apply
    (hsrc : ∀ e : Fin 800000, 0 ≤ (wat1 (W (Proc.devRef .tc main_v1)) e).toInt ∧ (wat1 (W (Proc.devRef .tc main_v1)) e).toInt < 100000)
    (e : Fin 800000) (q : Fin 256) :
    (StableHlo.after (hostOps5 (F := Ideal)) W (Proc.devRef .tc main_v50) : FVec Ideal S800000x256 .f32) (ix2 e q)
      = at2 (W (Proc.devRef .tc main_v49)) (rowOf (wrap (wat1 (W (Proc.devRef .tc main_v1)) e))) q := by
  have hN : 0 < 100000 := by omega
  -- both range tests hold at every index of the column
  have hmask : ∀ i : S800000x1.Idx, maskV (colV (W (Proc.devRef .tc main_v1))) i = 1#1 := fun i => by
    obtain ⟨e', rfl⟩ : ∃ e' : Fin 800000, i = StableHlo.Predicate.ixP e' := ⟨i 0, eq_ixP (n := 800000) i⟩
    rw [maskV_apply, colV_apply, wrap_of_nonneg (hsrc e').1]
    exact inRange_bits (hsrc e').1 (hsrc e').2
  rw [hostOps5_split, after_append, after_append, post5_out, red5_v12, red5_feat, red5_v5, pre5_v11, pre5_c3,
    pre5_v5, pre5_feat, select_apply, bcast_vec_rows, reduce_andi_ones _ _ _ _ _ hmask rfl]
  refine Eq.trans (if_pos rfl) ?_
  rw [RowOps.gather_rows _ rfl rfl rfl rfl rfl rfl _ _ e q hN, clampRow_eq _ e hN _ (colV_apply _ e)]

/-- The take writes neither the edge weights nor the destination words nor the bias. -/
theorem keep5_v28 :
    StableHlo.after (hostOps5 (F := Ideal)) W (Proc.devRef .tc main_v28) = W (Proc.devRef .tc main_v28) := by
  after_results_simp

theorem keep5_v3 :
    StableHlo.after (hostOps5 (F := Ideal)) W (Proc.devRef .tc main_v3) = W (Proc.devRef .tc main_v3) := by
  after_results_simp

theorem keep5_b :
    StableHlo.after (hostOps5 (F := Ideal)) W (Proc.devRef .tc main_arg7) = W (Proc.devRef .tc main_arg7) := by
  after_results_simp

/-- The scatter-add's result is the weighted scatter-add of the take's result. -/
theorem agg5_eq (V : Valuation τ sig (Elt Ideal)) :
    (StableHlo.after (hostOps5_1 (F := Ideal)) V (Proc.devRef .tc main_v56) : FVec Ideal S100000x256 .f32)
      = aggV (V (Proc.devRef .tc main_v50)) (V (Proc.devRef .tc main_v28)) (V (Proc.devRef .tc main_v3)) := by
  after_results_simp
  rfl

/-- The bias row is the bias broadcast to one row. -/
theorem bias5_eq (V : Valuation τ sig (Elt Ideal)) :
    (StableHlo.after (hostOps5_1 (F := Ideal)) V (Proc.devRef .tc main_v57) : FVec Ideal S1x256 .f32)
      = broadcastInDim S1x256 ![1] bcast_S256_S1x256_1 (V (Proc.devRef .tc main_arg7)) := by
  after_results_simp

/-- The aggregated messages after the take and the scatter-add: when every source word is a row number the take's mask is
    all true, so node p gathers, over the edges whose destination word is p, the source row of the features times the
    edge weight. -/
theorem host5_agg
    (hsrc : ∀ e : Fin 800000, 0 ≤ (wat1 (W (Proc.devRef .tc main_v1)) e).toInt ∧ (wat1 (W (Proc.devRef .tc main_v1)) e).toInt < 100000)
    (p : Fin 100000) (q : Fin 256) :
    at2 (StableHlo.after (hostOps5_1 (F := Ideal)) (StableHlo.after (hostOps5 (F := Ideal)) W) (Proc.devRef .tc main_v56)) p q
      = zero + ∑ e ∈ Finset.univ.filter (fun e : Fin 800000 => (wat1 (W (Proc.devRef .tc main_v3)) e).toInt = (p.val : Int)),
          at2 (W (Proc.devRef .tc main_v49)) (rowOf (wrap (wat1 (W (Proc.devRef .tc main_v1)) e))) q * at1 (W (Proc.devRef .tc main_v28)) e := by
  have hA := congrFun (agg5_eq (StableHlo.after (hostOps5 (F := Ideal)) W)) (ix2 p q)
  rw [keep5_v28 W, keep5_v3 W] at hA
  refine hA.trans ((aggV_apply _ _ _ p q).trans ?_)
  refine congrArg (fun z => zero + z) (Finset.sum_congr rfl fun e _ => ?_)
  rw [take5_apply W hsrc e q]

/-- The bias as a [1 × 256] row. -/
theorem host5_b (q : Fin 256) :
    at2 (StableHlo.after (hostOps5_1 (F := Ideal)) (StableHlo.after (hostOps5 (F := Ideal)) W) (Proc.devRef .tc main_v57)) (0 : Fin 1) q
      = at1 (W (Proc.devRef .tc main_arg7)) q := by
  have hB := congrFun (bias5_eq (StableHlo.after (hostOps5 (F := Ideal)) W)) (ix2 (0 : Fin 1) q)
  rw [keep5_b W] at hB
  refine hB.trans ?_
  rw [← i1q_eq_ix2, StableHlo.Predicate.bcast_row1, RowOps.ofFin_eq_ix1]

end Cert.KernelIdeal.HostVal

end
-- ==== Proof.HostStats.lean ====
/-
  The host operations between the fused add and the epilogue: the mean is the column sum over N, the variance the column
  sum of squares over N minus the squared mean, and the scale and shift vectors become [1 × 256] rows.
-/
import proofs.«428588_j4063039062434_1_alg».proof.Proof.Gen.KernelIdeal.Frame
import proofs.«428588_j4063039062434_1_alg».proof.Proof.Spec
import Idealize.ShloMosaic.Lib.Pipeline.Value
import Idealize.ShloMosaic.Lib.StableHlo.Run
import Idealize.ShloMosaic.Lib.StableHlo.Predicate
import Idealize.ShloMosaic.Lib.ValueLayout
import proofs.«428588_j4063039062434_1_alg».proof.Proof.LibGatherScatter

noncomputable section

open Idealize.ShloMosaic Idealize.ShloMosaic.TcCoe Idealize.SL.Sem Idealize.ShloMosaic.ValueIdx
open Idealize.ShloMosaic.Pipeline (Dat)
open scoped BigOperators

namespace Cert.KernelIdeal.HostVal

open Cert.KernelIdeal Cert.KernelIdeal.Gen Cert.Spec

variable (W : Valuation τ sig (Elt Ideal))

/-- The [1 × 256] row every element of which is the constant N: the splat of the scalar literal. -/
abbrev statsConstRow : FVec Ideal S1x256 .f32 :=
  broadcastInDim S1x256 ![] bcast_S_S1x256 (constant (F := Ideal) S_ .f32 0x47C35000#32)

/-- The splat row reads the constant at every column. -/
theorem statsConstRow_at (q : Fin 256) : (statsConstRow : S1x256.Idx → EReal) (ix2 (0 : Fin 1) q) = cN := rfl

/-- The host quotient of two rows, read at a column, is the quotient of the elements. -/
theorem statsDivf_at (a b : S1x256.Idx → EReal) (q : Fin 256) :
    (Host.divf (F := Ideal) (φ := .f32) a b : S1x256.Idx → EReal) (ix2 (0 : Fin 1) q) = Ideal.div (a (ix2 (0 : Fin 1) q)) (b (ix2 (0 : Fin 1) q)) := rfl

/-- A [256] vector laid along the columns of a [1 × 256] row reads, at column q, the vector's element q. -/
theorem statsRow_of_vec (h : S256.BroadcastsInDim S1x256 (![1] : Fin 1 → Fin S1x256.rank)) (v : S256.Idx → EReal) (q : Fin 256) :
    broadcastInDim S1x256 ![1] h v (ix2 (0 : Fin 1) q) = v (ix1 q) := by
  have hr := StableHlo.Predicate.bcast_row1 h v q
  have i1 : (StableHlo.Predicate.i1q q : S1x256.Idx) = ix2 (0 : Fin 1) q := by
    funext a; match a with | ⟨0, _⟩ => rfl | ⟨1, _⟩ => rfl
  have i2 : (Shape.Idx.ofFin q : S256.Idx) = ix1 q := by
    funext a; match a with | ⟨0, _⟩ => rfl
  rw [i1, i2] at hr
  exact hr

theorem host3_mean (q : Fin 256) :
    at2 (StableHlo.after (hostOps3 (F := Ideal)) W (Proc.devRef .tc main_v41)) (0 : Fin 1) q = Ideal.div (at2 (W (Proc.devRef .tc main_v39_1)) (0 : Fin 1) q) cN := by
  -- the quotient of the column sums by the splat of the constant
  have e : (StableHlo.after (hostOps3 (F := Ideal)) W (Proc.devRef .tc main_v41) : S1x256.Idx → EReal)
      = Host.divf (W (Proc.devRef .tc main_v39_1) : S1x256.Idx → EReal) (statsConstRow : S1x256.Idx → EReal) := by
    after_results
  show (StableHlo.after (hostOps3 (F := Ideal)) W (Proc.devRef .tc main_v41) : S1x256.Idx → EReal) (ix2 (0 : Fin 1) q) = _
  rw [e, statsDivf_at, statsConstRow_at]

theorem host3_var (q : Fin 256) :
    at2 (StableHlo.after (hostOps3 (F := Ideal)) W (Proc.devRef .tc main_v45)) (0 : Fin 1) q
      = Ideal.div (at2 (W (Proc.devRef .tc main_v39_2)) (0 : Fin 1) q) cN
        - Ideal.div (at2 (W (Proc.devRef .tc main_v39_1)) (0 : Fin 1) q) cN * Ideal.div (at2 (W (Proc.devRef .tc main_v39_1)) (0 : Fin 1) q) cN := by
  -- the mean of squares minus the product of the mean with itself
  have e : (StableHlo.after (hostOps3 (F := Ideal)) W (Proc.devRef .tc main_v45) : S1x256.Idx → EReal)
      = subf (Host.divf (W (Proc.devRef .tc main_v39_2) : S1x256.Idx → EReal) (statsConstRow : S1x256.Idx → EReal))
          (mulf (Host.divf (W (Proc.devRef .tc main_v39_1) : S1x256.Idx → EReal) (statsConstRow : S1x256.Idx → EReal))
                (Host.divf (W (Proc.devRef .tc main_v39_1) : S1x256.Idx → EReal) (statsConstRow : S1x256.Idx → EReal))) := by
    after_results
  show (StableHlo.after (hostOps3 (F := Ideal)) W (Proc.devRef .tc main_v45) : S1x256.Idx → EReal) (ix2 (0 : Fin 1) q) = _
  rw [e, subf_apply, mulf_apply, statsDivf_at, statsDivf_at, statsConstRow_at]

theorem host3_g (q : Fin 256) :
    at2 (StableHlo.after (hostOps3 (F := Ideal)) W (Proc.devRef .tc main_v46)) (0 : Fin 1) q = at1 (W (Proc.devRef .tc main_arg4)) q := by
  have e : (StableHlo.after (hostOps3 (F := Ideal)) W (Proc.devRef .tc main_v46) : S1x256.Idx → EReal)
      = broadcastInDim S1x256 ![1] bcast_S256_S1x256_1 (W (Proc.devRef .tc main_arg4) : S256.Idx → EReal) := by
    after_results
  show (StableHlo.after (hostOps3 (F := Ideal)) W (Proc.devRef .tc main_v46) : S1x256.Idx → EReal) (ix2 (0 : Fin 1) q) = _
  rw [e]
  exact statsRow_of_vec _ _ q

theorem host3_be (q : Fin 256) :
    at2 (StableHlo.after (hostOps3 (F := Ideal)) W (Proc.devRef .tc main_v47)) (0 : Fin 1) q = at1 (W (Proc.devRef .tc main_arg5)) q := by
  have e : (StableHlo.after (hostOps3 (F := Ideal)) W (Proc.devRef .tc main_v47) : S1x256.Idx → EReal)
      = broadcastInDim S1x256 ![1] bcast_S256_S1x256_1 (W (Proc.devRef .tc main_arg5) : S256.Idx → EReal) := by
    after_results
  show (StableHlo.after (hostOps3 (F := Ideal)) W (Proc.devRef .tc main_v47) : S1x256.Idx → EReal) (ix2 (0 : Fin 1) q) = _
  rw [e]
  exact statsRow_of_vec _ _ q

theorem host6_mean (q : Fin 256) :
    at2 (StableHlo.after (hostOps6 (F := Ideal)) W (Proc.devRef .tc main_v60)) (0 : Fin 1) q = Ideal.div (at2 (W (Proc.devRef .tc main_v58_1)) (0 : Fin 1) q) cN := by
  -- the quotient of the column sums by the splat of the constant
  have e : (StableHlo.after (hostOps6 (F := Ideal)) W (Proc.devRef .tc main_v60) : S1x256.Idx → EReal)
      = Host.divf (W (Proc.devRef .tc main_v58_1) : S1x256.Idx → EReal) (statsConstRow : S1x256.Idx → EReal) := by
    after_results
  show (StableHlo.after (hostOps6 (F := Ideal)) W (Proc.devRef .tc main_v60) : S1x256.Idx → EReal) (ix2 (0 : Fin 1) q) = _
  rw [e, statsDivf_at, statsConstRow_at]

theorem host6_var (q : Fin 256) :
    at2 (StableHlo.after (hostOps6 (F := Ideal)) W (Proc.devRef .tc main_v64)) (0 : Fin 1) q
      = Ideal.div (at2 (W (Proc.devRef .tc main_v58_2)) (0 : Fin 1) q) cN
        - Ideal.div (at2 (W (Proc.devRef .tc main_v58_1)) (0 : Fin 1) q) cN * Ideal.div (at2 (W (Proc.devRef .tc main_v58_1)) (0 : Fin 1) q) cN := by
  -- the mean of squares minus the product of the mean with itself
  have e : (StableHlo.after (hostOps6 (F := Ideal)) W (Proc.devRef .tc main_v64) : S1x256.Idx → EReal)
      = subf (Host.divf (W (Proc.devRef .tc main_v58_2) : S1x256.Idx → EReal) (statsConstRow : S1x256.Idx → EReal))
          (mulf (Host.divf (W (Proc.devRef .tc main_v58_1) : S1x256.Idx → EReal) (statsConstRow : S1x256.Idx → EReal))
                (Host.divf (W (Proc.devRef .tc main_v58_1) : S1x256.Idx → EReal) (statsConstRow : S1x256.Idx → EReal))) := by
    after_results
  show (StableHlo.after (hostOps6 (F := Ideal)) W (Proc.devRef .tc main_v64) : S1x256.Idx → EReal) (ix2 (0 : Fin 1) q) = _
  rw [e, subf_apply, mulf_apply, statsDivf_at, statsDivf_at, statsConstRow_at]

theorem host6_g (q : Fin 256) :
    at2 (StableHlo.after (hostOps6 (F := Ideal)) W (Proc.devRef .tc main_v65)) (0 : Fin 1) q = at1 (W (Proc.devRef .tc main_arg8)) q := by
  have e : (StableHlo.after (hostOps6 (F := Ideal)) W (Proc.devRef .tc main_v65) : S1x256.Idx → EReal)
      = broadcastInDim S1x256 ![1] bcast_S256_S1x256_1 (W (Proc.devRef .tc main_arg8) : S256.Idx → EReal) := by
    after_results
  show (StableHlo.after (hostOps6 (F := Ideal)) W (Proc.devRef .tc main_v65) : S1x256.Idx → EReal) (ix2 (0 : Fin 1) q) = _
  rw [e]
  exact statsRow_of_vec _ _ q

theorem host6_be (q : Fin 256) :
    at2 (StableHlo.after (hostOps6 (F := Ideal)) W (Proc.devRef .tc main_v66)) (0 : Fin 1) q = at1 (W (Proc.devRef .tc main_arg9)) q := by
  have e : (StableHlo.after (hostOps6 (F := Ideal)) W (Proc.devRef .tc main_v66) : S1x256.Idx → EReal)
      = broadcastInDim S1x256 ![1] bcast_S256_S1x256_1 (W (Proc.devRef .tc main_arg9) : S256.Idx → EReal) := by
    after_results
  show (StableHlo.after (hostOps6 (F := Ideal)) W (Proc.devRef .tc main_v66) : S1x256.Idx → EReal) (ix2 (0 : Fin 1) q) = _
  rw [e]
  exact statsRow_of_vec _ _ q

end Cert.KernelIdeal.HostVal

end
-- ==== Proof.KernelValue.lean ====
/-
  The idealized kernel program's result, boundary by boundary. Its @main is fourteen segments: seven stretches of host
  operations and seven regions. Reading the buffer contents at each boundary at coordinates gives, in order: the edge
  words and the two weights; pre = x Wres; h = x W1; the aggregated messages and the bias row; the convolution's value
  with its column sums; mean and variance (mean of squares minus squared mean); the first layer's output; then the same
  for the second layer over that output. A buffer that a segment neither writes nor takes as an array keeps its contents
  across it.
-/
import proofs.«428588_j4063039062434_1_alg».proof.Proof.Gen.KernelIdeal.Frame
import proofs.«428588_j4063039062434_1_alg».proof.Proof.Spec
import proofs.«428588_j4063039062434_1_alg».proof.Proof.Inputs
import proofs.«428588_j4063039062434_1_alg».proof.Proof.RegMatmul
import proofs.«428588_j4063039062434_1_alg».proof.Proof.RegStats
import proofs.«428588_j4063039062434_1_alg».proof.Proof.RegNorm
import proofs.«428588_j4063039062434_1_alg».proof.Proof.HostPrefix
import proofs.«428588_j4063039062434_1_alg».proof.Proof.HostConv
import proofs.«428588_j4063039062434_1_alg».proof.Proof.HostStats
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.KVal

open Cert.KernelIdeal Cert.KernelIdeal.Gen Cert.Spec Cert.KernelIdeal.RegVal Cert.KernelIdeal.HostVal

variable (m : (ℓ : Loc nD τ sig) → Buf (Elt Ideal) ℓ) (ρ : Dev nD → PrngReg) (c : Dev nD)

/-- No operation of a literal list of host operations writes a given reference. -/
macro "no_write" : tactic => `(tactic| (
  refine List.forall_iff_forall_mem.mp ?_
  simp only [hostOps0, hostOps2, hostOps2_1, hostOps3, hostOps5, hostOps5_1, hostOps6, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## A buffer a host stretch does not write keeps its contents -/

theorem k1 (b : Ref sig .tc) (h : ∀ op ∈ (hostOps0 : List (HloOp τ sig (Elt Ideal))), Proc.devRef .tc b ∉ op.writes) :
    W1 m ρ c (Proc.devRef .tc b) = m ((c.tc : Thread nD τ).loc b) := StableHlo.after_of_forall_not_mem _ _ h
theorem k4 (b : Ref sig .tc) (h : ∀ op ∈ (hostOps2 : List (HloOp τ sig (Elt Ideal))), Proc.devRef .tc b ∉ op.writes) :
    W4 m ρ c (Proc.devRef .tc b) = W3 m ρ c (Proc.devRef .tc b) := StableHlo.after_of_forall_not_mem _ _ h
theorem k5 (b : Ref sig .tc) (h : ∀ op ∈ (hostOps2_1 : List (HloOp τ sig (Elt Ideal))), Proc.devRef .tc b ∉ op.writes) :
    W5 m ρ c (Proc.devRef .tc b) = W4 m ρ c (Proc.devRef .tc b) := StableHlo.after_of_forall_not_mem _ _ h
theorem k7 (b : Ref sig .tc) (h : ∀ op ∈ (hostOps3 : List (HloOp τ sig (Elt Ideal))), Proc.devRef .tc b ∉ op.writes) :
    W7 m ρ c (Proc.devRef .tc b) = W6 m ρ c (Proc.devRef .tc b) := StableHlo.after_of_forall_not_mem _ _ h
theorem k10 (b : Ref sig .tc) (h : ∀ op ∈ (hostOps5 : List (HloOp τ sig (Elt Ideal))), Proc.devRef .tc b ∉ op.writes) :
    W10 m ρ c (Proc.devRef .tc b) = W9 m ρ c (Proc.devRef .tc b) := StableHlo.after_of_forall_not_mem _ _ h
theorem k11 (b : Ref sig .tc) (h : ∀ op ∈ (hostOps5_1 : List (HloOp τ sig (Elt Ideal))), Proc.devRef .tc b ∉ op.writes) :
    W11 m ρ c (Proc.devRef .tc b) = W10 m ρ c (Proc.devRef .tc b) := StableHlo.after_of_forall_not_mem _ _ h
theorem k13 (b : Ref sig .tc) (h : ∀ op ∈ (hostOps6 : List (HloOp τ sig (Elt Ideal))), Proc.devRef .tc b ∉ op.writes) :
    W13 m ρ c (Proc.devRef .tc b) = W12 m ρ c (Proc.devRef .tc b) := StableHlo.after_of_forall_not_mem _ _ h

/-! ## An input array of a region keeps its contents across it -/

theorem in2_arg1 : W2 m ρ c (Proc.devRef .tc main_arg1) = W1 m ρ c (Proc.devRef .tc main_arg1) :=
  (W2_arr m ρ c 0).trans ((dat0 (V1 m ρ) c).arrAt_in 0 rfl _)
theorem in6_v13 : W6 m ρ c (Proc.devRef .tc main_v13) = W5 m ρ c (Proc.devRef .tc main_v13) :=
  (W6_arr m ρ c 2).trans ((dat2 (V5 m ρ) c).arrAt_in 2 rfl _)
theorem in9_v48 : W9 m ρ c (Proc.devRef .tc main_v48) = W8 m ρ c (Proc.devRef .tc main_v48) :=
  (W9_arr m ρ c 0).trans ((dat4 (V8 m ρ) c).arrAt_in 0 rfl _)

/-! ## The boundaries in order -/

/-- The argument arrays a region or a stretch reads, at the boundary where it reads them. -/
theorem a1_arg1 : W1 m ρ c (Proc.devRef .tc main_arg1) = m ((c.tc : Thread nD τ).loc main_arg1) := k1 m ρ c _ (by no_write)
theorem a1_arg10 : W1 m ρ c (Proc.devRef .tc main_arg10) = m ((c.tc : Thread nD τ).loc main_arg10) := k1 m ρ c _ (by no_write)
theorem a2_arg1 : W2 m ρ c (Proc.devRef .tc main_arg1) = m ((c.tc : Thread nD τ).loc main_arg1) :=
  (in2_arg1 m ρ c).trans (a1_arg1 m ρ c)
theorem a2_arg2 : W2 m ρ c (Proc.devRef .tc main_arg2) = m ((c.tc : Thread nD τ).loc main_arg2) :=
  (W2_of_ne m ρ c main_arg2 (by decide)).trans (k1 m ρ c _ (by no_write))
theorem a3_arg3 : W3 m ρ c (Proc.devRef .tc main_arg3) = m ((c.tc : Thread nD τ).loc main_arg3) :=
  (W3_of_ne m ρ c main_arg3 (by decide)).trans ((W2_of_ne m ρ c main_arg3 (by decide)).trans (k1 m ρ c _ (by no_write)))

/-- The edge words and the two weights after the first stretch. -/
theorem s1_src (e : Fin 800000) : wat1 (W1 m ρ c (Proc.devRef .tc main_v1)) e = (inputsAt m c).G.src e :=
  host0_src (W0 m ρ c) e
theorem s1_dst (e : Fin 800000) : wat1 (W1 m ρ c (Proc.devRef .tc main_v3)) e = (inputsAt m c).G.dst e :=
  host0_dst (W0 m ρ c) e
theorem s1_dinv (p : Fin 100000) : at2 (W1 m ρ c (Proc.devRef .tc main_v13)) p (0 : Fin 1) = (inputsAt m c).G.dinv p :=
  host0_dinv (W0 m ρ c) p
theorem s1_nrm (e : Fin 800000) : at1 (W1 m ρ c (Proc.devRef .tc main_v28)) e = (inputsAt m c).G.nrm e :=
  host0_nrm (W0 m ρ c) e

/-- Region 0 leaves pre = x Wres. -/
theorem s2_pre (p : Fin 100000) (q : Fin 256) : at2 (W2 m ρ c (Proc.devRef .tc main_v29)) p q = (inputsAt m c).pre p q := by
  show at2 (W2 m ρ c (Proc.devRef .tc (Pipeline.arrRef spec0 2))) p q = _
  rw [W2_arr, mm0]
  show ∑ k : Fin 128, at2 (W1 m ρ c (Proc.devRef .tc main_arg1)) p k * at2 (W1 m ρ c (Proc.devRef .tc main_arg10)) k q = _
  rw [a1_arg1, a1_arg10]
  rfl

/-- Region 1 leaves h = x W1. -/
theorem s3_h (p : Fin 100000) (q : Fin 256) :
    at2 (W3 m ρ c (Proc.devRef .tc main_v30)) p q = mm (inputsAt m c).x (inputsAt m c).W1 p q := by
  show at2 (W3 m ρ c (Proc.devRef .tc (Pipeline.arrRef spec1 2))) p q = _
  rw [W3_arr, mm1]
  show ∑ k : Fin 128, at2 (W2 m ρ c (Proc.devRef .tc main_arg1)) p k * at2 (W2 m ρ c (Proc.devRef .tc main_arg2)) k q = _
  rw [a2_arg1, a2_arg2]
  rfl

/-! ### Across regions 0 and 1 -/

theorem c3_v1 : W3 m ρ c (Proc.devRef .tc main_v1) = W1 m ρ c (Proc.devRef .tc main_v1) :=
  (W3_of_ne m ρ c main_v1 (by decide)).trans (W2_of_ne m ρ c main_v1 (by decide))
theorem c3_v3 : W3 m ρ c (Proc.devRef .tc main_v3) = W1 m ρ c (Proc.devRef .tc main_v3) :=
  (W3_of_ne m ρ c main_v3 (by decide)).trans (W2_of_ne m ρ c main_v3 (by decide))
theorem c3_v13 : W3 m ρ c (Proc.devRef .tc main_v13) = W1 m ρ c (Proc.devRef .tc main_v13) :=
  (W3_of_ne m ρ c main_v13 (by decide)).trans (W2_of_ne m ρ c main_v13 (by decide))
theorem c3_v28 : W3 m ρ c (Proc.devRef .tc main_v28) = W1 m ρ c (Proc.devRef .tc main_v28) :=
  (W3_of_ne m ρ c main_v28 (by decide)).trans (W2_of_ne m ρ c main_v28 (by decide))
theorem c3_v29 : W3 m ρ c (Proc.devRef .tc main_v29) = W2 m ρ c (Proc.devRef .tc main_v29) :=
  W3_of_ne m ρ c main_v29 (by decide)

/-- Every source word is a row number, as the first take reads them. -/
theorem src3 (hsrc : (inputsAt m c).G.SrcInRange) (e : Fin 800000) :
    0 ≤ (wat1 (W3 m ρ c (Proc.devRef .tc main_v1)) e).toInt ∧ (wat1 (W3 m ρ c (Proc.devRef .tc main_v1)) e).toInt < 100000 := by
  rw [c3_v1, s1_src]; exact hsrc e

/-- The aggregated messages of layer one. -/
theorem s5_agg (hsrc : (inputsAt m c).G.SrcInRange) (p : Fin 100000) (q : Fin 256) :
    at2 (W5 m ρ c (Proc.devRef .tc main_v37)) p q = (inputsAt m c).G.agg (mm (inputsAt m c).x (inputsAt m c).W1) p q := by
  refine (host2_agg (W3 m ρ c) (src3 m ρ c hsrc) p q).trans ?_
  unfold Graph.agg Graph.into Graph.landsOn
  rw [c3_v1, c3_v3, c3_v28]
  refine congrArg (zero + ·) (Finset.sum_congr (Finset.filter_congr fun e _ => by rw [s1_dst]) fun e _ => ?_)
  rw [s1_src, s1_nrm, s3_h]

theorem s5_b (q : Fin 256) : at2 (W5 m ρ c (Proc.devRef .tc main_v38)) (0 : Fin 1) q = (inputsAt m c).b1 q := by
  refine (host2_b (W3 m ρ c) q).trans ?_
  rw [a3_arg3]; rfl

theorem c5_v30 : W5 m ρ c (Proc.devRef .tc main_v30) = W3 m ρ c (Proc.devRef .tc main_v30) :=
  (k5 m ρ c _ (by no_write)).trans (k4 m ρ c _ (by no_write))
theorem c5_v13 : W5 m ρ c (Proc.devRef .tc main_v13) = W1 m ρ c (Proc.devRef .tc main_v13) :=
  (k5 m ρ c _ (by no_write)).trans ((k4 m ρ c _ (by no_write)).trans (c3_v13 m ρ c))

/-- The convolution's value of layer one, at every node and feature. -/
theorem hf5 (hsrc : (inputsAt m c).G.SrcInRange) (p : Fin 100000) (q : Fin 256) :
    (at2 (W5 m ρ c (Proc.devRef .tc main_v37)) p q + at2 (W5 m ρ c (Proc.devRef .tc main_v30)) p q * at2 (W5 m ρ c (Proc.devRef .tc main_v13)) p (0 : Fin 1))
      + at2 (W5 m ρ c (Proc.devRef .tc main_v38)) (0 : Fin 1) q = (inputsAt m c).hf1 p q := by
  rw [s5_agg m ρ c hsrc, s5_b, c5_v30, s3_h, c5_v13, s1_dinv]
  rfl

theorem s6_hf (hsrc : (inputsAt m c).G.SrcInRange) (p : Fin 100000) (q : Fin 256) :
    at2 (W6 m ρ c (Proc.devRef .tc main_v39_0)) p q = (inputsAt m c).hf1 p q := by
  show at2 (W6 m ρ c (Proc.devRef .tc (Pipeline.arrRef spec2 4))) p q = _
  rw [W6_arr, stats2_hf]
  exact hf5 m ρ c hsrc p q

theorem s6_sum (hsrc : (inputsAt m c).G.SrcInRange) (q : Fin 256) :
    at2 (W6 m ρ c (Proc.devRef .tc main_v39_1)) (0 : Fin 1) q = colsum (inputsAt m c).hf1 q := by
  show at2 (W6 m ρ c (Proc.devRef .tc (Pipeline.arrRef spec2 5))) (0 : Fin 1) q = _
  rw [W6_arr, stats2_sum]
  exact congrArg (zero + ·) (Finset.sum_congr rfl fun p _ => hf5 m ρ c hsrc p q)

theorem s6_sq (hsrc : (inputsAt m c).G.SrcInRange) (q : Fin 256) :
    at2 (W6 m ρ c (Proc.devRef .tc main_v39_2)) (0 : Fin 1) q
      = colsum (fun p q => (inputsAt m c).hf1 p q * (inputsAt m c).hf1 p q) q := by
  show at2 (W6 m ρ c (Proc.devRef .tc (Pipeline.arrRef spec2 6))) (0 : Fin 1) q = _
  rw [W6_arr, stats2_sq]
  exact congrArg (zero + ·) (Finset.sum_congr rfl fun p _ => by rw [hf5 m ρ c hsrc p q])

end Cert.KernelIdeal.KVal

end
-- ==== Proof.RegStats5.lean ====
/-
  The fused add with column statistics. Grid point t takes row block t of the aggregated messages, of the features and of
  the self-loop weights, and the bias row; it writes val = (agg + h * dinv) + b for its rows, and adds the block's column
  sums of val and of val squared into two [1 × 256] accumulators that are set to zero at the first point and written back
  after the last; so the accumulators end at 0 + the sum over all 100000 rows.
-/
import proofs.«428588_j4063039062434_1_alg».proof.Proof.RegStats

noncomputable section

open Idealize.ShloMosaic Idealize.ShloMosaic.TcCoe Idealize.SL.Sem Idealize.ShloMosaic.ValueIdx
open Idealize.ShloMosaic.Pipeline (Dat)
open scoped BigOperators

namespace Cert.KernelIdeal.RegVal

open Cert.KernelIdeal Cert.KernelIdeal.Gen Cert.Spec

/-! ## Region 5: what each control case leaves in the three output blocks, as the body's arithmetic of the loaded blocks -/

section Pieces5
variable {F : FTy → Type} [FloatOps F]

theorem pieceA4_5 (c : Dev nD) (i : grid5.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond5_0 i)
    (x0 : Vec F S2000x256 .f32) (x1 : Vec F S2000x256 .f32) (x2 : Vec F S2000x1 .f32) (x3 : Vec F S1x256 .f32) :
    out5_A_4 c i arg1 harg1 arg2 harg2 arg3 harg3 arg4 harg4 arg5 harg5 arg6 harg6 arg7 harg7 hc0 x0 x1 x2 x3 = k5_pay3 x0 x1 x2 x3 := by
  unfold out5_A_4
  rw [View.read_writes_eq_canon _ _ _ (cover5_A_4 c i arg1 harg1 arg2 harg2 arg3 harg3 arg4 harg4 arg5 harg5 arg6 harg6 arg7 harg7 hc0 x0 x1 x2 x3)]
  unfold kernelRun5_A
  dsimp only
  sl_unfold_words
  rw [View.canon_unit_zero stats_hz]
  simp only [View.readAt_eq_ld, harg1.read_unread, harg2.read_unread, harg3.read_unread, harg4.read_unread, harg6.read_unread, harg7.read_unread, View.ld_unit_zero (S := S2000x256) stats_hz, View.ld_unit_zero (S := S2000x1) stats_hz, View.ld_unit_zero (S := S1x256) stats_hz]

theorem pieceA5_5 (c : Dev nD) (i : grid5.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond5_0 i)
    (x0 : Vec F S2000x256 .f32) (x1 : Vec F S2000x256 .f32) (x2 : Vec F S2000x1 .f32) (x3 : Vec F S1x256 .f32) :
    out5_A_5 c i arg1 harg1 arg2 harg2 arg3 harg3 arg4 harg4 arg5 harg5 arg6 harg6 arg7 harg7 hc0 x0 x1 x2 x3 = k5_pay4 x0 x1 x2 x3 (k5_pay1 (F := F)) := by
  unfold out5_A_5
  rw [View.read_writes_eq_canon _ _ _ (cover5_A_5 c i arg1 harg1 arg2 harg2 arg3 harg3 arg4 harg4 arg5 harg5 arg6 harg6 arg7 harg7 hc0 x0 x1 x2 x3)]
  unfold kernelRun5_A
  dsimp only
  sl_unfold_words
  rw [View.canon_cons_unit_zero (S := S1x256) stats_hz, View.readCov_unit_zero (S := S1x256) _ stats_hz]
  simp only [View.readAt_eq_ld, harg1.read_unread, harg2.read_unread, harg3.read_unread, harg4.read_unread, harg6.read_unread, harg7.read_unread, View.ld_unit_zero (S := S2000x256) stats_hz, View.ld_unit_zero (S := S2000x1) stats_hz, View.ld_unit_zero (S := S1x256) stats_hz]

theorem pieceA6_5 (c : Dev nD) (i : grid5.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond5_0 i)
    (x0 : Vec F S2000x256 .f32) (x1 : Vec F S2000x256 .f32) (x2 : Vec F S2000x1 .f32) (x3 : Vec F S1x256 .f32) :
    out5_A_6 c i arg1 harg1 arg2 harg2 arg3 harg3 arg4 harg4 arg5 harg5 arg6 harg6 arg7 harg7 hc0 x0 x1 x2 x3 = k5_pay5 x0 x1 x2 x3 (k5_pay2 (F := F)) := by
  unfold out5_A_6
  rw [View.read_writes_eq_canon _ _ _ (cover5_A_6 c i arg1 harg1 arg2 harg2 arg3 harg3 arg4 harg4 arg5 harg5 arg6 harg6 arg7 harg7 hc0 x0 x1 x2 x3)]
  unfold kernelRun5_A
  dsimp only
  sl_unfold_words
  rw [View.canon_cons_unit_zero (S := S1x256) stats_hz, View.readCov_unit_zero (S := S1x256) _ stats_hz]
  simp only [View.readAt_eq_ld, harg1.read_unread, harg2.read_unread, harg3.read_unread, harg4.read_unread, harg6.read_unread, harg7.read_unread, View.ld_unit_zero (S := S2000x256) stats_hz, View.ld_unit_zero (S := S2000x1) stats_hz, View.ld_unit_zero (S := S1x256) stats_hz]

theorem pieceB4_5 (c : Dev nD) (i : grid5.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond5_0 i)
    (x0 : Vec F S2000x256 .f32) (x1 : Vec F S2000x256 .f32) (x2 : Vec F S2000x1 .f32) (x3 : Vec F S1x256 .f32) (xo5 : Vec F S1x256 .f32) (xo6 : Vec F S1x256 .f32) :
    out5_B_4 c i arg1 harg1 arg2 harg2 arg3 harg3 arg4 harg4 arg5 harg5 arg6 harg6 arg7 harg7 hc0 x0 x1 x2 x3 xo5 xo6 = k5_pay3 x0 x1 x2 x3 := by
  unfold out5_B_4
  rw [View.read_writes_eq_canon _ _ _ (cover5_B_4 c i arg1 harg1 arg2 harg2 arg3 harg3 arg4 harg4 arg5 harg5 arg6 harg6 arg7 harg7 hc0 x0 x1 x2 x3 xo5 xo6)]
  unfold kernelRun5_B
  dsimp only
  sl_unfold_words
  rw [View.canon_unit_zero stats_hz]
  simp only [View.readAt_eq_ld, harg1.read_unread, harg2.read_unread, harg3.read_unread, harg4.read_unread, harg6.read_unread, harg7.read_unread, View.ld_unit_zero (S := S2000x256) stats_hz, View.ld_unit_zero (S := S2000x1) stats_hz, View.ld_unit_zero (S := S1x256) stats_hz]

theorem pieceB5_5 (c : Dev nD) (i : grid5.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond5_0 i)
    (x0 : Vec F S2000x256 .f32) (x1 : Vec F S2000x256 .f32) (x2 : Vec F S2000x1 .f32) (x3 : Vec F S1x256 .f32) (xo5 : Vec F S1x256 .f32) (xo6 : Vec F S1x256 .f32) :
    out5_B_5 c i arg1 harg1 arg2 harg2 arg3 harg3 arg4 harg4 arg5 harg5 arg6 harg6 arg7 harg7 hc0 x0 x1 x2 x3 xo5 xo6 = k5_pay4 x0 x1 x2 x3 xo5 := by
  unfold out5_B_5
  rw [View.read_writes_eq_canon _ _ _ (cover5_B_5 c i arg1 harg1 arg2 harg2 arg3 harg3 arg4 harg4 arg5 harg5 arg6 harg6 arg7 harg7 hc0 x0 x1 x2 x3 xo5 xo6)]
  unfold kernelRun5_B
  dsimp only
  sl_unfold_words
  rw [View.canon_unit_zero stats_hz]
  simp only [View.readAt_eq_ld, harg1.read_unread, harg2.read_unread, harg3.read_unread, harg4.read_unread, harg6.read_unread, harg7.read_unread, View.ld_unit_zero (S := S2000x256) stats_hz, View.ld_unit_zero (S := S2000x1) stats_hz, View.ld_unit_zero (S := S1x256) stats_hz]

theorem pieceB6_5 (c : Dev nD) (i : grid5.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond5_0 i)
    (x0 : Vec F S2000x256 .f32) (x1 : Vec F S2000x256 .f32) (x2 : Vec F S2000x1 .f32) (x3 : Vec F S1x256 .f32) (xo5 : Vec F S1x256 .f32) (xo6 : Vec F S1x256 .f32) :
    out5_B_6 c i arg1 harg1 arg2 harg2 arg3 harg3 arg4 harg4 arg5 harg5 arg6 harg6 arg7 harg7 hc0 x0 x1 x2 x3 xo5 xo6 = k5_pay5 x0 x1 x2 x3 xo6 := by
  unfold out5_B_6
  rw [View.read_writes_eq_canon _ _ _ (cover5_B_6 c i arg1 harg1 arg2 harg2 arg3 harg3 arg4 harg4 arg5 harg5 arg6 harg6 arg7 harg7 hc0 x0 x1 x2 x3 xo5 xo6)]
  unfold kernelRun5_B
  dsimp only
  sl_unfold_words
  rw [View.canon_unit_zero stats_hz]
  simp only [View.readAt_eq_ld, harg1.read_unread, harg2.read_unread, harg3.read_unread, harg4.read_unread, harg6.read_unread, harg7.read_unread, View.ld_unit_zero (S := S2000x256) stats_hz, View.ld_unit_zero (S := S2000x1) stats_hz, View.ld_unit_zero (S := S1x256) stats_hz]

end Pieces5

/-! ## Region 5: the body's arithmetic read at an entry -/

/-- The block written back: at row r, column q, (agg + h · d) + b of the four loaded blocks' entries. -/
theorem pay3_apply5 (x0 x1 : Vec Ideal S2000x256 .f32) (x2 : Vec Ideal S2000x1 .f32) (x3 : Vec Ideal S1x256 .f32) (r : Fin 2000) (q : Fin 256) :
    at2 (k5_pay3 x0 x1 x2 x3) r q = (at2 x0 r q + at2 x1 r q * at2 x2 r (0 : Fin 1)) + at2 x3 (0 : Fin 1) q := by
  unfold k5_pay3
  dsimp only
  simp only [at2, shapeCast_self, addf_apply, mulf_apply, stats_bcast_col_apply, broadcastTo_1b_ab_apply]

/-- The first accumulator's update: the old entry plus the column's sum over the block's 2000 rows. -/
theorem pay4_apply5 (x0 x1 : Vec Ideal S2000x256 .f32) (x2 : Vec Ideal S2000x1 .f32) (x3 : Vec Ideal S1x256 .f32) (acc : Vec Ideal S1x256 .f32) (u : Fin 1) (q : Fin 256) :
    at2 (k5_pay4 x0 x1 x2 x3 acc) u q = at2 acc u q + ∑ k : Fin 2000, at2 (k5_pay3 x0 x1 x2 x3) k q := by
  unfold k5_pay4
  dsimp only
  simp only [at2, shapeCast_self, addf_apply, shapeCast_a_1a_apply]
  congr 1
  exact stats_colsum_apply _ rfl q

/-- The second accumulator's update: the old entry plus the column's sum of squares over the block's 2000 rows. -/
theorem pay5_apply5 (x0 x1 : Vec Ideal S2000x256 .f32) (x2 : Vec Ideal S2000x1 .f32) (x3 : Vec Ideal S1x256 .f32) (acc : Vec Ideal S1x256 .f32) (u : Fin 1) (q : Fin 256) :
    at2 (k5_pay5 x0 x1 x2 x3 acc) u q
      = at2 acc u q + ∑ k : Fin 2000, (at2 (k5_pay3 x0 x1 x2 x3) k q * at2 (k5_pay3 x0 x1 x2 x3) k q) := by
  unfold k5_pay5
  dsimp only
  simp only [at2, shapeCast_self, addf_apply, shapeCast_a_1a_apply]
  congr 1
  refine (stats_colsum_apply _ rfl q).trans ?_
  simp only [mulf_apply]

/-- The reset stores zeros. -/
theorem pay1_apply5 (u : Fin 1) (q : Fin 256) : at2 (k5_pay1 (F := Ideal)) u q = zero := rfl
theorem pay2_apply5 (u : Fin 1) (q : Fin 256) : at2 (k5_pay2 (F := Ideal)) u q = zero := rfl

/-! ## Region 5: the blocks a grid point reads are row blocks of the arrays -/

/-- The block indices at point t: row block t of the three node arrays and of the output, block 0 of the bias row and
    of the two accumulators. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0 :=
  (by decide +kernel : ∀ t : Fin grid5.N, _)

section Values5

variable (V : (c : Dev nD) → (b : Ref sig .tc) → Buf (Elt Ideal) ((c : Thread nD τ).loc b))

/-- The four blocks point t loads, at their literal shapes. -/
abbrev bA5 (c : Dev nD) (t : Fin cfg5.N) : Vec Ideal S2000x256 .f32 := iblk5 V c 0 t
abbrev bH5 (c : Dev nD) (t : Fin cfg5.N) : Vec Ideal S2000x256 .f32 := iblk5 V c 1 t
abbrev bD5 (c : Dev nD) (t : Fin cfg5.N) : Vec Ideal S2000x1 .f32 := iblk5 V c 2 t
abbrev bB5 (c : Dev nD) (t : Fin cfg5.N) : Vec Ideal S1x256 .f32 := iblk5 V c 3 t

theorem bA5_apply (c : Dev nD) (t : Fin cfg5.N) (r : Fin 2000) (q : Fin 256) (h : 2000 * t.val + r.val < 100000) :
    at2 (bA5 V c t) r q = at2 (V c main_v56) ⟨2000 * t.val + r.val, h⟩ q := by
  obtain ⟨e0, e1, -⟩ := idx_facts5 t
  have e : ((cfg5.win 0).blk t).view.emb (ix2 r q) = ix2 (⟨2000 * t.val + r.val, h⟩ : Fin 100000) q := by
    funext a; apply Fin.ext
    match a with
    | ⟨0, _⟩ => show win5_0.index t (0 : Fin 2) * 2000 + 1 * r.val = 2000 * t.val + r.val; omega
    | ⟨1, _⟩ => show win5_0.index t (1 : Fin 2) * 256 + 1 * q.val = q.val; omega
  show V c main_v56 (((cfg5.win 0).blk t).view.emb (ix2 r q)) = V c main_v56 (ix2 (⟨2000 * t.val + r.val, h⟩ : Fin 100000) q)
  rw [e]

theorem bH5_apply (c : Dev nD) (t : Fin cfg5.N) (r : Fin 2000) (q : Fin 256) (h : 2000 * t.val + r.val < 100000) :
    at2 (bH5 V c t) r q = at2 (V c main_v49) ⟨2000 * t.val + r.val, h⟩ q := by
  obtain ⟨-, -, e0, e1, -⟩ := idx_facts5 t
  have e : ((cfg5.win 1).blk t).view.emb (ix2 r q) = ix2 (⟨2000 * t.val + r.val, h⟩ : Fin 100000) q := by
    funext a; apply Fin.ext
    match a with
    | ⟨0, _⟩ => show win5_1.index t (0 : Fin 2) * 2000 + 1 * r.val = 2000 * t.val + r.val; omega
    | ⟨1, _⟩ => show win5_1.index t (1 : Fin 2) * 256 + 1 * q.val = q.val; omega
  show V c main_v49 (((cfg5.win 1).blk t).view.emb (ix2 r q)) = V c main_v49 (ix2 (⟨2000 * t.val + r.val, h⟩ : Fin 100000) q)
  rw [e]

theorem bD5_apply (c : Dev nD) (t : Fin cfg5.N) (r : Fin 2000) (h : 2000 * t.val + r.val < 100000) :
    at2 (bD5 V c t) r (0 : Fin 1) = at2 (V c main_v13) ⟨2000 * t.val + r.val, h⟩ (0 : Fin 1) := by
  obtain ⟨-, -, -, -, e0, e1, -⟩ := idx_facts5 t
  have e : ((cfg5.win 2).blk t).view.emb (ix2 r (0 : Fin 1)) = ix2 (⟨2000 * t.val + r.val, h⟩ : Fin 100000) (0 : Fin 1) := by
    funext a; apply Fin.ext
    match a with
    | ⟨0, _⟩ => show win5_2.index t (0 : Fin 2) * 2000 + 1 * r.val = 2000 * t.val + r.val; omega
    | ⟨1, _⟩ => show win5_2.index t (1 : Fin 2) * 1 + 1 * 0 = 0; omega
  show V c main_v13 (((cfg5.win 2).blk t).view.emb (ix2 r (0 : Fin 1))) = V c main_v13 (ix2 (⟨2000 * t.val + r.val, h⟩ : Fin 100000) (0 : Fin 1))
  rw [e]

theorem bB5_apply (c : Dev nD) (t : Fin cfg5.N) (q : Fin 256) :
    at2 (bB5 V c t) (0 : Fin 1) q = at2 (V c main_v57) (0 : Fin 1) q := by
  obtain ⟨-, -, -, -, -, -, e0, e1, -⟩ := idx_facts5 t
  have e : ((cfg5.win 3).blk t).view.emb (ix2 (0 : Fin 1) q) = ix2 (0 : Fin 1) q := by
    funext a; apply Fin.ext
    match a with
    | ⟨0, _⟩ => show win5_3.index t (0 : Fin 2) * 1 + 1 * 0 = 0; omega
    | ⟨1, _⟩ => show win5_3.index t (1 : Fin 2) * 256 + 1 * q.val = q.val; omega
  show V c main_v57 (((cfg5.win 3).blk t).view.emb (ix2 (0 : Fin 1) q)) = V c main_v57 (ix2 (0 : Fin 1) q)
  rw [e]

/-- The convolution's value at node p, column q, from the arrays as the region finds them. -/
abbrev rowv5 (c : Dev nD) (p : Fin 100000) (q : Fin 256) : EReal :=
  (at2 (V c main_v56) p q + at2 (V c main_v49) p q * at2 (V c main_v13) p (0 : Fin 1)) + at2 (V c main_v57) (0 : Fin 1) q

/-- Row r of what point t writes back is the convolution's value at node 2000 t + r. -/
theorem blk_row5 (c : Dev nD) (t : Fin cfg5.N) (r : Fin 2000) (q : Fin 256) (h : 2000 * t.val + r.val < 100000) :
    at2 (k5_pay3 (bA5 V c t) (bH5 V c t) (bD5 V c t) (bB5 V c t)) r q = rowv5 V c ⟨2000 * t.val + r.val, h⟩ q := by
  refine (pay3_apply5 (bA5 V c t) (bH5 V c t) (bD5 V c t) (bB5 V c t) r q).trans ?_
  rw [bA5_apply V c t r q h, bH5_apply V c t r q h, bD5_apply V c t r h, bB5_apply V c t q]

/-! ## Region 5: what the three output blocks hold after each point -/

theorem outs4_5 (c : Dev nD) (t : Fin cfg5.N) :
    (outsAt5 V c t.val t.isLt).1 = k5_pay3 (bA5 V c t) (bH5 V c t) (bD5 V c t) (bB5 V c t) := by
  by_cases h0 : t.val % 50 = 0
  · rw [outsAt5_A V c t h0]; dsimp only
    exact pieceA4_5 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t)
  · rw [outsAt5_B V c t h0]; dsimp only
    exact pieceB4_5 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (outsAt5 V c (t.val - 1) (Nat.lt_of_le_of_lt (Nat.sub_le _ _) t.isLt)).2.1 (outsAt5 V c (t.val - 1) (Nat.lt_of_le_of_lt (Nat.sub_le _ _) t.isLt)).2.2

theorem outs5A_5 (c : Dev nD) (t : Fin cfg5.N) (h0 : t.val % 50 = 0) :
    (outsAt5 V c t.val t.isLt).2.1 = k5_pay4 (bA5 V c t) (bH5 V c t) (bD5 V c t) (bB5 V c t) (k5_pay1 (F := Ideal)) := by
  rw [outsAt5_A V c t h0]; dsimp only
  exact pieceA5_5 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t)

theorem outs6A_5 (c : Dev nD) (t : Fin cfg5.N) (h0 : t.val % 50 = 0) :
    (outsAt5 V c t.val t.isLt).2.2 = k5_pay5 (bA5 V c t) (bH5 V c t) (bD5 V c t) (bB5 V c t) (k5_pay2 (F := Ideal)) := by
  rw [outsAt5_A V c t h0]; dsimp only
  exact pieceA6_5 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t)

theorem outs5B_5 (c : Dev nD) (t : Fin cfg5.N) (h0 : ¬t.val % 50 = 0) :
    (outsAt5 V c t.val t.isLt).2.1 = k5_pay4 (bA5 V c t) (bH5 V c t) (bD5 V c t) (bB5 V c t) (outsAt5 V c (t.val - 1) (Nat.lt_of_le_of_lt (Nat.sub_le _ _) t.isLt)).2.1 := by
  rw [outsAt5_B V c t h0]; dsimp only
  exact pieceB5_5 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (outsAt5 V c (t.val - 1) (Nat.lt_of_le_of_lt (Nat.sub_le _ _) t.isLt)).2.1 (outsAt5 V c (t.val - 1) (Nat.lt_of_le_of_lt (Nat.sub_le _ _) t.isLt)).2.2

theorem outs6B_5 (c : Dev nD) (t : Fin cfg5.N) (h0 : ¬t.val % 50 = 0) :
    (outsAt5 V c t.val t.isLt).2.2 = k5_pay5 (bA5 V c t) (bH5 V c t) (bD5 V c t) (bB5 V c t) (outsAt5 V c (t.val - 1) (Nat.lt_of_le_of_lt (Nat.sub_le _ _) t.isLt)).2.2 := by
  rw [outsAt5_B V c t h0]; dsimp only
  exact pieceB6_5 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (outsAt5 V c (t.val - 1) (Nat.lt_of_le_of_lt (Nat.sub_le _ _) t.isLt)).2.1 (outsAt5 V c (t.val - 1) (Nat.lt_of_le_of_lt (Nat.sub_le _ _) t.isLt)).2.2

/-- After point n the two accumulators hold, in every column, zero plus the sum over the rows below 2000 (n + 1) of the
    convolution's value, and of its square: the reset and the first block at point 0, one more block at each later point. -/
theorem acc_inv5 (c : Dev nD) (u : Fin 1) (q : Fin 256) : ∀ (n : ℕ) (hn : n < cfg5.N),
    at2 (outsAt5 V c n hn).2.1 u q = zero + ∑ p ∈ Finset.range (2000 * (n + 1)), statsExt0 (fun p => rowv5 V c p q) p
    ∧ at2 (outsAt5 V c n hn).2.2 u q
        = zero + ∑ p ∈ Finset.range (2000 * (n + 1)), statsExt0 (fun p => rowv5 V c p q * rowv5 V c p q) p
  | 0, hn => by
    constructor
    · rw [outs5A_5 V c ⟨0, hn⟩ (Nat.zero_mod _)]
      refine (pay4_apply5 (bA5 V c ⟨0, hn⟩) (bH5 V c ⟨0, hn⟩) (bD5 V c ⟨0, hn⟩) (bB5 V c ⟨0, hn⟩) (k5_pay1 (F := Ideal)) u q).trans ?_
      rw [pay1_apply5 u q]
      exact stats_base_sum (fun p => rowv5 V c p q) zero (fun k => at2 (k5_pay3 (bA5 V c ⟨0, hn⟩) (bH5 V c ⟨0, hn⟩) (bD5 V c ⟨0, hn⟩) (bB5 V c ⟨0, hn⟩)) k q)
        (fun k h => blk_row5 V c ⟨0, hn⟩ k q h)
    · rw [outs6A_5 V c ⟨0, hn⟩ (Nat.zero_mod _)]
      refine (pay5_apply5 (bA5 V c ⟨0, hn⟩) (bH5 V c ⟨0, hn⟩) (bD5 V c ⟨0, hn⟩) (bB5 V c ⟨0, hn⟩) (k5_pay2 (F := Ideal)) u q).trans ?_
      rw [pay2_apply5 u q]
      exact stats_base_sum (fun p => rowv5 V c p q * rowv5 V c p q) zero
        (fun k => at2 (k5_pay3 (bA5 V c ⟨0, hn⟩) (bH5 V c ⟨0, hn⟩) (bD5 V c ⟨0, hn⟩) (bB5 V c ⟨0, hn⟩)) k q * at2 (k5_pay3 (bA5 V c ⟨0, hn⟩) (bH5 V c ⟨0, hn⟩) (bD5 V c ⟨0, hn⟩) (bB5 V c ⟨0, hn⟩)) k q)
        (fun k h => by show at2 _ k q * at2 _ k q = _; rw [blk_row5 V c ⟨0, hn⟩ k q h])
  | n + 1, hn => by
    have hN : cfg5.N = 50 := N_5
    have hB : ¬(⟨n + 1, hn⟩ : Fin cfg5.N).val % 50 = 0 := by dsimp only; omega
    obtain ⟨ih1, ih2⟩ := acc_inv5 c u q n (Nat.lt_of_succ_lt hn)
    constructor
    · rw [outs5B_5 V c ⟨n + 1, hn⟩ hB]
      refine (pay4_apply5 (bA5 V c ⟨n + 1, hn⟩) (bH5 V c ⟨n + 1, hn⟩) (bD5 V c ⟨n + 1, hn⟩) (bB5 V c ⟨n + 1, hn⟩) _ u q).trans ?_
      show at2 (outsAt5 V c n _).2.1 u q + _ = _
      rw [ih1]
      exact stats_step_sum (fun p => rowv5 V c p q) (n + 1) (by omega) zero (fun k => at2 (k5_pay3 (bA5 V c ⟨n + 1, hn⟩) (bH5 V c ⟨n + 1, hn⟩) (bD5 V c ⟨n + 1, hn⟩) (bB5 V c ⟨n + 1, hn⟩)) k q)
        (fun k h => blk_row5 V c ⟨n + 1, hn⟩ k q h)
    · rw [outs6B_5 V c ⟨n + 1, hn⟩ hB]
      refine (pay5_apply5 (bA5 V c ⟨n + 1, hn⟩) (bH5 V c ⟨n + 1, hn⟩) (bD5 V c ⟨n + 1, hn⟩) (bB5 V c ⟨n + 1, hn⟩) _ u q).trans ?_
      show at2 (outsAt5 V c n _).2.2 u q + _ = _
      rw [ih2]
      exact stats_step_sum (fun p => rowv5 V c p q * rowv5 V c p q) (n + 1) (by omega) zero
        (fun k => at2 (k5_pay3 (bA5 V c ⟨n + 1, hn⟩) (bH5 V c ⟨n + 1, hn⟩) (bD5 V c ⟨n + 1, hn⟩) (bB5 V c ⟨n + 1, hn⟩)) k q * at2 (k5_pay3 (bA5 V c ⟨n + 1, hn⟩) (bH5 V c ⟨n + 1, hn⟩) (bD5 V c ⟨n + 1, hn⟩) (bB5 V c ⟨n + 1, hn⟩)) k q)
        (fun k h => by show at2 _ k q * at2 _ k q = _; rw [blk_row5 V c ⟨n + 1, hn⟩ k q h])

end Values5

/-! ## Region 5: from the blocks written back to the three result arrays -/

section Arrays5

variable (V : (c : Dev nD) → (b : Ref sig .tc) → Buf (Elt Ideal) ((c : Thread nD τ).loc b))

/-- The three result arrays: the convolution's value at every node; every column's sum; every column's sum of squares. -/
abbrev G4_5 (c : Dev nD) : S100000x256.Idx → EReal := fun i => rowv5 V c (i 0) (i 1)
abbrev G5_5 (c : Dev nD) : S1x256.Idx → EReal := fun i => zero + ∑ p : Fin 100000, rowv5 V c p (i 1)
abbrev G6_5 (c : Dev nD) : S1x256.Idx → EReal := fun i => zero + ∑ p : Fin 100000, (rowv5 V c p (i 1) * rowv5 V c p (i 1))

theorem flush4_at5 (c : Dev nD) (t : Fin cfg5.N) (j : S2000x256.Idx) :
    k5_pay3 (bA5 V c t) (bH5 V c t) (bD5 V c t) (bB5 V c t) j = G4_5 V c (((cfg5.win 4).blk t).view.emb j) := by
  obtain ⟨r, q, rfl⟩ : ∃ (r : Fin 2000) (q : Fin 256), j = ix2 r q := ⟨j 0, j 1, eq_ix2 j⟩
  have hN : t.val < 50 := lt_of_lt_of_eq t.isLt (show cfg5.N = 50 from N_5)
  have h : 2000 * t.val + r.val < 100000 := by have := r.isLt; omega
  obtain ⟨-, -, -, -, -, -, -, -, e0, e1, -⟩ := idx_facts5 t
  have e : ((cfg5.win 4).blk t).view.emb (ix2 r q) = ix2 (⟨2000 * t.val + r.val, h⟩ : Fin 100000) q := by
    funext a; apply Fin.ext
    match a with
    | ⟨0, _⟩ => show win5_4.index t (0 : Fin 2) * 2000 + 1 * r.val = 2000 * t.val + r.val; omega
    | ⟨1, _⟩ => show win5_4.index t (1 : Fin 2) * 256 + 1 * q.val = q.val; omega
  rw [e]
  exact blk_row5 V c t r q h

/-- What point t writes back of output 4 is row block t of the convolution's value. -/
theorem flushed4_5 (c : Dev nD) (t : Fin cfg5.N) :
    (dat5 V c).flushed 4 t = ((cfg5.win 4).blk t).view.read (Elt Ideal) (G4_5 V c) := by
  show (cfg5.win 4).cut (grid5.coords t) ((dat5 V c).after 4 t) = _
  rw [after5_4, outs4_5 V c t]
  funext j
  exact flush4_at5 V c t j

theorem mem_blk4_5 (t : Fin cfg5.N) (i : S100000x256.Idx) :
    i ∈ ((cfg5.win 4).blk t).view.set ↔ ∀ a : Fin 2, win5_4.index t a * S2000x256.size a ≤ (i a).val ∧ (i a).val < win5_4.index t a * S2000x256.size a + S2000x256.size a := by
  show i ∈ ((View.whole main_v58_0).slice (win5_4.rect t)).set ↔ _
  rw [View.set_slice_whole, Rect.mem_set_unit]
  exact Iff.rfl

/-- Row p lies in the block of point p / 2000. -/
theorem cover4_5 (i : S100000x256.Idx) : ∃ t : Fin cfg5.N, (cfg5.win 4).flush t = true ∧ i ∈ ((cfg5.win 4).blk t).view.set := by
  have hi0 : (i 0).val < 100000 := (i 0).isLt
  have hi1 : (i 1).val < 256 := (i 1).isLt
  have hN : cfg5.N = 50 := N_5
  have ht : (i 0).val / 2000 < cfg5.N := by omega
  refine ⟨⟨(i 0).val / 2000, ht⟩, flush5_4 _, ?_⟩
  rw [mem_blk4_5]
  obtain ⟨-, -, -, -, -, -, -, -, e0, e1, -⟩ := idx_facts5 ⟨(i 0).val / 2000, ht⟩
  have e0' : win5_4.index ⟨(i 0).val / 2000, ht⟩ (0 : Fin 2) = (i 0).val / 2000 := e0
  intro a
  match a with
  | ⟨0, _⟩ =>
    show win5_4.index ⟨(i 0).val / 2000, ht⟩ (0 : Fin 2) * 2000 ≤ (i 0).val ∧ (i 0).val < win5_4.index ⟨(i 0).val / 2000, ht⟩ (0 : Fin 2) * 2000 + 2000
    omega
  | ⟨1, _⟩ =>
    show win5_4.index ⟨(i 0).val / 2000, ht⟩ (1 : Fin 2) * 256 ≤ (i 1).val ∧ (i 1).val < win5_4.index ⟨(i 0).val / 2000, ht⟩ (1 : Fin 2) * 256 + 256
    omega

theorem final4_5 (c : Dev nD) : (dat5 V c).arrAt 4 cfg5.N = G4_5 V c :=
  (dat5 V c).arrAt_eq_of_cover 4 (G4_5 V c) (fun t _ => flushed4_5 V c t) (cover4_5)

theorem flush5_at5 (c : Dev nD) (t : Fin cfg5.N) (h49 : t.val = 49) (j : S1x256.Idx) :
    (outsAt5 V c t.val t.isLt).2.1 j = G5_5 V c (((cfg5.win 5).blk t).view.emb j) := by
  obtain ⟨u, q, rfl⟩ : ∃ (u : Fin 1) (q : Fin 256), j = ix2 u q := ⟨j 0, j 1, eq_ix2 j⟩
  obtain ⟨-, -, -, -, -, -, -, -, -, -, e0, e1, -⟩ := idx_facts5 t
  have hu : u.val = 0 := by omega
  have e : ((cfg5.win 5).blk t).view.emb (ix2 u q) = ix2 u q := by
    funext a; apply Fin.ext
    match a with
    | ⟨0, _⟩ => show win5_5.index t (0 : Fin 2) * 1 + 1 * u.val = u.val; omega
    | ⟨1, _⟩ => show win5_5.index t (1 : Fin 2) * 256 + 1 * q.val = q.val; omega
  rw [e]
  refine ((acc_inv5 V c u q t.val t.isLt).1).trans ?_
  rw [h49]
  exact congrArg (fun s => zero + s) (stats_sum_all (fun p => rowv5 V c p q))

theorem flush6_at5 (c : Dev nD) (t : Fin cfg5.N) (h49 : t.val = 49) (j : S1x256.Idx) :
    (outsAt5 V c t.val t.isLt).2.2 j = G6_5 V c (((cfg5.win 6).blk t).view.emb j) := by
  obtain ⟨u, q, rfl⟩ : ∃ (u : Fin 1) (q : Fin 256), j = ix2 u q := ⟨j 0, j 1, eq_ix2 j⟩
  obtain ⟨-, -, -, -, -, -, -, -, -, -, -, -, e0, e1⟩ := idx_facts5 t
  have hu : u.val = 0 := by omega
  have e : ((cfg5.win 6).blk t).view.emb (ix2 u q) = ix2 u q := by
    funext a; apply Fin.ext
    match a with
    | ⟨0, _⟩ => show win5_6.index t (0 : Fin 2) * 1 + 1 * u.val = u.val; omega
    | ⟨1, _⟩ => show win5_6.index t (1 : Fin 2) * 256 + 1 * q.val = q.val; omega
  rw [e]
  refine ((acc_inv5 V c u q t.val t.isLt).2).trans ?_
  rw [h49]
  exact congrArg (fun s => zero + s) (stats_sum_all (fun p => rowv5 V c p q * rowv5 V c p q))

/-- The one write-back of each accumulator, after the last point, writes the whole [1 × 256] array. -/
theorem flushed5_5 (c : Dev nD) (t : Fin cfg5.N) (hf : (cfg5.win 5).flush t = true) :
    (dat5 V c).flushed 5 t = ((cfg5.win 5).blk t).view.read (Elt Ideal) (G5_5 V c) := by
  have hN : cfg5.N = 50 := N_5
  have h49 : t.val = 49 := by have := (flush5_5 t).mp hf; have := t.isLt; omega
  show (cfg5.win 5).cut (grid5.coords t) ((dat5 V c).after 5 t) = _
  rw [after5_5]
  funext j
  exact flush5_at5 V c t h49 j

theorem flushed6_5 (c : Dev nD) (t : Fin cfg5.N) (hf : (cfg5.win 6).flush t = true) :
    (dat5 V c).flushed 6 t = ((cfg5.win 6).blk t).view.read (Elt Ideal) (G6_5 V c) := by
  have hN : cfg5.N = 50 := N_5
  have h49 : t.val = 49 := by have := (flush5_6 t).mp hf; have := t.isLt; omega
  show (cfg5.win 6).cut (grid5.coords t) ((dat5 V c).after 6 t) = _
  rw [after5_6]
  funext j
  exact flush6_at5 V c t h49 j

theorem mem_blk5_5 (t : Fin cfg5.N) (i : S1x256.Idx) :
    i ∈ ((cfg5.win 5).blk t).view.set ↔ ∀ a : Fin 2, win5_5.index t a * S1x256.size a ≤ (i a).val ∧ (i a).val < win5_5.index t a * S1x256.size a + S1x256.size a := by
  show i ∈ ((View.whole main_v58_1).slice (win5_5.rect t)).set ↔ _
  rw [View.set_slice_whole, Rect.mem_set_unit]
  exact Iff.rfl

theorem mem_blk6_5 (t : Fin cfg5.N) (i : S1x256.Idx) :
    i ∈ ((cfg5.win 6).blk t).view.set ↔ ∀ a : Fin 2, win5_6.index t a * S1x256.size a ≤ (i a).val ∧ (i a).val < win5_6.index t a * S1x256.size a + S1x256.size a := by
  show i ∈ ((View.whole main_v58_2).slice (win5_6.rect t)).set ↔ _
  rw [View.set_slice_whole, Rect.mem_set_unit]
  exact Iff.rfl

theorem cover5_5 (i : S1x256.Idx) : ∃ t : Fin cfg5.N, (cfg5.win 5).flush t = true ∧ i ∈ ((cfg5.win 5).blk t).view.set := by
  have hi0 : (i 0).val < 1 := (i 0).isLt
  have hi1 : (i 1).val < 256 := (i 1).isLt
  have hN : cfg5.N = 50 := N_5
  have ht : 49 < cfg5.N := by omega
  refine ⟨⟨49, ht⟩, (flush5_5 _).mpr rfl, ?_⟩
  rw [mem_blk5_5]
  obtain ⟨-, -, -, -, -, -, -, -, -, -, e0, e1, -⟩ := idx_facts5 ⟨49, ht⟩
  intro a
  match a with
  | ⟨0, _⟩ =>
    show win5_5.index ⟨49, ht⟩ (0 : Fin 2) * 1 ≤ (i 0).val ∧ (i 0).val < win5_5.index ⟨49, ht⟩ (0 : Fin 2) * 1 + 1
    omega
  | ⟨1, _⟩ =>
    show win5_5.index ⟨49, ht⟩ (1 : Fin 2) * 256 ≤ (i 1).val ∧ (i 1).val < win5_5.index ⟨49, ht⟩ (1 : Fin 2) * 256 + 256
    omega

theorem cover6_5 (i : S1x256.Idx) : ∃ t : Fin cfg5.N, (cfg5.win 6).flush t = true ∧ i ∈ ((cfg5.win 6).blk t).view.set := by
  have hi0 : (i 0).val < 1 := (i 0).isLt
  have hi1 : (i 1).val < 256 := (i 1).isLt
  have hN : cfg5.N = 50 := N_5
  have ht : 49 < cfg5.N := by omega
  refine ⟨⟨49, ht⟩, (flush5_6 _).mpr rfl, ?_⟩
  rw [mem_blk6_5]
  obtain ⟨-, -, -, -, -, -, -, -, -, -, -, -, e0, e1⟩ := idx_facts5 ⟨49, ht⟩
  intro a
  match a with
  | ⟨0, _⟩ =>
    show win5_6.index ⟨49, ht⟩ (0 : Fin 2) * 1 ≤ (i 0).val ∧ (i 0).val < win5_6.index ⟨49, ht⟩ (0 : Fin 2) * 1 + 1
    omega
  | ⟨1, _⟩ =>
    show win5_6.index ⟨49, ht⟩ (1 : Fin 2) * 256 ≤ (i 1).val ∧ (i 1).val < win5_6.index ⟨49, ht⟩ (1 : Fin 2) * 256 + 256
    omega

theorem final5_5 (c : Dev nD) : (dat5 V c).arrAt 5 cfg5.N = G5_5 V c :=
  (dat5 V c).arrAt_eq_of_cover 5 (G5_5 V c) (flushed5_5 V c) (cover5_5)

theorem final6_5 (c : Dev nD) : (dat5 V c).arrAt 6 cfg5.N = G6_5 V c :=
  (dat5 V c).arrAt_eq_of_cover 6 (G6_5 V c) (flushed6_5 V c) (cover6_5)

end Arrays5

/-! ## Region 5: the three results -/

variable (V : (c : Dev nD) → (b : Ref sig .tc) → Buf (Elt Ideal) ((c : Thread nD τ).loc b))

/-- Region 5, output 4: the convolution's value, row block by row block. -/
theorem stats5_hf (c : Dev nD) (p : Fin 100000) (q : Fin 256) :
    at2 ((dat5 (F := Ideal) V c).arrAt 4 cfg5.N) p q
      = (at2 (V c main_v56) p q + at2 (V c main_v49) p q * at2 (V c main_v13) p (0 : Fin 1)) + at2 (V c main_v57) (0 : Fin 1) q := by
  rw [final4_5 V c]

/-- Region 5, output 5: every column's sum over all the nodes, accumulated block by block from zero. -/
theorem stats5_sum (c : Dev nD) (q : Fin 256) :
    at2 ((dat5 (F := Ideal) V c).arrAt 5 cfg5.N) (0 : Fin 1) q
      = zero + ∑ p : Fin 100000, ((at2 (V c main_v56) p q + at2 (V c main_v49) p q * at2 (V c main_v13) p (0 : Fin 1)) + at2 (V c main_v57) (0 : Fin 1) q) := by
  rw [final5_5 V c]

/-- Region 5, output 6: every column's sum of squares over all the nodes. -/
theorem stats5_sq (c : Dev nD) (q : Fin 256) :
    at2 ((dat5 (F := Ideal) V c).arrAt 6 cfg5.N) (0 : Fin 1) q
      = zero + ∑ p : Fin 100000, (((at2 (V c main_v56) p q + at2 (V c main_v49) p q * at2 (V c main_v13) p (0 : Fin 1)) + at2 (V c main_v57) (0 : Fin 1) q)
          * ((at2 (V c main_v56) p q + at2 (V c main_v49) p q * at2 (V c main_v13) p (0 : Fin 1)) + at2 (V c main_v57) (0 : Fin 1) q)) := by
  rw [final6_5 V c]

end Cert.KernelIdeal.RegVal

end
-- ==== Proof.KernelValue2.lean ====
/-
  The idealized kernel program's result, boundary by boundary, second part: from the column sums of the first layer to
  the network's output. Mean and variance are read off the sums; the epilogue gives the first layer's output; the second
  layer repeats the product, the aggregation, the fused add with its sums and the epilogue over that output.
-/
import proofs.«428588_j4063039062434_1_alg».proof.Proof.KernelValue
import proofs.«428588_j4063039062434_1_alg».proof.Proof.RegStats5

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.KVal

open Cert.KernelIdeal Cert.KernelIdeal.Gen Cert.Spec Cert.KernelIdeal.RegVal Cert.KernelIdeal.HostVal

variable (m : (ℓ : Loc nD τ sig) → Buf (Elt Ideal) ℓ) (ρ : Dev nD → PrngReg) (c : Dev nD)

/-! ## A reference no segment up to a boundary touches holds the launch contents there -/

theorem u3 (b : Ref sig .tc) (h0 : ∀ op ∈ (hostOps0 : List (HloOp τ sig (Elt Ideal))), Proc.devRef .tc b ∉ op.writes)
    (r0 : ∀ w, Pipeline.arrRef spec0 w ≠ b) (r1 : ∀ w, Pipeline.arrRef spec1 w ≠ b) :
    W3 m ρ c (Proc.devRef .tc b) = m ((c.tc : Thread nD τ).loc b) :=
  (W3_of_ne m ρ c b r1).trans ((W2_of_ne m ρ c b r0).trans (k1 m ρ c b h0))
theorem u6 (b : Ref sig .tc) (h0 : ∀ op ∈ (hostOps0 : List (HloOp τ sig (Elt Ideal))), Proc.devRef .tc b ∉ op.writes)
    (r0 : ∀ w, Pipeline.arrRef spec0 w ≠ b) (r1 : ∀ w, Pipeline.arrRef spec1 w ≠ b)
    (h2 : ∀ op ∈ (hostOps2 : List (HloOp τ sig (Elt Ideal))), Proc.devRef .tc b ∉ op.writes)
    (h21 : ∀ op ∈ (hostOps2_1 : List (HloOp τ sig (Elt Ideal))), Proc.devRef .tc b ∉ op.writes)
    (r2 : ∀ w, Pipeline.arrRef spec2 w ≠ b) :
    W6 m ρ c (Proc.devRef .tc b) = m ((c.tc : Thread nD τ).loc b) :=
  (W6_of_ne m ρ c b r2).trans ((k5 m ρ c b h21).trans ((k4 m ρ c b h2).trans (u3 m ρ c b h0 r0 r1)))
theorem u9 (b : Ref sig .tc) (h0 : ∀ op ∈ (hostOps0 : List (HloOp τ sig (Elt Ideal))), Proc.devRef .tc b ∉ op.writes)
    (r0 : ∀ w, Pipeline.arrRef spec0 w ≠ b) (r1 : ∀ w, Pipeline.arrRef spec1 w ≠ b)
    (h2 : ∀ op ∈ (hostOps2 : List (HloOp τ sig (Elt Ideal))), Proc.devRef .tc b ∉ op.writes)
    (h21 : ∀ op ∈ (hostOps2_1 : List (HloOp τ sig (Elt Ideal))), Proc.devRef .tc b ∉ op.writes)
    (r2 : ∀ w, Pipeline.arrRef spec2 w ≠ b)
    (h3 : ∀ op ∈ (hostOps3 : List (HloOp τ sig (Elt Ideal))), Proc.devRef .tc b ∉ op.writes)
    (r3 : ∀ w, Pipeline.arrRef spec3 w ≠ b) (r4 : ∀ w, Pipeline.arrRef spec4 w ≠ b) :
    W9 m ρ c (Proc.devRef .tc b) = m ((c.tc : Thread nD τ).loc b) :=
  (W9_of_ne m ρ c b r4).trans ((W8_of_ne m ρ c b r3).trans ((k7 m ρ c b h3).trans (u6 m ρ c b h0 r0 r1 h2 h21 r2)))
theorem u12 (b : Ref sig .tc) (h0 : ∀ op ∈ (hostOps0 : List (HloOp τ sig (Elt Ideal))), Proc.devRef .tc b ∉ op.writes)
    (r0 : ∀ w, Pipeline.arrRef spec0 w ≠ b) (r1 : ∀ w, Pipeline.arrRef spec1 w ≠ b)
    (h2 : ∀ op ∈ (hostOps2 : List (HloOp τ sig (Elt Ideal))), Proc.devRef .tc b ∉ op.writes)
    (h21 : ∀ op ∈ (hostOps2_1 : List (HloOp τ sig (Elt Ideal))), Proc.devRef .tc b ∉ op.writes)
    (r2 : ∀ w, Pipeline.arrRef spec2 w ≠ b)
    (h3 : ∀ op ∈ (hostOps3 : List (HloOp τ sig (Elt Ideal))), Proc.devRef .tc b ∉ op.writes)
    (r3 : ∀ w, Pipeline.arrRef spec3 w ≠ b) (r4 : ∀ w, Pipeline.arrRef spec4 w ≠ b)
    (h5 : ∀ op ∈ (hostOps5 : List (HloOp τ sig (Elt Ideal))), Proc.devRef .tc b ∉ op.writes)
    (h51 : ∀ op ∈ (hostOps5_1 : List (HloOp τ sig (Elt Ideal))), Proc.devRef .tc b ∉ op.writes)
    (r5 : ∀ w, Pipeline.arrRef spec5 w ≠ b) :
    W12 m ρ c (Proc.devRef .tc b) = m ((c.tc : Thread nD τ).loc b) :=
  (W12_of_ne m ρ c b r5).trans ((k11 m ρ c b h51).trans ((k10 m ρ c b h5).trans (u9 m ρ c b h0 r0 r1 h2 h21 r2 h3 r3 r4)))

/-! ## Mean and variance of layer one, and its epilogue -/

theorem s7_mean (hsrc : (inputsAt m c).G.SrcInRange) (q : Fin 256) :
    at2 (W7 m ρ c (Proc.devRef .tc main_v41)) (0 : Fin 1) q = mean (inputsAt m c).hf1 q := by
  refine (host3_mean (W6 m ρ c) q).trans ?_
  rw [s6_sum m ρ c hsrc]; rfl

theorem s7_var (hsrc : (inputsAt m c).G.SrcInRange) (q : Fin 256) :
    at2 (W7 m ρ c (Proc.devRef .tc main_v45)) (0 : Fin 1) q = varSq (inputsAt m c).hf1 q := by
  refine (host3_var (W6 m ρ c) q).trans ?_
  rw [s6_sq m ρ c hsrc, s6_sum m ρ c hsrc]; rfl

theorem s7_g (q : Fin 256) : at2 (W7 m ρ c (Proc.devRef .tc main_v46)) (0 : Fin 1) q = (inputsAt m c).g1 q := by
  refine (host3_g (W6 m ρ c) q).trans ?_
  rw [u6 m ρ c main_arg4 (by no_write) (by decide) (by decide) (by no_write) (by no_write) (by decide)]; rfl

theorem s7_be (q : Fin 256) : at2 (W7 m ρ c (Proc.devRef .tc main_v47)) (0 : Fin 1) q = (inputsAt m c).be1 q := by
  refine (host3_be (W6 m ρ c) q).trans ?_
  rw [u6 m ρ c main_arg5 (by no_write) (by decide) (by decide) (by no_write) (by no_write) (by decide)]; rfl

theorem c7_v39_0 : W7 m ρ c (Proc.devRef .tc main_v39_0) = W6 m ρ c (Proc.devRef .tc main_v39_0) := k7 m ρ c _ (by no_write)
theorem c7_v29 : W7 m ρ c (Proc.devRef .tc main_v29) = W2 m ρ c (Proc.devRef .tc main_v29) :=
  (k7 m ρ c _ (by no_write)).trans ((W6_of_ne m ρ c main_v29 (by decide)).trans ((k5 m ρ c _ (by no_write)).trans
    ((k4 m ρ c _ (by no_write)).trans (c3_v29 m ρ c))))

/-- Region 3 leaves the first layer's output. -/
theorem s8_x2 (hsrc : (inputsAt m c).G.SrcInRange) (p : Fin 100000) (q : Fin 256) :
    at2 (W8 m ρ c (Proc.devRef .tc main_v48)) p q = (inputsAt m c).x2 varSq p q := by
  show at2 (W8 m ρ c (Proc.devRef .tc (Pipeline.arrRef spec3 6))) p q = _
  rw [W8_arr, norm3]
  show at2 (W7 m ρ c (Proc.devRef .tc main_v29)) p q + max (((at2 (W7 m ρ c (Proc.devRef .tc main_v39_0)) p q - at2 (W7 m ρ c (Proc.devRef .tc main_v41)) (0 : Fin 1) q)
      * Ideal.rsqrt (at2 (W7 m ρ c (Proc.devRef .tc main_v45)) (0 : Fin 1) q + eps)) * at2 (W7 m ρ c (Proc.devRef .tc main_v46)) (0 : Fin 1) q
      + at2 (W7 m ρ c (Proc.devRef .tc main_v47)) (0 : Fin 1) q) zero = _
  rw [c7_v29, s2_pre, c7_v39_0, s6_hf m ρ c hsrc, s7_mean m ρ c hsrc, s7_var m ρ c hsrc, s7_g, s7_be]
  rfl

/-! ## Layer two -/

/-- Region 4 leaves the first layer's output times W2. -/
theorem s9_h (hsrc : (inputsAt m c).G.SrcInRange) (p : Fin 100000) (q : Fin 256) :
    at2 (W9 m ρ c (Proc.devRef .tc main_v49)) p q = mm ((inputsAt m c).x2 varSq) (inputsAt m c).W2 p q := by
  show at2 (W9 m ρ c (Proc.devRef .tc (Pipeline.arrRef spec4 2))) p q = _
  rw [W9_arr, mm4]
  show ∑ k : Fin 256, at2 (W8 m ρ c (Proc.devRef .tc main_v48)) p k * at2 (W8 m ρ c (Proc.devRef .tc main_arg6)) k q = _
  rw [show W8 m ρ c (Proc.devRef .tc main_arg6) = m ((c.tc : Thread nD τ).loc main_arg6) from
    (W8_of_ne m ρ c main_arg6 (by decide)).trans ((k7 m ρ c _ (by no_write)).trans
      (u6 m ρ c main_arg6 (by no_write) (by decide) (by decide) (by no_write) (by no_write) (by decide)))]
  exact Finset.sum_congr rfl fun k _ => by rw [s8_x2 m ρ c hsrc]; rfl

theorem c9_v1 : W9 m ρ c (Proc.devRef .tc main_v1) = W1 m ρ c (Proc.devRef .tc main_v1) :=
  (W9_of_ne m ρ c main_v1 (by decide)).trans ((W8_of_ne m ρ c main_v1 (by decide)).trans ((k7 m ρ c _ (by no_write)).trans
    ((W6_of_ne m ρ c main_v1 (by decide)).trans ((k5 m ρ c _ (by no_write)).trans ((k4 m ρ c _ (by no_write)).trans (c3_v1 m ρ c))))))
theorem c9_v3 : W9 m ρ c (Proc.devRef .tc main_v3) = W1 m ρ c (Proc.devRef .tc main_v3) :=
  (W9_of_ne m ρ c main_v3 (by decide)).trans ((W8_of_ne m ρ c main_v3 (by decide)).trans ((k7 m ρ c _ (by no_write)).trans
    ((W6_of_ne m ρ c main_v3 (by decide)).trans ((k5 m ρ c _ (by no_write)).trans ((k4 m ρ c _ (by no_write)).trans (c3_v3 m ρ c))))))
theorem c9_v28 : W9 m ρ c (Proc.devRef .tc main_v28) = W1 m ρ c (Proc.devRef .tc main_v28) :=
  (W9_of_ne m ρ c main_v28 (by decide)).trans ((W8_of_ne m ρ c main_v28 (by decide)).trans ((k7 m ρ c _ (by no_write)).trans
    ((W6_of_ne m ρ c main_v28 (by decide)).trans ((k5 m ρ c _ (by no_write)).trans ((k4 m ρ c _ (by no_write)).trans (c3_v28 m ρ c))))))
theorem c9_v13 : W9 m ρ c (Proc.devRef .tc main_v13) = W1 m ρ c (Proc.devRef .tc main_v13) :=
  (W9_of_ne m ρ c main_v13 (by decide)).trans ((W8_of_ne m ρ c main_v13 (by decide)).trans ((k7 m ρ c _ (by no_write)).trans
    ((in6_v13 m ρ c).trans (c5_v13 m ρ c))))

theorem src9 (hsrc : (inputsAt m c).G.SrcInRange) (e : Fin 800000) :
    0 ≤ (wat1 (W9 m ρ c (Proc.devRef .tc main_v1)) e).toInt ∧ (wat1 (W9 m ρ c (Proc.devRef .tc main_v1)) e).toInt < 100000 := by
  rw [c9_v1, s1_src]; exact hsrc e

theorem s11_agg (hsrc : (inputsAt m c).G.SrcInRange) (p : Fin 100000) (q : Fin 256) :
    at2 (W11 m ρ c (Proc.devRef .tc main_v56)) p q = (inputsAt m c).G.agg (mm ((inputsAt m c).x2 varSq) (inputsAt m c).W2) p q := by
  refine (host5_agg (W9 m ρ c) (src9 m ρ c hsrc) p q).trans ?_
  unfold Graph.agg Graph.into Graph.landsOn
  rw [c9_v1, c9_v3, c9_v28]
  refine congrArg (zero + ·) (Finset.sum_congr (Finset.filter_congr fun e _ => by rw [s1_dst]) fun e _ => ?_)
  rw [s1_src, s1_nrm, s9_h m ρ c hsrc]

theorem s11_b (q : Fin 256) : at2 (W11 m ρ c (Proc.devRef .tc main_v57)) (0 : Fin 1) q = (inputsAt m c).b2 q := by
  refine (host5_b (W9 m ρ c) q).trans ?_
  rw [u9 m ρ c main_arg7 (by no_write) (by decide) (by decide) (by no_write) (by no_write) (by decide) (by no_write) (by decide) (by decide)]; rfl

theorem c11_v49 : W11 m ρ c (Proc.devRef .tc main_v49) = W9 m ρ c (Proc.devRef .tc main_v49) :=
  (k11 m ρ c _ (by no_write)).trans (k10 m ρ c _ (by no_write))
theorem c11_v13 : W11 m ρ c (Proc.devRef .tc main_v13) = W1 m ρ c (Proc.devRef .tc main_v13) :=
  (k11 m ρ c _ (by no_write)).trans ((k10 m ρ c _ (by no_write)).trans (c9_v13 m ρ c))

theorem hf11 (hsrc : (inputsAt m c).G.SrcInRange) (p : Fin 100000) (q : Fin 256) :
    (at2 (W11 m ρ c (Proc.devRef .tc main_v56)) p q + at2 (W11 m ρ c (Proc.devRef .tc main_v49)) p q * at2 (W11 m ρ c (Proc.devRef .tc main_v13)) p (0 : Fin 1))
      + at2 (W11 m ρ c (Proc.devRef .tc main_v57)) (0 : Fin 1) q = (inputsAt m c).hf2 varSq p q := by
  rw [s11_agg m ρ c hsrc, s11_b, c11_v49, s9_h m ρ c hsrc, c11_v13, s1_dinv]
  rfl

theorem s12_hf (hsrc : (inputsAt m c).G.SrcInRange) (p : Fin 100000) (q : Fin 256) :
    at2 (W12 m ρ c (Proc.devRef .tc main_v58_0)) p q = (inputsAt m c).hf2 varSq p q := by
  show at2 (W12 m ρ c (Proc.devRef .tc (Pipeline.arrRef spec5 4))) p q = _
  rw [W12_arr, stats5_hf]
  exact hf11 m ρ c hsrc p q

theorem s12_sum (hsrc : (inputsAt m c).G.SrcInRange) (q : Fin 256) :
    at2 (W12 m ρ c (Proc.devRef .tc main_v58_1)) (0 : Fin 1) q = colsum ((inputsAt m c).hf2 varSq) q := by
  show at2 (W12 m ρ c (Proc.devRef .tc (Pipeline.arrRef spec5 5))) (0 : Fin 1) q = _
  rw [W12_arr, stats5_sum]
  exact congrArg (zero + ·) (Finset.sum_congr rfl fun p _ => hf11 m ρ c hsrc p q)

theorem s12_sq (hsrc : (inputsAt m c).G.SrcInRange) (q : Fin 256) :
    at2 (W12 m ρ c (Proc.devRef .tc main_v58_2)) (0 : Fin 1) q
      = colsum (fun p q => (inputsAt m c).hf2 varSq p q * (inputsAt m c).hf2 varSq p q) q := by
  show at2 (W12 m ρ c (Proc.devRef .tc (Pipeline.arrRef spec5 6))) (0 : Fin 1) q = _
  rw [W12_arr, stats5_sq]
  exact congrArg (zero + ·) (Finset.sum_congr rfl fun p _ => by rw [hf11 m ρ c hsrc p q])

theorem s13_mean (hsrc : (inputsAt m c).G.SrcInRange) (q : Fin 256) :
    at2 (W13 m ρ c (Proc.devRef .tc main_v60)) (0 : Fin 1) q = mean ((inputsAt m c).hf2 varSq) q := by
  refine (host6_mean (W12 m ρ c) q).trans ?_
  rw [s12_sum m ρ c hsrc]; rfl

theorem s13_var (hsrc : (inputsAt m c).G.SrcInRange) (q : Fin 256) :
    at2 (W13 m ρ c (Proc.devRef .tc main_v64)) (0 : Fin 1) q = varSq ((inputsAt m c).hf2 varSq) q := by
  refine (host6_var (W12 m ρ c) q).trans ?_
  rw [s12_sq m ρ c hsrc, s12_sum m ρ c hsrc]; rfl

theorem s13_g (q : Fin 256) : at2 (W13 m ρ c (Proc.devRef .tc main_v65)) (0 : Fin 1) q = (inputsAt m c).g2 q := by
  refine (host6_g (W12 m ρ c) q).trans ?_
  rw [u12 m ρ c main_arg8 (by no_write) (by decide) (by decide) (by no_write) (by no_write) (by decide) (by no_write) (by decide) (by decide) (by no_write) (by no_write) (by decide)]; rfl

theorem s13_be (q : Fin 256) : at2 (W13 m ρ c (Proc.devRef .tc main_v66)) (0 : Fin 1) q = (inputsAt m c).be2 q := by
  refine (host6_be (W12 m ρ c) q).trans ?_
  rw [u12 m ρ c main_arg9 (by no_write) (by decide) (by decide) (by no_write) (by no_write) (by decide) (by no_write) (by decide) (by decide) (by no_write) (by no_write) (by decide)]; rfl

theorem c13_v58_0 : W13 m ρ c (Proc.devRef .tc main_v58_0) = W12 m ρ c (Proc.devRef .tc main_v58_0) := k13 m ρ c _ (by no_write)
theorem c13_v48 : W13 m ρ c (Proc.devRef .tc main_v48) = W8 m ρ c (Proc.devRef .tc main_v48) :=
  (k13 m ρ c _ (by no_write)).trans ((W12_of_ne m ρ c main_v48 (by decide)).trans ((k11 m ρ c _ (by no_write)).trans
    ((k10 m ρ c _ (by no_write)).trans (in9_v48 m ρ c))))

/-- THE RESULT: what the last region leaves in the result buffer is the specification's output, with the variance as the
    mean of squares minus the squared mean. -/
theorem kernel_value (hsrc : (inputsAt m c).G.SrcInRange) (p : Fin 100000) (q : Fin 256) :
    at2 (W14 m ρ c (Proc.devRef .tc main_v67)) p q = (inputsAt m c).out varSq p q := by
  show at2 (W14 m ρ c (Proc.devRef .tc (Pipeline.arrRef spec6 6))) p q = _
  rw [W14_arr, norm6]
  show at2 (W13 m ρ c (Proc.devRef .tc main_v48)) p q + max (((at2 (W13 m ρ c (Proc.devRef .tc main_v58_0)) p q - at2 (W13 m ρ c (Proc.devRef .tc main_v60)) (0 : Fin 1) q)
      * Ideal.rsqrt (at2 (W13 m ρ c (Proc.devRef .tc main_v64)) (0 : Fin 1) q + eps)) * at2 (W13 m ρ c (Proc.devRef .tc main_v65)) (0 : Fin 1) q
      + at2 (W13 m ρ c (Proc.devRef .tc main_v66)) (0 : Fin 1) q) zero = _
  rw [c13_v48, s8_x2 m ρ c hsrc, c13_v58_0, s12_hf m ρ c hsrc, s13_mean m ρ c hsrc, s13_var m ρ c hsrc, s13_g, s13_be]
  rfl

end Cert.KernelIdeal.KVal

end
-- ==== Proof.RefLayer1.lean ====
/-
  The reference's first half, stage by stage at coordinates: the edge words, the degree and the two weights derived from
  it, and the first layer — product, gathered messages, scatter-add, self loop and bias, column mean and variance (as the
  mean of squared deviations), normalisation, clip at zero and residual.
-/
import proofs.«428588_j4063039062434_1_alg».proof.Proof.Gen.ReferenceIdeal.Read
import proofs.«428588_j4063039062434_1_alg».proof.Proof.Spec
import proofs.«428588_j4063039062434_1_alg».proof.Proof.LibGatherScatter
import Idealize.ShloMosaic.Lib.StableHlo.Predicate
import Idealize.ShloMosaic.Lib.ValueLayout

noncomputable section

open Idealize.ShloMosaic Idealize.ShloMosaic.TcCoe Idealize.SL.Sem Idealize.ShloMosaic.ValueIdx
open Idealize.ShloMosaic.StableHlo.Predicate
open scoped BigOperators

namespace Cert.ReferenceIdeal.RefValue

open Cert.ReferenceIdeal Cert.ReferenceIdeal.Gen Cert.ReferenceIdeal.Read Cert.Spec

variable (x0 : S2x800000.Idx → BitVec 32) (x1 : S100000x128.Idx → EReal) (x2 : S128x256.Idx → EReal)
  (x3 x4 x5 : S256.Idx → EReal) (x6 : S256x256.Idx → EReal) (x7 x8 x9 : S256.Idx → EReal) (x10 : S128x256.Idx → EReal)

/-! ## The edge words -/

theorem ref_src (e : Fin 800000) : wat1 (val_main_v1 (F := Ideal) x0) e = (graphOfEdges x0).src e := by
  show val_main_v1 (F := Ideal) x0 (ix1 e) = x0 (ix2 (0 : Fin 2) e)
  rw [val_main_v1_apply, val_main_v0_apply]
  congr 1
  funext a
  apply Fin.ext
  match a with
  | ⟨0, _⟩ => rfl
  | ⟨1, _⟩ => exact Nat.mod_eq_of_lt e.isLt

theorem ref_dst (e : Fin 800000) : wat1 (val_main_v3 (F := Ideal) x0) e = (graphOfEdges x0).dst e := by
  show val_main_v3 (F := Ideal) x0 (ix1 e) = x0 (ix2 (1 : Fin 2) e)
  rw [val_main_v3_apply, val_main_v2_apply]
  congr 1
  funext a
  apply Fin.ext
  match a with
  | ⟨0, _⟩ => rfl
  | ⟨1, _⟩ => exact Nat.mod_eq_of_lt e.isLt

/-! ## The degree and the two weights derived from it -/

/-- The column of destination words the degree's scatter-add reads, at row `e`. -/
theorem v6_at (e : Fin 800000) : val_main_v6 (F := Ideal) x0 (ixP e) = (graphOfEdges x0).dst e := by
  rw [val_main_v6_apply]
  have h : idx_main_v6 (ixP e) = ix1 e := funext fun a => Fin.ext (by match a with | ⟨0, _⟩ => rfl)
  rw [h]
  exact ref_dst x0 e

/-- The update rows landing on node `p` are the edges landing on `p`. -/
theorem lands_v6 (p : Fin 100000) :
    Finset.univ.filter (fun e : Fin 800000 => RowOps.lands (n := 800000) (w := 32) (val_main_v6 (F := Ideal) x0) e p.val)
      = (graphOfEdges x0).into p := by
  unfold Graph.into
  refine Finset.filter_congr fun e _ => ?_
  unfold RowOps.lands Graph.landsOn
  rw [v6_at]

/-- The degree's scatter-add over variable tables: the operand at node `p` plus the updates of the rows landing on `p`. -/
theorem scatter1_at (v : S100000.Idx → EReal) (idx : S800000x1.Idx → BitVec 32) (upd : S800000.Idx → EReal)
    (p : Fin 100000) :
    Host.scatterAdd (F := Ideal) (φ := .f32) scatter_S100000_S800000x1_S800000_n_0_0_1 v idx upd (ix1 p)
      = v (ix1 p) + ∑ e ∈ Finset.univ.filter (fun e : Fin 800000 => RowOps.lands idx e p.val), upd (ix1 e) := by
  unfold Host.scatterAdd
  rw [Ideal.hostScatterAdd_def]
  exact RowOps.scatterAdd_row1 _ rfl rfl rfl rfl v idx upd p

/-- A sum of a table that holds the constant `c`. -/
theorem sum_tbl_const (u : S800000.Idx → EReal) (c : EReal) (hu : ∀ e : Fin 800000, u (ix1 e) = c)
    (s : Finset (Fin 800000)) : ∑ e ∈ s, u (ix1 e) = ∑ _e ∈ s, c :=
  Finset.sum_congr rfl fun e _ => hu e

theorem v4_at (e : Fin 800000) : val_main_v4 (F := Ideal) (ix1 e) = one := by
  rw [val_main_v4_apply, val_main_cst_apply, Ideal.ofBits_def]

/-- The scatter-add of ones: zero plus one per edge landing on `p`. -/
theorem v7_at (p : Fin 100000) :
    val_main_v7 (F := Ideal) x0 (ix1 p) = zero + ∑ _e ∈ (graphOfEdges x0).into p, one := by
  unfold val_main_v7
  rw [scatter1_at, lands_v6, sum_tbl_const _ one v4_at, val_main_v5_apply, val_main_cst_0_apply, Ideal.ofBits_def]

theorem v9_at (p : Fin 100000) : val_main_v9 (F := Ideal) x0 (ix1 p) = (graphOfEdges x0).deg p := by
  unfold Graph.deg
  rw [val_main_v9_apply, v7_at, val_main_v8_apply, val_main_cst_1_apply, Ideal.addf_def, Ideal.ofBits_def]

theorem ref_dinv (p : Fin 100000) : at1 (val_main_v11 (F := Ideal) x0) p = (graphOfEdges x0).dinv p := by
  show val_main_v11 (F := Ideal) x0 (ix1 p) = _
  unfold Graph.dinv
  rw [val_main_v11_apply, v9_at, val_main_v10_apply, val_main_cst_2_apply, Ideal.hostDivf_def, Ideal.ofBits_def]

theorem ref_dsq (p : Fin 100000) : at1 (val_main_v12 (F := Ideal) x0) p = (graphOfEdges x0).dsq p := by
  show val_main_v12 (F := Ideal) x0 (ix1 p) = _
  unfold Graph.dsq
  rw [val_main_v12_apply, v9_at, Ideal.hostUnary_rsqrt_def]

/-! ## Host gathers and scatter-adds over variable tables -/

/-- Two index functions agree coordinate by coordinate, by computation (rank 1 and rank 2). -/
local macro "idx_rfl1" : tactic =>
  `(tactic| exact funext fun a => Fin.ext (by match a with | ⟨0, _⟩ => rfl))
local macro "idx_rfl2" : tactic =>
  `(tactic| exact funext fun a => Fin.ext (by match a with | ⟨0, _⟩ => rfl | ⟨1, _⟩ => rfl))

/-- A column whose row `e` holds the word `w` names, clamped, the row `rowOf w`. -/
theorem clampRow_eq_rowOf (hN : 0 < 100000) (idx : IVec ⟨2, ![800000, 1]⟩ 32) (e : Fin 800000) (w : BitVec 32)
    (h : idx (ixP e) = w) : RowOps.clampRow 100000 hN idx e = rowOf w := by
  subst h
  rfl

/-- A gather of a node vector at a column of words reads, at row `e`, the vector at the row the word names. -/
theorem gather1_at (g : S100000.Idx → EReal) (idx : S800000x1.Idx → BitVec 32) (e : Fin 800000) (w : BitVec 32)
    (h : idx (ixP e) = w) :
    Host.gather gather_S100000_S800000x1_S800000_n_0_n_n_0_1_1 g idx (ix1 e) = g (ix1 (rowOf w)) := by
  have hN : 0 < 100000 := by omega
  rw [RowOps.gather_row1 gather_S100000_S800000x1_S800000_n_0_n_n_0_1_1 rfl rfl rfl rfl g idx e hN,
    clampRow_eq_rowOf hN idx e w h]

/-- A gather of the rows of a node table at a column of words reads, at row `e`, the table's row the word names. -/
theorem gather2_at (g : S100000x256.Idx → EReal) (idx : S800000x1.Idx → BitVec 32) (e : Fin 800000) (q : Fin 256)
    (w : BitVec 32) (h : idx (ixP e) = w) :
    Host.gather gather_S100000x256_S800000x1_S800000x256_1_0_n_n_0_1_1256 g idx (ix2 e q) = g (ix2 (rowOf w) q) := by
  have hN : 0 < 100000 := by omega
  rw [RowOps.gather_rows gather_S100000x256_S800000x1_S800000x256_1_0_n_n_0_1_1256 rfl rfl rfl rfl rfl rfl g idx e q hN,
    clampRow_eq_rowOf hN idx e w h]

/-- The scatter-add of rows over variable tables: the operand at (p, q) plus column `q` of the update rows landing on `p`. -/
theorem scatter2_at (v : S100000x256.Idx → EReal) (idx : S800000x1.Idx → BitVec 32) (upd : S800000x256.Idx → EReal)
    (p : Fin 100000) (q : Fin 256) :
    Host.scatterAdd (F := Ideal) (φ := .f32) scatter_S100000x256_S800000x1_S800000x256_1_0_0_1 v idx upd (ix2 p q)
      = v (ix2 p q) + ∑ e ∈ Finset.univ.filter (fun e : Fin 800000 => RowOps.lands idx e p.val), upd (ix2 e q) := by
  unfold Host.scatterAdd
  rw [Ideal.hostScatterAdd_def]
  exact RowOps.scatterAdd_rows _ rfl rfl rfl rfl v idx upd p q

/-- A sum over edges of column `q` of a table whose rows are known. -/
theorem sum_tbl2 (u : S800000x256.Idx → EReal) (g : Fin 800000 → EReal) (q : Fin 256)
    (hu : ∀ e : Fin 800000, u (ix2 e q) = g e) (s : Finset (Fin 800000)) : ∑ e ∈ s, u (ix2 e q) = ∑ e ∈ s, g e :=
  Finset.sum_congr rfl fun e _ => hu e

/-! ## The wrapped words, the rows they name, and the edge weight -/

/-- The wrapped source word (first copy: for the weight's gather). -/
theorem v19_at (e : Fin 800000) : val_main_v19 (F := Ideal) x0 (ix1 e) = wrap ((graphOfEdges x0).src e) := by
  rw [val_main_v19_apply, val_main_v16_apply, val_main_v18_apply, val_main_v15_apply, val_main_c_apply,
    val_main_v17_apply, val_main_c_3_apply,
    show val_main_v1 (F := Ideal) x0 (ix1 e) = (graphOfEdges x0).src e from ref_src x0 e]
  rfl

theorem v20_at (e : Fin 800000) : val_main_v20 (F := Ideal) x0 (ixP e) = wrap ((graphOfEdges x0).src e) := by
  rw [val_main_v20_apply]
  have h : idx_main_v20 (ixP e) = ix1 e := by idx_rfl1
  rw [h]
  exact v19_at x0 e

/-- The wrapped destination word. -/
theorem v26_at (e : Fin 800000) : val_main_v26 (F := Ideal) x0 (ix1 e) = wrap ((graphOfEdges x0).dst e) := by
  rw [val_main_v26_apply, val_main_v23_apply, val_main_v25_apply, val_main_v22_apply, val_main_c_4_apply,
    val_main_v24_apply, val_main_c_5_apply,
    show val_main_v3 (F := Ideal) x0 (ix1 e) = (graphOfEdges x0).dst e from ref_dst x0 e]
  rfl

theorem v27_at (e : Fin 800000) : val_main_v27 (F := Ideal) x0 (ixP e) = wrap ((graphOfEdges x0).dst e) := by
  rw [val_main_v27_apply]
  have h : idx_main_v27 (ixP e) = ix1 e := by idx_rfl1
  rw [h]
  exact v26_at x0 e

/-- The wrapped source word (second copy: for the gather of the product's rows). -/
theorem v34_at (e : Fin 800000) : val_main_v34 (F := Ideal) x0 (ix1 e) = wrap ((graphOfEdges x0).src e) := by
  rw [val_main_v34_apply, val_main_v31_apply, val_main_v33_apply, val_main_v30_apply, val_main_c_6_apply,
    val_main_v32_apply, val_main_c_7_apply,
    show val_main_v1 (F := Ideal) x0 (ix1 e) = (graphOfEdges x0).src e from ref_src x0 e]
  rfl

theorem v35_at (e : Fin 800000) : val_main_v35 (F := Ideal) x0 (ixP e) = wrap ((graphOfEdges x0).src e) := by
  rw [val_main_v35_apply]
  have h : idx_main_v35 (ixP e) = ix1 e := by idx_rfl1
  rw [h]
  exact v34_at x0 e

/-- rsqrt(deg) gathered at the source row. -/
theorem v21_at (e : Fin 800000) :
    val_main_v21 (F := Ideal) x0 (ix1 e) = (graphOfEdges x0).dsq (rowOf (wrap ((graphOfEdges x0).src e))) := by
  unfold val_main_v21
  rw [gather1_at _ _ e _ (v20_at x0 e)]
  exact ref_dsq x0 _

/-- rsqrt(deg) gathered at the destination row. -/
theorem v28_at (e : Fin 800000) :
    val_main_v28 (F := Ideal) x0 (ix1 e) = (graphOfEdges x0).dsq (rowOf (wrap ((graphOfEdges x0).dst e))) := by
  unfold val_main_v28
  rw [gather1_at _ _ e _ (v27_at x0 e)]
  exact ref_dsq x0 _

/-- The edge weight. -/
theorem v29_at (e : Fin 800000) : val_main_v29 (F := Ideal) x0 (ix1 e) = (graphOfEdges x0).nrm e := by
  unfold Graph.nrm
  rw [val_main_v29_apply, Ideal.mulf_def, v21_at, v28_at]

/-- The edge weight spread along the feature axis. -/
theorem v38_at (e : Fin 800000) (q : Fin 256) : val_main_v38 (F := Ideal) x0 (ix2 e q) = (graphOfEdges x0).nrm e := by
  rw [val_main_v38_apply, val_main_v37_apply]
  have h : idx_main_v37 (idx_main_v38 (ix2 e q)) = ix1 e := by idx_rfl1
  rw [h]
  exact v29_at x0 e

/-! ## The first layer: product, messages, scatter-add, self loop and bias -/

/-- The first layer's product x·W1 by coordinates. -/
abbrev h1 : Fin 100000 → Fin 256 → EReal := mm (fun p k => x1 (ix2 p k)) (fun k q => x2 (ix2 k q))

theorem v14_at (p : Fin 100000) (q : Fin 256) : val_main_v14 (F := Ideal) x1 x2 (ix2 p q) = h1 x1 x2 p q := by
  rw [val_main_v14_apply]
  show _ = ∑ k : Fin 128, x1 (ix2 p k) * x2 (ix2 k q)
  refine Finset.sum_congr rfl fun k _ => ?_
  have hl : lidx_main_v14 (ix2 p q) k = ix2 p k := by idx_rfl2
  have hr : ridx_main_v14 (ix2 p q) k = ix2 k q := by idx_rfl2
  rw [hl, hr]

/-- The carried features x·Wres. -/
theorem v13_at (p : Fin 100000) (q : Fin 256) :
    val_main_v13 (F := Ideal) x1 x10 (ix2 p q) = mm (fun p k => x1 (ix2 p k)) (fun k q => x10 (ix2 k q)) p q := by
  rw [val_main_v13_apply]
  show _ = ∑ k : Fin 128, x1 (ix2 p k) * x10 (ix2 k q)
  refine Finset.sum_congr rfl fun k _ => ?_
  have hl : lidx_main_v13 (ix2 p q) k = ix2 p k := by idx_rfl2
  have hr : ridx_main_v13 (ix2 p q) k = ix2 k q := by idx_rfl2
  rw [hl, hr]

/-- The product's row at the edge's source row. -/
theorem v36_at (e : Fin 800000) (q : Fin 256) :
    val_main_v36 (F := Ideal) x0 x1 x2 (ix2 e q) = h1 x1 x2 (rowOf (wrap ((graphOfEdges x0).src e))) q := by
  unfold val_main_v36
  rw [gather2_at _ _ e q _ (v35_at x0 e)]
  exact v14_at x1 x2 _ q

/-- The message of edge `e`. -/
theorem v39_at (e : Fin 800000) (q : Fin 256) :
    val_main_v39 (F := Ideal) x0 x1 x2 (ix2 e q)
      = h1 x1 x2 (rowOf (wrap ((graphOfEdges x0).src e))) q * (graphOfEdges x0).nrm e := by
  rw [val_main_v39_apply, Ideal.mulf_def, v36_at, v38_at]

theorem v41_at (e : Fin 800000) : val_main_v41 (F := Ideal) x0 (ixP e) = (graphOfEdges x0).dst e := by
  rw [val_main_v41_apply]
  have h : idx_main_v41 (ixP e) = ix1 e := by idx_rfl1
  rw [h]
  exact ref_dst x0 e

theorem lands_v41 (p : Fin 100000) :
    Finset.univ.filter (fun e : Fin 800000 => RowOps.lands (n := 800000) (w := 32) (val_main_v41 (F := Ideal) x0) e p.val)
      = (graphOfEdges x0).into p := by
  unfold Graph.into
  refine Finset.filter_congr fun e _ => ?_
  unfold RowOps.lands Graph.landsOn
  rw [v41_at]

/-- The messages summed at node `p`. -/
theorem v42_at (p : Fin 100000) (q : Fin 256) :
    val_main_v42 (F := Ideal) x0 x1 x2 (ix2 p q) = (graphOfEdges x0).agg (h1 x1 x2) p q := by
  unfold val_main_v42 Graph.agg
  rw [scatter2_at, lands_v41,
    sum_tbl2 _ (fun e => h1 x1 x2 (rowOf (wrap ((graphOfEdges x0).src e))) q * (graphOfEdges x0).nrm e) q
      (fun e => v39_at x0 x1 x2 e q),
    val_main_v40_apply, val_main_cst_8_apply, Ideal.ofBits_def]

/-- The self-loop weight spread along the feature axis. -/
theorem v44_at (p : Fin 100000) (q : Fin 256) : val_main_v44 (F := Ideal) x0 (ix2 p q) = (graphOfEdges x0).dinv p := by
  rw [val_main_v44_apply, val_main_v43_apply]
  have h : idx_main_v43 (idx_main_v44 (ix2 p q)) = ix1 p := by idx_rfl1
  rw [h]
  exact ref_dinv x0 p

/-- The bias spread along the node axis. -/
theorem v48_at (p : Fin 100000) (q : Fin 256) : val_main_v48 (F := Ideal) x3 (ix2 p q) = x3 (ix1 q) := by
  rw [val_main_v48_apply, val_main_v47_apply]
  have h : idx_main_v47 (idx_main_v48 (ix2 p q)) = ix1 q := by idx_rfl1
  rw [h]

/-- The convolution's output before normalisation. -/
theorem v49_at (p : Fin 100000) (q : Fin 256) :
    val_main_v49 (F := Ideal) x0 x1 x2 x3 (ix2 p q)
      = (graphOfEdges x0).conv (h1 x1 x2) (fun q => x3 (ix1 q)) p q := by
  unfold Graph.conv
  rw [val_main_v49_apply, Ideal.addf_def, val_main_v46_apply, Ideal.addf_def, val_main_v45_apply, Ideal.mulf_def,
    v42_at, v14_at, v44_at, v48_at]

/-- The carried features x·Wres (the reference's value 13). -/
theorem ref_pre (p : Fin 100000) (q : Fin 256) :
    at2 (val_main_v13 (F := Ideal) x1 x10) p q = (inputsOf x0 x1 x2 x3 x4 x5 x6 x7 x8 x9 x10).pre p q :=
  v13_at x1 x10 p q

/-- The first layer's convolution output before normalisation (the reference's value 49). -/
theorem ref_hf1 (p : Fin 100000) (q : Fin 256) :
    at2 (val_main_v49 (F := Ideal) x0 x1 x2 x3) p q = (inputsOf x0 x1 x2 x3 x4 x5 x6 x7 x8 x9 x10).hf1 p q :=
  v49_at x0 x1 x2 x3 p q

/-! ## Column mean and variance, normalisation, clip at zero and residual

Stated over a table `f` that value 49 holds and a table `pre` that value 13 holds, so that the arithmetic is on
plain names. -/

/-- A column sum of a node table whose elements are known, the summation index running through an index function. -/
theorem sum_col (u : S100000x256.Idx → EReal) (g : Fin 100000 → Fin 256 → EReal)
    (hu : ∀ p q, u (ix2 p q) = g p q) (q : Fin 256) (I : S256.Idx → Fin 100000 → S100000x256.Idx)
    (hI : ∀ k, I (ix1 q) k = ix2 k q) :
    ∑ k : Fin 100000, u (I (ix1 q) k) = ∑ p : Fin 100000, g p q :=
  Finset.sum_congr rfl fun k _ => by rw [hI, hu]

section Stats

variable (f pre : Fin 100000 → Fin 256 → EReal)

/-- The squared deviations of `f` from its column mean. -/
abbrev dev2 : Fin 100000 → Fin 256 → EReal := fun p q => (f p q - mean f q) * (f p q - mean f q)

theorem v50_at (h49 : ∀ p q, val_main_v49 (F := Ideal) x0 x1 x2 x3 (ix2 p q) = f p q) (q : Fin 256) :
    val_main_v50 (F := Ideal) x0 x1 x2 x3 (ix1 q) = colsum f q := by
  unfold colsum
  rw [val_main_v50_apply, val_main_cst_9_apply, Ideal.ofBits_def,
    sum_col (val_main_v49 (F := Ideal) x0 x1 x2 x3) f h49 q idx_main_v50 (fun k => by idx_rfl2)]

theorem v52_at (h49 : ∀ p q, val_main_v49 (F := Ideal) x0 x1 x2 x3 (ix2 p q) = f p q) (q : Fin 256) :
    val_main_v52 (F := Ideal) x0 x1 x2 x3 (ix1 q) = mean f q := by
  unfold mean
  rw [val_main_v52_apply, Ideal.hostDivf_def, v50_at x0 x1 x2 x3 f h49, val_main_v51_apply, val_main_cst_10_apply,
    Ideal.ofBits_def]

theorem v54_at (h49 : ∀ p q, val_main_v49 (F := Ideal) x0 x1 x2 x3 (ix2 p q) = f p q) (p : Fin 100000) (q : Fin 256) :
    val_main_v54 (F := Ideal) x0 x1 x2 x3 (ix2 p q) = mean f q := by
  rw [val_main_v54_apply, val_main_v53_apply]
  have h : idx_main_v53 (idx_main_v54 (ix2 p q)) = ix1 q := by idx_rfl1
  rw [h]
  exact v52_at x0 x1 x2 x3 f h49 q

theorem v56_at (h49 : ∀ p q, val_main_v49 (F := Ideal) x0 x1 x2 x3 (ix2 p q) = f p q) (p : Fin 100000) (q : Fin 256) :
    val_main_v56 (F := Ideal) x0 x1 x2 x3 (ix2 p q) = dev2 f p q := by
  rw [val_main_v56_apply, Ideal.mulf_def, val_main_v55_apply, Ideal.subf_def, h49, v54_at x0 x1 x2 x3 f h49]

theorem v57_at (h49 : ∀ p q, val_main_v49 (F := Ideal) x0 x1 x2 x3 (ix2 p q) = f p q) (q : Fin 256) :
    val_main_v57 (F := Ideal) x0 x1 x2 x3 (ix1 q) = colsum (dev2 f) q := by
  unfold colsum
  rw [val_main_v57_apply, val_main_cst_11_apply, Ideal.ofBits_def,
    sum_col (val_main_v56 (F := Ideal) x0 x1 x2 x3) (dev2 f) (v56_at x0 x1 x2 x3 f h49) q idx_main_v57
      (fun k => by idx_rfl2)]

/-- The variance as the mean of squared deviations. -/
theorem v59_at (h49 : ∀ p q, val_main_v49 (F := Ideal) x0 x1 x2 x3 (ix2 p q) = f p q) (q : Fin 256) :
    val_main_v59 (F := Ideal) x0 x1 x2 x3 (ix1 q) = varDev f q := by
  unfold varDev
  rw [val_main_v59_apply, Ideal.hostDivf_def, v57_at x0 x1 x2 x3 f h49, val_main_v58_apply, val_main_cst_12_apply,
    Ideal.ofBits_def]

theorem v62_at (h49 : ∀ p q, val_main_v49 (F := Ideal) x0 x1 x2 x3 (ix2 p q) = f p q) (p : Fin 100000) (q : Fin 256) :
    val_main_v62 (F := Ideal) x0 x1 x2 x3 (ix2 p q) = f p q - mean f q := by
  have h : idx_main_v60 (idx_main_v61 (ix2 p q)) = ix1 q := by idx_rfl1
  rw [val_main_v62_apply, Ideal.subf_def, h49, val_main_v61_apply, val_main_v60_apply, h, v52_at x0 x1 x2 x3 f h49]

theorem v65_at (h49 : ∀ p q, val_main_v49 (F := Ideal) x0 x1 x2 x3 (ix2 p q) = f p q) (q : Fin 256) :
    val_main_v65 (F := Ideal) x0 x1 x2 x3 (ix1 q) = Ideal.rsqrt (varDev f q + eps) := by
  rw [val_main_v65_apply, Ideal.hostUnary_rsqrt_def, val_main_v64_apply, Ideal.addf_def, v59_at x0 x1 x2 x3 f h49,
    val_main_v63_apply, val_main_cst_13_apply, Ideal.ofBits_def]

theorem v68_at (h49 : ∀ p q, val_main_v49 (F := Ideal) x0 x1 x2 x3 (ix2 p q) = f p q) (p : Fin 100000) (q : Fin 256) :
    val_main_v68 (F := Ideal) x0 x1 x2 x3 (ix2 p q) = (f p q - mean f q) * Ideal.rsqrt (varDev f q + eps) := by
  have h : idx_main_v66 (idx_main_v67 (ix2 p q)) = ix1 q := by idx_rfl1
  rw [val_main_v68_apply, Ideal.mulf_def, v62_at x0 x1 x2 x3 f h49, val_main_v67_apply, val_main_v66_apply, h,
    v65_at x0 x1 x2 x3 f h49]

theorem v70_at (p : Fin 100000) (q : Fin 256) : val_main_v70 (F := Ideal) x4 (ix2 p q) = x4 (ix1 q) := by
  rw [val_main_v70_apply, val_main_v69_apply]
  have h : idx_main_v69 (idx_main_v70 (ix2 p q)) = ix1 q := by idx_rfl1
  rw [h]

theorem v73_at (p : Fin 100000) (q : Fin 256) : val_main_v73 (F := Ideal) x5 (ix2 p q) = x5 (ix1 q) := by
  rw [val_main_v73_apply, val_main_v72_apply]
  have h : idx_main_v72 (idx_main_v73 (ix2 p q)) = ix1 q := by idx_rfl1
  rw [h]

/-- Normalised, scaled and shifted. -/
theorem v74_at (h49 : ∀ p q, val_main_v49 (F := Ideal) x0 x1 x2 x3 (ix2 p q) = f p q) (p : Fin 100000) (q : Fin 256) :
    val_main_v74 (F := Ideal) x0 x1 x2 x3 x4 x5 (ix2 p q)
      = ((f p q - mean f q) * Ideal.rsqrt (varDev f q + eps)) * x4 (ix1 q) + x5 (ix1 q) := by
  rw [val_main_v74_apply, Ideal.addf_def, val_main_v71_apply, Ideal.mulf_def, v68_at x0 x1 x2 x3 f h49, v70_at, v73_at]

/-- Values 50 to 76 over the two tables: normalise by the column mean and the mean of squared deviations, scale, shift,
    clip at zero, add the carried features. -/
theorem v76_at (h49 : ∀ p q, val_main_v49 (F := Ideal) x0 x1 x2 x3 (ix2 p q) = f p q)
    (h13 : ∀ p q, val_main_v13 (F := Ideal) x1 x10 (ix2 p q) = pre p q) (p : Fin 100000) (q : Fin 256) :
    val_main_v76 (F := Ideal) x0 x1 x2 x3 x4 x5 x10 (ix2 p q)
      = bnRelu pre f (mean f) (varDev f) (fun q => x4 (ix1 q)) (fun q => x5 (ix1 q)) p q := by
  unfold bnRelu
  rw [val_main_v76_apply, Ideal.addf_def, h13, val_main_v75_apply, Ideal.maximumf_def,
    v74_at x0 x1 x2 x3 x4 x5 f h49, val_main_call0_v0_apply, val_main_call0_cst_apply, Ideal.ofBits_def]

end Stats

/-- The first layer's output (the reference's value 76). -/
theorem ref_x2 (p : Fin 100000) (q : Fin 256) :
    at2 (val_main_v76 (F := Ideal) x0 x1 x2 x3 x4 x5 x10) p q = (inputsOf x0 x1 x2 x3 x4 x5 x6 x7 x8 x9 x10).x2 varDev p q := by
  exact v76_at x0 x1 x2 x3 x4 x5 x10 (inputsOf x0 x1 x2 x3 x4 x5 x6 x7 x8 x9 x10).hf1
    (inputsOf x0 x1 x2 x3 x4 x5 x6 x7 x8 x9 x10).pre
    (fun p q => ref_hf1 x0 x1 x2 x3 x4 x5 x6 x7 x8 x9 x10 p q) (fun p q => ref_pre x0 x1 x2 x3 x4 x5 x6 x7 x8 x9 x10 p q) p q

end Cert.ReferenceIdeal.RefValue

end
-- ==== Proof.RefBn2.lean ====
/-
  The reference's normalisation stretch, read at coordinates: from the convolution's value f and the carried features
  pre, the column mean (the column sum from zero over N), the variance as the mean of squared deviations, the reciprocal
  square root of variance plus epsilon, then scale, shift, clip at zero and add the carried features.
-/
import proofs.«428588_j4063039062434_1_alg».proof.Proof.Gen.ReferenceIdeal.Read
import proofs.«428588_j4063039062434_1_alg».proof.Proof.Spec
import Idealize.ShloMosaic.Lib.ValueIdx
import Idealize.ShloMosaic.PureOps.Ideal
import Idealize.ShloMosaic.PureOps.Ideal.Laws

noncomputable section

open Idealize.ShloMosaic Idealize.ShloMosaic.TcCoe Idealize.SL.Sem Idealize.ShloMosaic.ValueIdx
open scoped BigOperators

namespace Cert.ReferenceIdeal.RefValue

open Cert.ReferenceIdeal Cert.ReferenceIdeal.Gen Cert.ReferenceIdeal.Read Cert.Spec

/-- A rank-2 index with coordinates p and q is the index built from p and q. -/
theorem bn2_ix2_of {n m : Nat} (j : (⟨2, ![n, m]⟩ : Shape).Idx) (p : Fin n) (q : Fin m) (h0 : j 0 = p) (h1 : j 1 = q) :
    j = ix2 p q := by
  subst h0; subst h1; exact eq_ix2 j

/-- A rank-1 index with coordinate q is the index built from q. -/
theorem bn2_ix1_of {n : Nat} (j : (⟨1, ![n]⟩ : Shape).Idx) (q : Fin n) (h : j 0 = q) : j = ix1 q := by
  subst h; exact eq_ix1 j

variable (x0 : S2x800000.Idx → BitVec 32) (x1 : S100000x128.Idx → EReal) (x2 : S128x256.Idx → EReal) (x3 x4 x5 : S256.Idx → EReal) (x6 : S256x256.Idx → EReal) (x7 x8 x9 : S256.Idx → EReal) (x10 : S128x256.Idx → EReal)

/-! ## Layer two: the statistics of the convolution's value, then normalise, scale, shift, clip, add -/

section Layer2

variable (f pre : Fin 100000 → Fin 256 → EReal)

/-- The column sum from zero, divided by N, is the mean. -/
theorem bn2_mean (hf : ∀ p q, at2 (val_main_v112 (F := Ideal) x0 x1 x2 x3 x4 x5 x6 x7 x10) p q = f p q) (q : Fin 256) :
    val_main_v115 (F := Ideal) x0 x1 x2 x3 x4 x5 x6 x7 x10 (ix1 q) = mean f q := by
  rewrite [val_main_v115_apply, val_main_v113_apply, val_main_v114_apply, val_main_cst_22_apply, val_main_cst_21_apply]
  show Ideal.div (zero + ∑ k : Fin 100000, (val_main_v112 (F := Ideal) x0 x1 x2 x3 x4 x5 x6 x7 x10 (idx_main_v113 (ix1 q) k) : EReal)) cN = Ideal.div (zero + ∑ p : Fin 100000, f p q) cN
  refine congrArg (fun s : EReal => Ideal.div (zero + s) cN) (Finset.sum_congr rfl fun k _ => ?_)
  rewrite [bn2_ix2_of (idx_main_v113 (ix1 q) k) k q rfl rfl]
  exact hf k q

/-- The deviation from the column's mean (the operand of the square). -/
theorem bn2_dev (hf : ∀ p q, at2 (val_main_v112 (F := Ideal) x0 x1 x2 x3 x4 x5 x6 x7 x10) p q = f p q) (p : Fin 100000) (q : Fin 256) :
    val_main_v118 (F := Ideal) x0 x1 x2 x3 x4 x5 x6 x7 x10 (ix2 p q) = f p q - mean f q := by
  rewrite [val_main_v118_apply, val_main_v117_apply, val_main_v116_apply,
    bn2_ix1_of (idx_main_v116 (idx_main_v117 (ix2 p q))) q rfl, bn2_mean x0 x1 x2 x3 x4 x5 x6 x7 x10 f hf q,
    show val_main_v112 (F := Ideal) x0 x1 x2 x3 x4 x5 x6 x7 x10 (ix2 p q) = f p q from hf p q]
  rfl

/-- The mean of the squared deviations is the variance. -/
theorem bn2_var (hf : ∀ p q, at2 (val_main_v112 (F := Ideal) x0 x1 x2 x3 x4 x5 x6 x7 x10) p q = f p q) (q : Fin 256) :
    val_main_v122 (F := Ideal) x0 x1 x2 x3 x4 x5 x6 x7 x10 (ix1 q) = varDev f q := by
  rewrite [val_main_v122_apply, val_main_v120_apply, val_main_v121_apply, val_main_cst_24_apply, val_main_cst_23_apply]
  show Ideal.div (zero + ∑ k : Fin 100000, (val_main_v119 (F := Ideal) x0 x1 x2 x3 x4 x5 x6 x7 x10 (idx_main_v120 (ix1 q) k) : EReal)) cN
    = Ideal.div (zero + ∑ p : Fin 100000, (f p q - mean f q) * (f p q - mean f q)) cN
  refine congrArg (fun s : EReal => Ideal.div (zero + s) cN) (Finset.sum_congr rfl fun k _ => ?_)
  rewrite [bn2_ix2_of (idx_main_v120 (ix1 q) k) k q rfl rfl, val_main_v119_apply, bn2_dev x0 x1 x2 x3 x4 x5 x6 x7 x10 f hf k q]
  rfl

/-- The deviation from the column's mean (the operand of the normalisation). -/
theorem bn2_dev' (hf : ∀ p q, at2 (val_main_v112 (F := Ideal) x0 x1 x2 x3 x4 x5 x6 x7 x10) p q = f p q) (p : Fin 100000) (q : Fin 256) :
    val_main_v125 (F := Ideal) x0 x1 x2 x3 x4 x5 x6 x7 x10 (ix2 p q) = f p q - mean f q := by
  rewrite [val_main_v125_apply, val_main_v124_apply, val_main_v123_apply,
    bn2_ix1_of (idx_main_v123 (idx_main_v124 (ix2 p q))) q rfl, bn2_mean x0 x1 x2 x3 x4 x5 x6 x7 x10 f hf q,
    show val_main_v112 (F := Ideal) x0 x1 x2 x3 x4 x5 x6 x7 x10 (ix2 p q) = f p q from hf p q]
  rfl

/-- The reciprocal square root of the variance plus epsilon. -/
theorem bn2_rs (hf : ∀ p q, at2 (val_main_v112 (F := Ideal) x0 x1 x2 x3 x4 x5 x6 x7 x10) p q = f p q) (q : Fin 256) :
    val_main_v128 (F := Ideal) x0 x1 x2 x3 x4 x5 x6 x7 x10 (ix1 q) = Ideal.rsqrt (varDev f q + eps) := by
  rewrite [val_main_v128_apply, val_main_v127_apply, bn2_var x0 x1 x2 x3 x4 x5 x6 x7 x10 f hf q, val_main_v126_apply, val_main_cst_25_apply]
  rfl

/-- The normalised value. -/
theorem bn2_nrm (hf : ∀ p q, at2 (val_main_v112 (F := Ideal) x0 x1 x2 x3 x4 x5 x6 x7 x10) p q = f p q) (p : Fin 100000) (q : Fin 256) :
    val_main_v131 (F := Ideal) x0 x1 x2 x3 x4 x5 x6 x7 x10 (ix2 p q) = (f p q - mean f q) * Ideal.rsqrt (varDev f q + eps) := by
  rewrite [val_main_v131_apply, bn2_dev' x0 x1 x2 x3 x4 x5 x6 x7 x10 f hf p q, val_main_v130_apply, val_main_v129_apply,
    bn2_ix1_of (idx_main_v129 (idx_main_v130 (ix2 p q))) q rfl, bn2_rs x0 x1 x2 x3 x4 x5 x6 x7 x10 f hf q]
  rfl

theorem ref_bn2 (f pre : Fin 100000 → Fin 256 → EReal)
    (hf : ∀ p q, at2 (val_main_v112 (F := Ideal) x0 x1 x2 x3 x4 x5 x6 x7 x10) p q = f p q)
    (hpre : ∀ p q, at2 (val_main_v76 (F := Ideal) x0 x1 x2 x3 x4 x5 x10) p q = pre p q) (p : Fin 100000) (q : Fin 256) :
    at2 (val_main_v139 (F := Ideal) x0 x1 x2 x3 x4 x5 x6 x7 x8 x9 x10) p q
      = bnRelu pre f (mean f) (varDev f) (fun q => at1 x8 q) (fun q => at1 x9 q) p q := by
  show val_main_v139 (F := Ideal) x0 x1 x2 x3 x4 x5 x6 x7 x8 x9 x10 (ix2 p q) = _
  rewrite [val_main_v139_apply, val_main_v138_apply, val_main_v137_apply, val_main_v134_apply, bn2_nrm x0 x1 x2 x3 x4 x5 x6 x7 x10 f hf p q,
    val_main_v133_apply, val_main_v132_apply, bn2_ix1_of (idx_main_v132 (idx_main_v133 (ix2 p q))) q rfl,
    val_main_v136_apply, val_main_v135_apply, bn2_ix1_of (idx_main_v135 (idx_main_v136 (ix2 p q))) q rfl,
    val_main_call1_v0_apply, val_main_call1_cst_apply,
    show val_main_v76 (F := Ideal) x0 x1 x2 x3 x4 x5 x10 (ix2 p q) = pre p q from hpre p q]
  rfl

end Layer2

end Cert.ReferenceIdeal.RefValue

end
-- ==== Proof.RefLayer2.lean ====
/-
  The reference's second half at coordinates: the second layer over the first layer's output, and the network's result.
  The stages, in order: the product of the first layer's output with the second weight table; the wrapped source and
  destination words and the rows they name; the edge weight; the gathered rows and the messages; the messages summed at
  their destination nodes; the self loop and the bias. The column statistics, normalisation, clip at zero and residual
  over that output are a lemma of their own, cited at the end.
-/
import proofs.«428588_j4063039062434_1_alg».proof.Proof.Gen.ReferenceIdeal.Read
import proofs.«428588_j4063039062434_1_alg».proof.Proof.Spec
import proofs.«428588_j4063039062434_1_alg».proof.Proof.LibGatherScatter
import Idealize.ShloMosaic.Lib.StableHlo.Predicate
import Idealize.ShloMosaic.Lib.ValueLayout
import proofs.«428588_j4063039062434_1_alg».proof.Proof.RefLayer1
import proofs.«428588_j4063039062434_1_alg».proof.Proof.RefBn2

noncomputable section

open Idealize.ShloMosaic Idealize.ShloMosaic.TcCoe Idealize.SL.Sem Idealize.ShloMosaic.ValueIdx
open scoped BigOperators

namespace Cert.ReferenceIdeal.RefValue

open Cert.ReferenceIdeal Cert.ReferenceIdeal.Gen Cert.ReferenceIdeal.Read Cert.Spec
open Idealize.ShloMosaic.StableHlo.Predicate (ixP)

variable (x0 : S2x800000.Idx → BitVec 32) (x1 : S100000x128.Idx → EReal) (x2 : S128x256.Idx → EReal)
  (x3 x4 x5 : S256.Idx → EReal) (x6 : S256x256.Idx → EReal) (x7 x8 x9 : S256.Idx → EReal) (x10 : S128x256.Idx → EReal)

local notation "𝓘" => inputsOf x0 x1 x2 x3 x4 x5 x6 x7 x8 x9 x10
local notation "𝓖" => graphOfEdges x0

/-! ### Index equations: the composed index functions of the layout operations, at coordinates -/

/-- The product's left operand is read at (p, k). -/
theorem l2_ix_lhs77 (p : Fin 100000) (q k : Fin 256) : lidx_main_v77 (ix2 p q) k = ix2 p k :=
  funext fun a => Fin.ext (by match a with | ⟨0, _⟩ => rfl | ⟨1, _⟩ => rfl)

/-- The product's right operand is read at (k, q). -/
theorem l2_ix_rhs77 (p : Fin 100000) (q k : Fin 256) : ridx_main_v77 (ix2 p q) k = ix2 k q :=
  funext fun a => Fin.ext (by match a with | ⟨0, _⟩ => rfl | ⟨1, _⟩ => rfl)

/-- Row e of a one-column array of per-edge words is word e. -/
theorem l2_ix83 (e : Fin 800000) : idx_main_v83 (ixP e) = ix1 e :=
  funext fun a => Fin.ext (by match a with | ⟨0, _⟩ => rfl)
theorem l2_ix90 (e : Fin 800000) : idx_main_v90 (ixP e) = ix1 e :=
  funext fun a => Fin.ext (by match a with | ⟨0, _⟩ => rfl)
theorem l2_ix98 (e : Fin 800000) : idx_main_v98 (ixP e) = ix1 e :=
  funext fun a => Fin.ext (by match a with | ⟨0, _⟩ => rfl)
theorem l2_ix104 (e : Fin 800000) : idx_main_v104 (ixP e) = ix1 e :=
  funext fun a => Fin.ext (by match a with | ⟨0, _⟩ => rfl)

/-- The edge weight spread along a message row is read at the edge. -/
theorem l2_ix101 (e : Fin 800000) (q : Fin 256) : idx_main_v100 (idx_main_v101 (ix2 e q)) = ix1 e :=
  funext fun a => Fin.ext (by match a with | ⟨0, _⟩ => rfl)

/-- The self-loop weight spread along a node row is read at the node. -/
theorem l2_ix107 (p : Fin 100000) (q : Fin 256) : idx_main_v106 (idx_main_v107 (ix2 p q)) = ix1 p :=
  funext fun a => Fin.ext (by match a with | ⟨0, _⟩ => rfl)

/-- A per-column vector spread down the nodes is read at the column. -/
theorem l2_ix111 (p : Fin 100000) (q : Fin 256) : idx_main_v110 (idx_main_v111 (ix2 p q)) = ix1 q :=
  funext fun a => Fin.ext (by match a with | ⟨0, _⟩ => rfl)

/-! ### The product h = X W2 -/

/-- Value 77 at (p, q) is the product of the first layer's output with the second weight table. -/
theorem l2_h (p : Fin 100000) (q : Fin 256) :
    val_main_v77 (F := Ideal) x0 x1 x2 x3 x4 x5 x6 x10 (ix2 p q) = mm ((𝓘).x2 varDev) (𝓘).W2 p q := by
  rw [val_main_v77_apply]
  unfold mm
  refine Finset.sum_congr rfl fun k _ => ?_
  have hx : val_main_v76 (F := Ideal) x0 x1 x2 x3 x4 x5 x10 (ix2 p k) = (𝓘).x2 varDev p k := ref_x2 x0 x1 x2 x3 x4 x5 x6 x7 x8 x9 x10 p k
  rw [l2_ix_lhs77, l2_ix_rhs77, hx]
  rfl

/-! ### The wrapped words and the rows they name -/

/-- Value 82: the source word, a negative one wrapped by the number of nodes. -/
theorem l2_w82 (e : Fin 800000) : val_main_v82 (F := Ideal) x0 (ix1 e) = wrap ((𝓖).src e) := by
  have hs : val_main_v1 (F := Ideal) x0 (ix1 e) = (𝓖).src e := ref_src x0 e
  rw [val_main_v82_apply, val_main_v79_apply, val_main_v81_apply, val_main_v78_apply, val_main_c_14_apply,
    val_main_v80_apply, val_main_c_15_apply, hs]
  rfl

/-- Value 89: the destination word, wrapped likewise. -/
theorem l2_w89 (e : Fin 800000) : val_main_v89 (F := Ideal) x0 (ix1 e) = wrap ((𝓖).dst e) := by
  have hd : val_main_v3 (F := Ideal) x0 (ix1 e) = (𝓖).dst e := ref_dst x0 e
  rw [val_main_v89_apply, val_main_v86_apply, val_main_v88_apply, val_main_v85_apply, val_main_c_16_apply,
    val_main_v87_apply, val_main_c_17_apply, hd]
  rfl

/-- Value 97: the wrapped source word again (the spelling the row gather uses). -/
theorem l2_w97 (e : Fin 800000) : val_main_v97 (F := Ideal) x0 (ix1 e) = wrap ((𝓖).src e) := by
  have hs : val_main_v1 (F := Ideal) x0 (ix1 e) = (𝓖).src e := ref_src x0 e
  rw [val_main_v97_apply, val_main_v94_apply, val_main_v96_apply, val_main_v93_apply, val_main_c_18_apply,
    val_main_v95_apply, val_main_c_19_apply, hs]
  rfl

/-- The row the first gather reads for edge e: the wrapped source word, read signed and clamped. -/
theorem l2_row83 (e : Fin 800000) (hN : 0 < 100000) :
    RowOps.clampRow 100000 hN (val_main_v83 (F := Ideal) x0) e = rowOf (wrap ((𝓖).src e)) := by
  apply Fin.ext
  show min (BitVec.toInt (val_main_v83 (F := Ideal) x0 (ixP e))).toNat (100000 - 1) = min (wrap ((𝓖).src e)).toInt.toNat (100000 - 1)
  rw [val_main_v83_apply, l2_ix83, l2_w82]

/-- The row the second gather reads for edge e: the wrapped destination word, read signed and clamped. -/
theorem l2_row90 (e : Fin 800000) (hN : 0 < 100000) :
    RowOps.clampRow 100000 hN (val_main_v90 (F := Ideal) x0) e = rowOf (wrap ((𝓖).dst e)) := by
  apply Fin.ext
  show min (BitVec.toInt (val_main_v90 (F := Ideal) x0 (ixP e))).toNat (100000 - 1) = min (wrap ((𝓖).dst e)).toInt.toNat (100000 - 1)
  rw [val_main_v90_apply, l2_ix90, l2_w89]

/-- The row the row gather reads for edge e. -/
theorem l2_row98 (e : Fin 800000) (hN : 0 < 100000) :
    RowOps.clampRow 100000 hN (val_main_v98 (F := Ideal) x0) e = rowOf (wrap ((𝓖).src e)) := by
  apply Fin.ext
  show min (BitVec.toInt (val_main_v98 (F := Ideal) x0 (ixP e))).toNat (100000 - 1) = min (wrap ((𝓖).src e)).toInt.toNat (100000 - 1)
  rw [val_main_v98_apply, l2_ix98, l2_w97]

/-! ### The edge weight -/

/-- Value 84: rsqrt(deg) at the source row. -/
theorem l2_g84 (e : Fin 800000) : val_main_v84 (F := Ideal) x0 (ix1 e) = (𝓖).dsq (rowOf (wrap ((𝓖).src e))) := by
  unfold val_main_v84
  refine (RowOps.gather_row1 gather_S100000_S800000x1_S800000_n_0_n_n_0_1_1 rfl rfl rfl rfl
    (val_main_v12 (F := Ideal) x0) (val_main_v83 (F := Ideal) x0) e (by omega)).trans ?_
  rw [l2_row83]
  exact ref_dsq x0 _

/-- Value 91: rsqrt(deg) at the destination row. -/
theorem l2_g91 (e : Fin 800000) : val_main_v91 (F := Ideal) x0 (ix1 e) = (𝓖).dsq (rowOf (wrap ((𝓖).dst e))) := by
  unfold val_main_v91
  refine (RowOps.gather_row1 gather_S100000_S800000x1_S800000_n_0_n_n_0_1_1 rfl rfl rfl rfl
    (val_main_v12 (F := Ideal) x0) (val_main_v90 (F := Ideal) x0) e (by omega)).trans ?_
  rw [l2_row90]
  exact ref_dsq x0 _

/-- Value 92: the edge weight. -/
theorem l2_nrm (e : Fin 800000) : val_main_v92 (F := Ideal) x0 (ix1 e) = (𝓖).nrm e := by
  rw [val_main_v92_apply, l2_g84, l2_g91]
  rfl

/-! ### The messages and their sum at the destination nodes -/

/-- Value 99: the gathered row of the product, at the source row of edge e. -/
theorem l2_g99 (e : Fin 800000) (q : Fin 256) :
    val_main_v99 (F := Ideal) x0 x1 x2 x3 x4 x5 x6 x10 (ix2 e q) = mm ((𝓘).x2 varDev) (𝓘).W2 (rowOf (wrap ((𝓖).src e))) q := by
  unfold val_main_v99
  refine (RowOps.gather_rows gather_S100000x256_S800000x1_S800000x256_1_0_n_n_0_1_1256 rfl rfl rfl rfl rfl rfl
    (val_main_v77 (F := Ideal) x0 x1 x2 x3 x4 x5 x6 x10) (val_main_v98 (F := Ideal) x0) e q (by omega)).trans ?_
  rw [l2_row98]
  exact l2_h x0 x1 x2 x3 x4 x5 x6 x7 x8 x9 x10 _ q

/-- Value 102: the message of edge e, the source row of the product times the edge weight. -/
theorem l2_msg (e : Fin 800000) (q : Fin 256) :
    val_main_v102 (F := Ideal) x0 x1 x2 x3 x4 x5 x6 x10 (ix2 e q) = mm ((𝓘).x2 varDev) (𝓘).W2 (rowOf (wrap ((𝓖).src e))) q * (𝓖).nrm e := by
  rw [val_main_v102_apply, val_main_v101_apply, val_main_v100_apply, l2_ix101, l2_nrm, l2_g99 x0 x1 x2 x3 x4 x5 x6 x7 x8 x9 x10]
  rfl

/-- The row scatter-add over tables given pointwise: an operand that is zero everywhere, index words that are the
    graph's destination words, and update rows that are the messages, sum to the specification's aggregate. -/
theorem l2_scatter_agg (G : Graph) (h : Fin 100000 → Fin 256 → EReal)
    (x : S100000x256.Idx → EReal) (idx : S800000x1.Idx → BitVec 32) (upd : S800000x256.Idx → EReal)
    (hx : ∀ p q, x (ix2 p q) = zero) (hidx : ∀ e, idx (ixP e) = G.dst e)
    (hupd : ∀ e q, upd (ix2 e q) = h (rowOf (wrap (G.src e))) q * G.nrm e) (p : Fin 100000) (q : Fin 256) :
    Host.scatterAdd (F := Ideal) (φ := .f32) scatter_S100000x256_S800000x1_S800000x256_1_0_0_1 x idx upd (ix2 p q)
      = G.agg h p q := by
  simp only [Host.scatterAdd, Ideal.hostScatterAdd_def]
  rw [RowOps.scatterAdd_rows scatter_S100000x256_S800000x1_S800000x256_1_0_0_1 rfl rfl rfl rfl x idx upd p q, hx]
  unfold Graph.agg Graph.into
  refine congrArg (fun s => zero + s) (Finset.sum_congr (Finset.filter_congr fun e _ => ?_) fun e _ => hupd e q)
  show BitVec.toInt (idx (ixP e)) = ((p.val : Nat) : Int) ↔ (G.dst e).toInt = ((p.val : Nat) : Int)
  rw [hidx]

/-- Value 105: the messages summed at node p. -/
theorem l2_agg (p : Fin 100000) (q : Fin 256) :
    val_main_v105 (F := Ideal) x0 x1 x2 x3 x4 x5 x6 x10 (ix2 p q) = (𝓖).agg (mm ((𝓘).x2 varDev) (𝓘).W2) p q := by
  unfold val_main_v105
  exact l2_scatter_agg 𝓖 (mm ((𝓘).x2 varDev) (𝓘).W2) (val_main_v103 (F := Ideal)) (val_main_v104 (F := Ideal) x0)
    (val_main_v102 (F := Ideal) x0 x1 x2 x3 x4 x5 x6 x10)
    (fun p q => by rw [val_main_v103_apply, val_main_cst_20_apply, Ideal.ofBits_def])
    (fun e => by rw [val_main_v104_apply, l2_ix104]; exact ref_dst x0 e)
    (fun e q => l2_msg x0 x1 x2 x3 x4 x5 x6 x7 x8 x9 x10 e q) p q

/-! ### The self loop and the bias -/

/-- Value 112: the second convolution's output before normalisation. -/
theorem l2_hf (p : Fin 100000) (q : Fin 256) :
    val_main_v112 (F := Ideal) x0 x1 x2 x3 x4 x5 x6 x7 x10 (ix2 p q) = (𝓘).hf2 varDev p q := by
  have hdi : val_main_v11 (F := Ideal) x0 (ix1 p) = (𝓖).dinv p := ref_dinv x0 p
  have hb : (𝓘).b2 q = x7 (ix1 q) := rfl
  show _ = Graph.conv 𝓖 (mm ((𝓘).x2 varDev) (𝓘).W2) (𝓘).b2 p q
  unfold Graph.conv
  rw [hb, val_main_v112_apply, val_main_v109_apply, val_main_v108_apply, val_main_v107_apply, val_main_v106_apply,
    val_main_v111_apply, val_main_v110_apply, l2_ix107, l2_ix111, hdi, l2_agg x0 x1 x2 x3 x4 x5 x6 x7 x8 x9 x10, l2_h x0 x1 x2 x3 x4 x5 x6 x7 x8 x9 x10]
  simp only [Ideal.addf_def, Ideal.mulf_def]

/-- The second convolution's output before normalisation (the reference's value 112). -/
theorem ref_hf2 (p : Fin 100000) (q : Fin 256) :
    at2 (val_main_v112 (F := Ideal) x0 x1 x2 x3 x4 x5 x6 x7 x10) p q
      = (inputsOf x0 x1 x2 x3 x4 x5 x6 x7 x8 x9 x10).hf2 varDev p q :=
  l2_hf x0 x1 x2 x3 x4 x5 x6 x7 x8 x9 x10 p q

/-! ### Normalisation, clip at zero, residual -/

/-- The reference's result (its value 139) is the specification's output, with the variance as the mean of squared
    deviations. -/
theorem ref_out (p : Fin 100000) (q : Fin 256) :
    at2 (val_main_v139 (F := Ideal) x0 x1 x2 x3 x4 x5 x6 x7 x8 x9 x10) p q
      = (inputsOf x0 x1 x2 x3 x4 x5 x6 x7 x8 x9 x10).out varDev p q :=
  ref_bn2 x0 x1 x2 x3 x4 x5 x6 x7 x8 x9 x10 ((𝓘).hf2 varDev) ((𝓘).x2 varDev)
    (fun p q => ref_hf2 x0 x1 x2 x3 x4 x5 x6 x7 x8 x9 x10 p q) (fun p q => ref_x2 x0 x1 x2 x3 x4 x5 x6 x7 x8 x9 x10 p q) p q

end Cert.ReferenceIdeal.RefValue

end
-- ==== Proof.lean ====
/-
  The five claims of this certificate. Each of the three programs runs and leaves its eleven argument arrays as
  launched: the generated frames say so for the kernel at both instances, and the reference's run says it with the
  result beside. The idealization rewrote no operation. At the ideal instance, from memories that agree on the
  arguments, kernel and reference end with the same result array. Read at coordinates (p, q), the kernel's result is
  the two-layer network's output with each variance spelt as the mean of squares minus the squared mean; the
  reference's is the same output with each variance spelt as the mean of squared deviations. The precondition makes
  every float input a real number and every source word a row number, and on real-valued features the two spellings
  of the variance agree, so the two outputs are equal.
-/
import proofs.«428588_j4063039062434_1_alg».proof.Defs
import proofs.«428588_j4063039062434_1_alg».proof.Proof.Gen.Kernel
import proofs.«428588_j4063039062434_1_alg».proof.Proof.Gen.Kernel.Skeleton
import proofs.«428588_j4063039062434_1_alg».proof.Proof.Gen.Kernel.Launch
import proofs.«428588_j4063039062434_1_alg».proof.Proof.Gen.Kernel.Points
import proofs.«428588_j4063039062434_1_alg».proof.Proof.Gen.Kernel.Frame
import proofs.«428588_j4063039062434_1_alg».proof.Proof.Gen.KernelIdeal
import proofs.«428588_j4063039062434_1_alg».proof.Proof.Gen.KernelIdeal.Skeleton
import proofs.«428588_j4063039062434_1_alg».proof.Proof.Gen.KernelIdeal.Launch
import proofs.«428588_j4063039062434_1_alg».proof.Proof.Gen.KernelIdeal.Points
import proofs.«428588_j4063039062434_1_alg».proof.Proof.Gen.KernelIdeal.Frame
import proofs.«428588_j4063039062434_1_alg».proof.Proof.Gen.ReferenceIdeal
import proofs.«428588_j4063039062434_1_alg».proof.Proof.Gen.Pre_finite_inputs
import proofs.«428588_j4063039062434_1_alg».proof.Proof.Gen.ReferenceIdeal.Run
import proofs.«428588_j4063039062434_1_alg».proof.Proof.Gen.ReferenceIdeal.Read
import Idealize.ShloMosaic.Adequacy
import Idealize.ShloMosaic.Init
import Idealize.ShloMosaic.Lib.ValueIdx
import proofs.«428588_j4063039062434_1_alg».proof.Proof.Spec
import proofs.«428588_j4063039062434_1_alg».proof.Proof.Inputs
import proofs.«428588_j4063039062434_1_alg».proof.Proof.PreDecode
import proofs.«428588_j4063039062434_1_alg».proof.Proof.Algebra
import proofs.«428588_j4063039062434_1_alg».proof.Proof.KernelRun
import proofs.«428588_j4063039062434_1_alg».proof.Proof.KernelValue2
import proofs.«428588_j4063039062434_1_alg».proof.Proof.RefLayer2

noncomputable section

open Idealize.ShloMosaic Idealize.ShloMosaic.TcCoe Idealize.SL.Sem Idealize.ShloMosaic.ValueIdx

namespace Cert.Proof

open Cert.Spec

/-- The reference's run: its result read at coordinates is the network's output with the variance as the mean of squared
    deviations, and its arguments end as launched. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      (∀ (p : Fin 100000) (q : Fin 256),
        at2 (r.2.mem ((c.tc : Thread Cert.ReferenceIdeal.nD Cert.ReferenceIdeal.τ).loc Cert.ReferenceIdeal.main_v139)) p q
          = (Cert.ReferenceIdeal.inputsAt m' c).out varDev p q)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)) :=
  (θ_run Cert.ReferenceIdeal.defs _ _).mono (fun r h c => ⟨fun p q => by
      rw [(h c).1, Cert.ReferenceIdeal.Read.val_main_v139_eq m' c]
      exact Cert.ReferenceIdeal.RefValue.ref_out _ _ _ _ _ _ _ _ _ _ _ p q, (h c).2⟩)
    (Cert.ReferenceIdeal.Value.run (F := Ideal) m' ρ')

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (ref_run m ρ)

theorem preserves : Cert.preserves_Kernel_KernelIdeal := trivial

/-- Kernel and reference end with equal results: at every coordinate both are the network's output, under the two
    spellings of the variance, which agree on the real-valued features the precondition gives. -/
theorem algebraic : Cert.algebraic_KernelIdeal_ReferenceIdeal := by
  intro m ρ m' ρ' hpre hagree
  refine ⟨fun c => Cert.KernelIdeal.Gen.W14 m ρ c (Proc.devRef .tc Cert.KernelIdeal.main_v67),
    Cert.KernelIdeal.Gen.run_value m ρ, ?_⟩
  refine (θ_run Cert.ReferenceIdeal.defs _ _).mono (fun r h c => ⟨?_, (h c).2⟩) (ref_run m' ρ')
  -- the two memories hold the same inputs
  have hin : Cert.ReferenceIdeal.inputsAt m' c = Cert.KernelIdeal.inputsAt m c := by
    obtain ⟨h0, h1, h2, h3, h4, h5, h6, h7, h8, h9, h10⟩ := hagree c
    show Cert.Spec.inputsOf _ _ _ _ _ _ _ _ _ _ _ = Cert.Spec.inputsOf _ _ _ _ _ _ _ _ _ _ _
    rw [h0, h1, h2, h3, h4, h5, h6, h7, h8, h9, h10]
  -- equal arrays: equal at every pair of coordinates
  funext i
  obtain ⟨p, q, rfl⟩ : ∃ (p : Fin 100000) (q : Fin 256), i = ix2 p q := ⟨i 0, i 1, eq_ix2 i⟩
  exact (((h c).1 p q).trans (by
      rw [hin, ← out_varSq_eq_varDev _ (Cert.KernelIdeal.pre_finite m hpre c)])).trans
    (Cert.KernelIdeal.KVal.kernel_value m ρ c (Cert.KernelIdeal.pre_src m hpre c) p q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
